-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x128 : Shape := ⟨2, ![16384, 128]⟩
abbrev S16384 : Shape := ⟨1, ![16384]⟩
abbrev S512x100000x1 : Shape := ⟨3, ![512, 100000, 1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S512x100000x1 : S_.BroadcastsInDim S512x100000x1 (![] : Fin 0 → Fin S512x100000x1.rank)
  reducesTo_S512x100000x1_S_d0_1_2 : S512x100000x1.ReducesTo [0, 1, 2] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x128 .f32) (main_arg1 : IVec S16384 32) (main_arg2 : FVec F S512x100000x1 .f32) (main_arg3 : IVec S_ 1) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S512x100000x1 .f32 := Host.absf main_arg2
  let main_cst_0 : FVec F S_ .f32 := constant S_ .f32 0x7F800000#32
  let main_v5 : FVec F S512x100000x1 .f32 := broadcastInDim S512x100000x1 ![] bcast_S_S512x100000x1 main_cst_0
  let main_v6 : IVec S512x100000x1 1 := cmpf .olt main_v4 main_v5
  let main_c_1 : IVec S_ 1 := constantI S_ 1 1#1
  let main_v7 : IVec S_ 1 := (fun x v => Host.reduce IntOp.andi x v reducesTo_S512x100000x1_S_d0_1_2 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 99999#32
  let main_v11 : IVec S16384 32 := broadcastInDim S16384 ![] bcast_S_S16384 main_c_3
  let main_v12 : IVec S16384 1 := cmpi .sle main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x128 : Shape := ⟨2, ![16384, 128]⟩
abbrev S16384 : Shape := ⟨1, ![16384]⟩
abbrev S512x100000x1 : Shape := ⟨3, ![512, 100000, 1]⟩
abbrev S_ : Shape := ⟨0, ![]⟩
abbrev S100000x1x512 : Shape := ⟨3, ![100000, 1, 512]⟩
abbrev S51200000 : Shape := ⟨1, ![51200000]⟩
abbrev S512 : Shape := ⟨1, ![512]⟩
abbrev S16 : Shape := ⟨1, ![16]⟩
abbrev S4x1x4096 : Shape := ⟨3, ![4, 1, 4096]⟩
abbrev S128x128 : Shape := ⟨2, ![128, 128]⟩
abbrev S16384x512 : Shape := ⟨2, ![16384, 512]⟩
abbrev S4096x128 : Shape := ⟨2, ![4096, 128]⟩
abbrev S1x1x4096 : Shape := ⟨3, ![1, 1, 4096]⟩
abbrev S4096x512 : Shape := ⟨2, ![4096, 512]⟩
abbrev S1x4096 : Shape := ⟨2, ![1, 4096]⟩
abbrev S1x128x128 : Shape := ⟨3, ![1, 128, 128]⟩
abbrev S1 : Shape := ⟨1, ![1]⟩
abbrev S1x1x1 : Shape := ⟨3, ![1, 1, 1]⟩
abbrev S1024x1024 : Shape := ⟨2, ![1024, 1024]⟩
abbrev S1x1024 : Shape := ⟨2, ![1, 1024]⟩
abbrev S1024x1 : Shape := ⟨2, ![1024, 1]⟩
abbrev S4096x1 : Shape := ⟨2, ![4096, 1]⟩
abbrev S4096 : Shape := ⟨1, ![4096]⟩

abbrev nBuf : Table → Nat
  | .hbm => 10
  | .local .tc .vmem => 7
  | .local .scVector .vmem => 3
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S512x100000x1, .f32⟩
  | .hbm, ⟨3, _⟩ => ⟨S_, .i1⟩
  | .hbm, ⟨4, _⟩ => ⟨S100000x1x512, .f32⟩
  | .hbm, ⟨5, _⟩ => ⟨S51200000, .f32⟩
  | .hbm, ⟨6, _⟩ => ⟨S16384, .f32⟩
  | .hbm, ⟨7, _⟩ => ⟨S4x1x4096, .f32⟩
  | .hbm, ⟨8, _⟩ => ⟨S128x128, .f32⟩
  | .hbm, ⟨9, _⟩ => ⟨S16384x512, .f32⟩
  | .local .tc .vmem, ⟨0, _⟩ => ⟨S4096x128, .f32⟩
  | .local .tc .vmem, ⟨1, _⟩ => ⟨S4096x128, .f32⟩
  | .local .tc .vmem, ⟨2, _⟩ => ⟨S1x1x4096, .f32⟩
  | .local .tc .vmem, ⟨3, _⟩ => ⟨S1x1x4096, .f32⟩
  | .local .tc .vmem, ⟨4, _⟩ => ⟨S128x128, .f32⟩
  | .local .tc .vmem, ⟨5, _⟩ => ⟨S4096x512, .f32⟩
  | .local .tc .vmem, ⟨6, _⟩ => ⟨S4096x512, .f32⟩
  | .local .scVector .vmem, ⟨0, _⟩ => ⟨S512, .i32⟩
  | .local .scVector .vmem, ⟨1, _⟩ => ⟨S512, .i32⟩
  | .local .scVector .vmem, ⟨2, _⟩ => ⟨S512, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v1_scv : Ref sig .scVector := ⟨.hbm, 5, rfl⟩
abbrev main_arg1_scv : Ref sig .scVector := ⟨.hbm, 1, rfl⟩
abbrev main_v2_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S512x100000x1_S100000x1x512_1_2_0 : S512x100000x1.Transposes [1, 2, 0] S100000x1x512
  shapeCasts_S100000x1x512_S51200000 : S100000x1x512.ShapeCasts S51200000
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  inb_S51200000_S51200000_0 : ∀ a, (![0] : Fin 1 → Nat) a + S51200000.size a ≤ S51200000.size a
  gathers_S51200000_S512 : S51200000.Gathers 0 S512
  shapeCasts_S16384_S4x1x4096 : S16384.ShapeCasts S4x1x4096
  shapeCasts_S16384_S128x128 : S16384.ShapeCasts S128x128
  inb_S4096x128_S4096x128_0_0 : ∀ a, (![0, 0] : Fin 2 → Nat) a + S4096x128.size a ≤ S4096x128.size a
  h_S4096x128 : 0 < S4096x128.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  reduces_S1x128x128_S1 : S1x128x128.Reduces [1, 2] S1
  shapeCasts_S1_S1x1x1 : S1.ShapeCasts S1x1x1
  inpos_S1x1x1_p0_0_0 : ∀ a, (![0, 0, 0] : Fin 3 → Nat) a < S1x1x1.size a
  iota_S1024x1024_d0_w32 : S1024x1024.Iotas .tc 32 [0]
  iota_S1024x1024_d1_w32 : S1024x1024.Iotas .tc 32 [1]
  natLt_1_32 : 1 < 32
  slices_S1x4096_o0_0_S1x1024 : S1x4096.Slices ![0, 0] S1x1024
  slices_S1x4096_o0_1024_S1x1024 : S1x4096.Slices ![0, 1024] S1x1024
  slices_S1x4096_o0_2048_S1x1024 : S1x4096.Slices ![0, 2048] S1x1024
  slices_S1x4096_o0_3072_S1x1024 : S1x4096.Slices ![0, 3072] S1x1024
  concatenates_S1024x1_S1024x1_S1024x1_S1024x1_S4096x1_d0 : Shape.Concatenates [S1024x1, S1024x1, S1024x1, S1024x1] S4096x1 0
  reduces_S4096x128_S4096 : S4096x128.Reduces [1] S4096
  shapeCasts_S4096_S4096x1 : S4096.ShapeCasts S4096x1
  broadcasts_S4096x1_S4096x128 : S4096x1.Broadcasts S4096x128
  shapeCasts_S4096x1_S4096x1 : S4096x1.ShapeCasts S4096x1
  broadcasts_S4096x1_S4096x512 : S4096x1.Broadcasts S4096x512
  inb_S4096x512_S4096x512_0_0 : ∀ a, (![0, 0] : Fin 2 → Nat) a + S4096x512.size a ≤ S4096x512.size a
  h_S4096x512 : 0 < S4096x512.numel
  dot_S1024x1024_S1x1024_S1024x1_1_1_0_0_n_n_wf : DotDims.WF S1024x1024 S1x1024 S1024x1 [1] [1] [0] [0] [] []
  hcc0_scratch3 : 0 + S_.numel ≤ 10
  hcc0_scoped0 : 1 + S_.numel ≤ 10
  hcc0_scoped1 : 2 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S16384x128.size a
  hwx1_0 : ∀ i : grid1.Coords, EltTy.bits .f32 = 32 ∨ (Rect.block (s := S16384x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096.size a ≤ S4x1x4096.size a
  hwx1_1 : ∀ i : grid1.Coords, EltTy.bits .f32 = 32 ∨ (Rect.block (s := S4x1x4096) S1x1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S16384x512.size a
  hwx1_3 : ∀ i : grid1.Coords, EltTy.bits .f32 = 32 ∨ (Rect.block (s := S16384x512) S4096x512.size (cc1_transform_3 i) (hinb1_3 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
def dot_S1024x1024_S1x1024_S1024x1_1_1_0_0_n_n : DotDims S1024x1024 S1x1024 S1024x1 where
  lhsContracting := [1]
  rhsContracting := [1]
  lhsNonContracting := [0]
  rhsNonContracting := [0]
  lhsBatch := []
  rhsBatch := []
  wf := dot_S1024x1024_S1x1024_S1024x1_1_1_0_0_n_n_wf

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4096x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x128 : Shape := ⟨2, ![16384, 128]⟩
abbrev S16384 : Shape := ⟨1, ![16384]⟩
abbrev S512x100000x1 : Shape := ⟨3, ![512, 100000, 1]⟩
abbrev S_ : Shape := ⟨0, ![]⟩
abbrev S512x100000 : Shape := ⟨2, ![512, 100000]⟩
abbrev S16384x1 : Shape := ⟨2, ![16384, 1]⟩
abbrev S1 : Shape := ⟨1, ![1]⟩
abbrev S1x1 : Shape := ⟨2, ![1, 1]⟩
abbrev S512x16384 : Shape := ⟨2, ![512, 16384]⟩
abbrev S1x16384 : Shape := ⟨2, ![1, 16384]⟩
abbrev S512 : Shape := ⟨1, ![512]⟩
abbrev S512x1 : Shape := ⟨2, ![512, 1]⟩
abbrev S16384x512 : Shape := ⟨2, ![16384, 512]⟩

abbrev nBuf : Space → Nat
  | .hbm => 78
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S512x100000x1, .f32⟩
  | .hbm, ⟨3, _⟩ => ⟨S_, .i1⟩
  | .hbm, ⟨4, _⟩ => ⟨S512x100000, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S512x16384, .f32⟩
  | .hbm, ⟨24, _⟩ => ⟨S512x16384, .i1⟩
  | .hbm, ⟨25, _⟩ => ⟨S_, .f32⟩
  | .hbm, ⟨26, _⟩ => ⟨S512x16384, .f32⟩
  | .hbm, ⟨27, _⟩ => ⟨S512x16384, .f32⟩
  | .hbm, ⟨28, _⟩ => ⟨S1x16384, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x128, .f32⟩
  | .hbm, ⟨48, _⟩ => ⟨S16384x128, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x128, .f32⟩
  | .hbm, ⟨53, _⟩ => ⟨S16384x128, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S512x16384, .f32⟩
  | .hbm, ⟨65, _⟩ => ⟨S512, .i32⟩
  | .hbm, ⟨66, _⟩ => ⟨S1x16384, .f32⟩
  | .hbm, ⟨67, _⟩ => ⟨S_, .i32⟩
  | .hbm, ⟨68, _⟩ => ⟨S512, .i32⟩
  | .hbm, ⟨69, _⟩ => ⟨S512, .i1⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S512, .i32⟩
  | .hbm, ⟨74, _⟩ => ⟨S512x1, .i32⟩
  | .hbm, ⟨75, _⟩ => ⟨S512x16384, .f32⟩
  | .hbm, ⟨76, _⟩ => ⟨S512x16384, .f32⟩
  | .hbm, ⟨77, _⟩ => ⟨S16384x512, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c : Ref sig .tc := ⟨.hbm, 67, rfl⟩
abbrev main_v33 : Ref sig .tc := ⟨.hbm, 68, rfl⟩
abbrev main_v34 : Ref sig .tc := ⟨.hbm, 69, rfl⟩
abbrev main_c_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩

abbrev nD : Nat := 1
abbrev τ : Topo := Topo.v7x

variable {F : FTy → Type} [FloatOps F]

class Facts₀ : Prop where
  shapeCasts_S512x100000x1_S512x100000 : S512x100000x1.ShapeCasts S512x100000
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S512x16384_1 : S16384.BroadcastsInDim S512x16384 (![1] : Fin 1 → Fin S512x16384.rank)
  bcast_S_S512x16384 : S_.BroadcastsInDim S512x16384 (![] : Fin 0 → Fin S512x16384.rank)
  slices_S512x16384_S1x16384_0_0 : S512x16384.Slices ![0, 0] S1x16384
  shapeCasts_S1x16384_S16384 : S1x16384.ShapeCasts S16384
  reducesTo_S16384x128_S16384_d1 : S16384x128.ReducesTo [1] S16384
  reducesTo_S16384_S_d0 : S16384.ReducesTo [0] S_
  bcast_S16384x1_S16384x128_0_1 : S16384x1.BroadcastsInDim S16384x128 (![0, 1] : Fin 2 → Fin S16384x128.rank)
  bcast_S16384_S1x16384_1 : S16384.BroadcastsInDim S1x16384 (![1] : Fin 1 → Fin S1x16384.rank)
  bcast_S_S512 : S_.BroadcastsInDim S512 (![] : Fin 0 → Fin S512.rank)
  bcast_S512_S512x1_0 : S512.BroadcastsInDim S512x1 (![0] : Fin 1 → Fin S512x1.rank)
  bcast_S1x16384_S512x16384_0_1 : S1x16384.BroadcastsInDim S512x16384 (![0, 1] : Fin 2 → Fin S512x16384.rank)
  transposes_S512x16384_S16384x512_1_0 : S512x16384.Transposes [1, 0] S16384x512
  gather_S512x100000_S16384x1_S512x16384_0_1_n_n_1_1_5121_wf : GatherDims.WF S512x100000 S16384x1 S512x16384 [0] [1] [] [1] [] 1 ![512, 1]
  scatter_S512x16384_S512x1_S512x16384_1_0_0_1_wf : ScatterDims.WF S512x16384 S512x1 S512x16384 [1] [0] [0] 1

variable [Facts₀]

def gather_S512x100000_S16384x1_S512x16384_0_1_n_n_1_1_5121 : GatherDims S512x100000 S16384x1 S512x16384 where
  offsetDims := [0]
  collapsedSliceDims := [1]
  operandBatchingDims := []
  startIndicesBatchingDims := []
  startIndexMap := [1]
  indexVectorDim := 1
  sliceSizes := ![512, 1]
  wf := gather_S512x100000_S16384x1_S512x16384_0_1_n_n_1_1_5121_wf
def scatter_S512x16384_S512x1_S512x16384_1_0_0_1 : ScatterDims S512x16384 S512x1 S512x16384 where
  updateWindowDims := [1]
  insertedWindowDims := [0]
  scatterDimsToOperandDims := [0]
  indexVectorDim := 1
  wf := scatter_S512x16384_S512x1_S512x16384_1_0_0_1_wf

class Facts : Prop extends Facts₀ where

variable [Facts]
-- ==== Proof.KTerm.lean ====
/-
  The kernel's result as one pure term of its three array arguments, at any float instance.

  @main lays the weights out as a flat table `tbl W`, entry `v · 512 + r` being `W[r, v, 0]`. Every vector subcore
  gathers, for its 512 samples, the table's entry at 512 times the sample's label — row 0 of the weights at that
  label —: the array `gathered`. @main then views those 16384 targets twice, as `[4, 1, 4096]` (one slab per grid
  point of the dense kernel) and as `[128, 128]` (whole, for the targets' sum). The dense kernel's point `t` reads
  rows `4096 t … 4096 t + 4095` of the features, slab `t` of the targets and the whole `[128, 128]` view, and stores one
  `[4096, 512]` block, `bodyOut` of the three; block `t` of the result is that store.
-/
import proofs.«205095_g39934605918594_cont_8to1_b_428_16_alg».proof.KernelIdeal
import proofs.«205095_g39934605918594_cont_8to1_b_428_16_alg».proof.Proof.Gen.KernelIdeal.Skeleton
import Idealize.ShloMosaic.Lib.ValueIdx

noncomputable section

namespace Cert.KernelIdeal.KTerm

open Idealize.ShloMosaic Idealize.ShloMosaic.ValueIdx Cert.KernelIdeal Cert.KernelIdeal.Gen
open Cert.KernelIdeal.Facts₀

variable {F : FTy → Type} [FloatOps F] [Cert.KernelIdeal.Facts]

/-- The weights as @main flattens them for the gather: transposed to `[label, 1, row]`, then read row-major. -/
def tbl (W : FVec F S512x100000x1 .f32) : FVec F S51200000 .f32 :=
  shapeCast S51200000 (transpose S100000x1x512 [1, 2, 0] W Facts₀.transposes_S512x100000x1_S100000x1x512_1_2_0)
    Facts₀.shapeCasts_S100000x1x512_S51200000

/-- Sample `j`'s target: the table's entry at 512 times the sample's label (entry 0 should that word fall outside
    the table, which an in-range label never does). -/
def gathered (t : FVec F S51200000 .f32) (lab : IVec S16384 32) : FVec F S16384 .f32 := fun j =>
  if h : (lab j * 512#32).toNat < 51200000 then t (ix1 ⟨(lab j * 512#32).toNat, h⟩) else t (ix1 ⟨0, by decide⟩)

/-- The targets as four slabs of 4096. -/
def y3Of (y : FVec F S16384 .f32) : FVec F S4x1x4096 .f32 := shapeCast S4x1x4096 y Facts₀.shapeCasts_S16384_S4x1x4096
/-- The targets as a square, whole. -/
def yfOf (y : FVec F S16384 .f32) : FVec F S128x128 .f32 := shapeCast S128x128 y Facts₀.shapeCasts_S16384_S128x128

/-- What one grid point of the dense kernel stores, from the three blocks it loads. -/
def bodyOut (x : Vec F S4096x128 .f32) (y3 : Vec F S1x1x4096 .f32) (yf : Vec F S128x128 .f32) : FVec F S4096x512 .f32 :=
  k1_pay1 (k1_pay4 yf) (k1_pay6 x y3 yf) (k1_pay7 x y3 yf)

/-- Row `a` of block `t` is row `4096 t + a` of the array. -/
def blkRow (t : Fin 4) (a : Fin 4096) : Fin 16384 := ⟨4096 * t.val + a.val, by omega⟩
/-- The block a row lies in, and its place there. -/
def rowBlk (i : Fin 16384) : Fin 4 := ⟨i.val / 4096, by omega⟩
def rowIn (i : Fin 16384) : Fin 4096 := ⟨i.val % 4096, Nat.mod_lt _ (by decide)⟩

/-- Block `t` of the features: rows `4096 t …`. -/
def xBlk (X : FVec F S16384x128 .f32) (t : Fin 4) : Vec F S4096x128 .f32 := fun a =>
  X (ix2 (blkRow t (a 0)) (a 1))
/-- Slab `t` of the targets' `[4, 1, 4096]` view. -/
def y3Blk (y3 : FVec F S4x1x4096 .f32) (t : Fin 4) : Vec F S1x1x4096 .f32 := fun a =>
  y3 (ix3 t (a 1) (a 2))

/-- The dense kernel's result array: entry `(i, r)` is the store of the grid point whose block holds row `i`. -/
def dense (X : FVec F S16384x128 .f32) (y3 : FVec F S4x1x4096 .f32) (yf : FVec F S128x128 .f32) : FVec F S16384x512 .f32 := fun j =>
  bodyOut (xBlk X (rowBlk (j 0))) (y3Blk y3 (rowBlk (j 0))) yf (ix2 (rowIn (j 0)) (j 1))

/-- The kernel's result, of its features, labels and weights. -/
def out (X : FVec F S16384x128 .f32) (lab : IVec S16384 32) (W : FVec F S512x100000x1 .f32) : FVec F S16384x512 .f32 :=
  dense X (y3Of (gathered (tbl W) lab)) (yfOf (gathered (tbl W) lab))

end Cert.KernelIdeal.KTerm

end
-- ==== Proof.KBase.lean ====
/-
  The kernel's program as the SparseCore launch theorem sees it: its configuration and body table, the resource
  algebra of the proof (the launch handshakes' rounds, the dense kernel's staging cells' rounds, and the counters of
  the vector subcores' own transfers), the buffers by name, and the one thing the proof asks of the launch memory:
  every label is at most 99999, so that 512 times a label is an entry of the flattened table.
-/
import proofs.«205095_g39934605918594_cont_8to1_b_428_16_alg».proof.Defs
import proofs.«205095_g39934605918594_cont_8to1_b_428_16_alg».proof.Proof.KTerm
import proofs.«205095_g39934605918594_cont_8to1_b_428_16_alg».proof.Proof.Gen.KernelIdeal
import proofs.«205095_g39934605918594_cont_8to1_b_428_16_alg».proof.Proof.Gen.KernelIdeal.Skeleton
import proofs.«205095_g39934605918594_cont_8to1_b_428_16_alg».proof.Proof.Gen.KernelIdeal.Launch
import proofs.«205095_g39934605918594_cont_8to1_b_428_16_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

/-- The launch handshakes' rounds. -/
abbrev UH : Type := URounds (GSem nD τ sig) ℕ
/-- The dense kernel's staging cells' rounds. -/
abbrev UP : Type := UR sig nD τ
/-- Handshakes, staging cells, and the counters of the vector subcores' own transfers. -/
abbrev UU : Type := UH × (UP × Counters)

local notation "𝕄" => MT nD τ sig (HIx 1) (Elt F) ℕ UU ℕ

abbrev EH : Emb UH (MT nD τ sig (HIx 1) (Elt F) ℕ UU ℕ) := embL
abbrev ER : Emb (UP × Counters) (MT nD τ sig (HIx 1) (Elt F) ℕ UU ℕ) := embR
abbrev EP : Emb UP (MT nD τ sig (HIx 1) (Elt F) ℕ UU ℕ) := (Emb.inl : Emb UP (UP × Counters)).trans ER

/-! ## The launch memory and the buffers -/

/-- @main's arrays on device `d`: features, labels, weights, the flag; the transposed weights, the flat table, the
    gathered targets and their two views; the result. -/
abbrev xLoc (d : Dev nD) : Loc nD τ sig := (SparseCore.T d).loc main_arg0
abbrev labLoc (d : Dev nD) : Loc nD τ sig := (SparseCore.T d).loc main_arg1
abbrev wLoc (d : Dev nD) : Loc nD τ sig := (SparseCore.T d).loc main_arg2
abbrev flagLoc (d : Dev nD) : Loc nD τ sig := (SparseCore.T d).loc main_arg3
abbrev wtLoc (d : Dev nD) : Loc nD τ sig := (SparseCore.T d).loc main_v0
abbrev tblLoc (d : Dev nD) : Loc nD τ sig := (SparseCore.T d).loc main_v1
abbrev yLoc (d : Dev nD) : Loc nD τ sig := (SparseCore.T d).loc main_v2
abbrev y3Loc (d : Dev nD) : Loc nD τ sig := (SparseCore.T d).loc main_v3
abbrev yfLoc (d : Dev nD) : Loc nD τ sig := (SparseCore.T d).loc main_v4
abbrev outLoc (d : Dev nD) : Loc nD τ sig := (SparseCore.T d).loc main_v5

/-- The vector subcores' names for the three arrays they touch and their three scratch buffers. -/
abbrev tblV : Memref sig .scVector .hbm S51200000 .f32 := Memref.whole main_v1_scv
abbrev labV : Memref sig .scVector .hbm S16384 .i32 := Memref.whole main_arg1_scv
abbrev yV : Memref sig .scVector .hbm S16384 .f32 := Memref.whole main_v2_scv
abbrev idxS : Memref sig .scVector .vmem S512 .i32 := Memref.whole cc0_scratch0
abbrev offS : Memref sig .scVector .vmem S512 .i32 := Memref.whole cc0_scratch1
abbrev valS : Memref sig .scVector .vmem S512 .f32 := Memref.whole cc0_scratch2

/-- What the proof asks of the launch memory: every label is at most 99999. -/
def PreOK (m : (ℓ : Loc nD τ sig) → Buf (Elt F) ℓ) : Prop := ∀ (d : Dev nD) (j : S16384.Idx), (m (labLoc d) j).toNat ≤ 99999

end Cert.KernelIdeal.KL

end
-- ==== Proof.KPay.lean ====
/-
  What the launch handshakes carry, for the one SparseCore call.

  The 32 vector subcores are numbered as the kernel numbers them, `w = 2 s + c` for subcore `s` of SparseCore `c`;
  subcore `w` works on entries `512 w … 512 w + 511` of the labels and of the targets. The call hands subcore `w`
  the full share of its 512 labels, a read token of the flat table (which @main has written by then: the weights
  transposed and flattened), and its 512 entries of the targets' array at whatever it holds; the subcore hands back
  the same, its entries of the targets now the table's entries at 512 times the labels.
-/
import proofs.«205095_g39934605918594_cont_8to1_b_428_16_alg».proof.Proof.KBase

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- Vector subcore `s` of SparseCore `c` is worker `2 s + c`. -/
def wid (c : Fin 2) (s : Fin 16) : Fin 32 := ⟨2 * s.val + c.val, by omega⟩

theorem rdiv : 32 ∣ S16384.size 0 := ⟨512, rfl⟩
/-- Worker `w`'s 512 entries of a 16384-entry array. -/
abbrev row (w : Fin 32) : Rect S16384 := Rect.part (s := S16384) (a₀ := 0) rdiv w
abbrev labRowSet (w : Fin 32) : Finset S16384.Idx := ((labV).view.slice (row w)).set
abbrev yRowSet (w : Fin 32) : Finset S16384.Idx := ((yV).view.slice (row w)).set

/-- Worker `w`'s read token of the table. -/
abbrev tblq (w : Fin 32) : PosShare TreeShare := Transfers.shareTok fullShare 32 w

variable [FloatOps F]

/-- The flat table as the call finds it, and the targets as it leaves them. -/
abbrev tblC (d : Dev nD) : Buf (Elt F) (tblLoc d) := (KTerm.tbl (m (wLoc d)) : FVec F S51200000 .f32)
abbrev yC (d : Dev nD) : Buf (Elt F) (yLoc d) := (KTerm.gathered (KTerm.tbl (m (wLoc d))) (m (labLoc d)) : FVec F S16384 .f32)

abbrev labRowPts (d : Dev nD) (w : Fin 32) : sProp 𝕄 := labLoc d ↦[labRowSet w]{fullShare} m (labLoc d)
abbrev tblShPts (d : Dev nD) (w : Fin 32) : sProp 𝕄 := tblLoc d ↦{tblq w} tblC m d
abbrev yRowPts (d : Dev nD) (w : Fin 32) (f : Buf (Elt F) (yLoc d)) : sProp 𝕄 := yLoc d ↦[yRowSet w]{fullShare} f

/-- What one worker is handed, and hands back with its targets at `f`. -/
abbrev workerPts (d : Dev nD) (w : Fin 32) (f : Buf (Elt F) (yLoc d)) : sProp 𝕄 :=
  iprop(labRowPts m d w ∗ tblShPts m d w ∗ yRowPts d w f)

/-- The one call: SparseCore `c` takes its sixteen workers' holdings and brings them back, the targets gathered. -/
def P : (K (F := F)).Pay (nD := nD) (Val := Elt F) (Name := ℕ) (U := UU) where
  st := fun q d c => match q with
    | 0 => bigSep Finset.univ fun s : Fin 16 => workerPts m d (wid (Fin.cast nCore_zero c) s) (m (yLoc d))
  dn := fun q d c => match q with
    | 0 => bigSep Finset.univ fun s : Fin 16 => workerPts m d (wid (Fin.cast nCore_zero c) s) (yC m d)
  go := fun q d c i => match q with
    | 0 => workerPts m d (wid (Fin.cast nCore_zero c) (Fin.cast nSub_zero i)) (m (yLoc d))
  td := fun q d c i => match q with
    | 0 => workerPts m d (wid (Fin.cast nCore_zero c) (Fin.cast nSub_zero i)) (yC m d)
  x := fun _ _ => iprop(emp)

instance P_storable : (P (F := F) m).IsStorable where
  st q d c := match q with
    | 0 => (inferInstance : BI.Storable (upEmb : UEmb _ 𝕄)
      (bigSep Finset.univ fun s : Fin 16 => workerPts m d (wid (Fin.cast nCore_zero c) s) (m (yLoc d))))
  dn q d c := match q with
    | 0 => (inferInstance : BI.Storable (upEmb : UEmb _ 𝕄)
      (bigSep Finset.univ fun s : Fin 16 => workerPts m d (wid (Fin.cast nCore_zero c) s) (yC m d)))
  go q d c i := match q with
    | 0 => (inferInstance : BI.Storable (upEmb : UEmb _ 𝕄)
      (workerPts m d (wid (Fin.cast nCore_zero c) (Fin.cast nSub_zero i)) (m (yLoc d))))
  td q d c i := match q with
    | 0 => (inferInstance : BI.Storable (upEmb : UEmb _ 𝕄)
      (workerPts m d (wid (Fin.cast nCore_zero c) (Fin.cast nSub_zero i)) (yC m d)))

end Cert.KernelIdeal.KL

end
-- ==== Proof.KTile.lean ====
/-
  One vector subcore's task, at a symbolic place of the grid.
-/
import proofs.«205095_g39934605918594_cont_8to1_b_428_16_alg».proof.Proof.KPay
import Idealize.ShloMosaic.Lib.Ring
import Idealize.ShloMosaic.Lib.Pipeline.Value

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl
/-- The worker at grid point `L`: `2 · (L 1) + (L 0)`. -/
abbrev wL (L : grid0.Coords) : Fin 32 := wid (Fin.cast bound_zero (L 0)) (Fin.cast bound_one (L 1))

/-! ## The worker's 512 entries, as the program slices them -/

/-- The rectangle the program slices the labels and the targets by: 512 entries from the computed offset. -/
abbrev rowK (L : grid0.Coords) : Rect S16384 := Rect.unit (s := S16384) (k0_off1 L) S512.size (k0_off1_inb L)
/-- The worker's labels and its targets, as the program names them. -/
abbrev labRowK (L : grid0.Coords) : Memref sig .scVector .hbm S512 .i32 := (labV).slice (rowK L) (fun _ => rfl)
abbrev yRowK (L : grid0.Coords) : Memref sig .scVector .hbm S512 .f32 := (yV).slice (rowK L) (fun _ => rfl)

/-- Two unit-stride rectangles with the same offsets and sizes are one rectangle. -/
theorem unit_congr {s : Shape} {o o' z z' : Fin s.rank → Nat} (ho : o = o') (hz : z = z') (h : ∀ a, o a + z a ≤ s.size a)
    (h' : ∀ a, o' a + z' a ≤ s.size a) : Rect.unit (s := s) o z h = Rect.unit (s := s) o' z' h' := by
  subst ho; subst hz; rfl

/-- The computed offset, 1024 times the subcore plus 512 times the core, is where part (2 subcore + core) of the 32
    parts begins, and a part is 512 long: the program's rectangle is the worker's part. -/
theorem rowK_eq : rowK L = row (wL L) := by
  refine unit_congr ?_ ?_ _ _
  · rw [k0_off1_eq]
    funext a
    have ha : a = 0 := Subsingleton.elim _ _
    subst ha
    show 1024 * (L 1).val + 512 * (L 0).val = (2 * (L 1).val + (L 0).val) * (16384 / 32)
    omega
  · funext a
    have ha : a = 0 := Subsingleton.elim _ _
    subst ha
    rfl

theorem set_labRowK : (labRowK L).view.set = labRowSet (wL L) := by
  show ((labV).view.slice (rowK L)).set = ((labV).view.slice (row (wL L))).set
  rw [rowK_eq]
theorem set_yRowK : (yRowK L).view.set = yRowSet (wL L) := by
  show ((yV).view.slice (rowK L)).set = ((yV).view.slice (row (wL L))).set
  rw [rowK_eq]

/-- The labels held on the worker's part are the labels held on the program's slice, -/
theorem labPts_eq (f : Buf (Elt F) (labLoc d)) :
    (labLoc d ↦[labRowSet (wL L)]{fullShare} f : sProp 𝕄)
      = (labRowK L).view.loc (V d (cV L) (jV L)) ↦[(labRowK L).view.set]{fullShare} f := by
  rw [set_labRowK]
/-- and so for the targets. -/
theorem yPts_eq (f : Buf (Elt F) (yLoc d)) :
    (yLoc d ↦[yRowSet (wL L)]{fullShare} f : sProp 𝕄)
      = (yRowK L).view.loc (V d (cV L) (jV L)) ↦[(yRowK L).view.set]{fullShare} f := by
  rw [set_yRowK]

/-! ## What a vector subcore owns: three DMA semaphores, three scratch buffers -/

abbrev gCell (thr : Thread nD τ) : GSem nD τ sig := (thr, .dma cc0_scratch3.sem)
abbrev iCell (thr : Thread nD τ) : GSem nD τ sig := (thr, .dma cc0_scoped0.sem)
abbrev oCell (thr : Thread nD τ) : GSem nD τ sig := (thr, .dma cc0_scoped1.sem)
/-- The three cells the task uses. -/
abbrev taskCells (thr : Thread nD τ) : Finset (GSem nD τ sig) := {gCell thr, iCell thr, oCell thr}

theorem cell_ne (thr : Thread nD τ) {a b : SemLoc sig} (h : a ≠ b) : ((thr, a) : GSem nD τ sig) ≠ (thr, b) :=
  fun e => h (Prod.mk.inj e).2

theorem taskCells_sub (c : Fin τ.nSC) (i : Fin τ.nSub) : taskCells (V d c i) ⊆ ownCells (V d c i) := by
  intro g hg
  rw [Finset.mem_insert, Finset.mem_insert, Finset.mem_singleton] at hg
  rcases hg with rfl | rfl | rfl
  · exact mem_ownCells.mpr ⟨rfl, show (SemLoc.dma cc0_scratch3.sem : SemLoc sig).isScoped .scVector = true by decide⟩
  · exact mem_ownCells.mpr ⟨rfl, show (SemLoc.dma cc0_scoped0.sem : SemLoc sig).isScoped .scVector = true by decide⟩
  · exact mem_ownCells.mpr ⟨rfl, show (SemLoc.dma cc0_scoped1.sem : SemLoc sig).isScoped .scVector = true by decide⟩

/-- The subcore's semaphores at zero: the task's three, and the others. -/
theorem sems_open (c : Fin τ.nSC) (i : Fin τ.nSub) :
    (ownSems0 (V d c i) : sProp 𝕄)
      = iprop((semVal (gCell (V d c i)) 0 ∗ semVal (iCell (V d c i)) 0 ∗ semVal (oCell (V d c i)) 0)
          ∗ bigSep (ownCells (V d c i) \ taskCells (V d c i)) fun g => semVal g 0) := by
  unfold SparseCore.Cfg.ownSems0
  rw [SparseCore.bigSep_sdiff_split' (taskCells_sub d c i),
    bigSep_insert (by
      rw [Finset.mem_insert, Finset.mem_singleton]
      rintro (e | e)
      · exact cell_ne _ (by decide) e
      · exact cell_ne _ (by decide) e),
    bigSep_insert (by
      rw [Finset.mem_singleton]
      exact cell_ne _ (by decide)),
    bigSep_singleton]
  rfl

abbrev idxRef (c : Fin τ.nSC) (i : Fin τ.nSub) : DevRef τ sig := (Proc.scVector c i).devRef cc0_scratch0
abbrev offRef (c : Fin τ.nSC) (i : Fin τ.nSub) : DevRef τ sig := (Proc.scVector c i).devRef cc0_scratch1
abbrev valRef (c : Fin τ.nSC) (i : Fin τ.nSub) : DevRef τ sig := (Proc.scVector c i).devRef cc0_scratch2
/-- The three scratch buffers. -/
abbrev taskRefs (c : Fin τ.nSC) (i : Fin τ.nSub) : Finset (DevRef τ sig) := {idxRef c i, offRef c i, valRef c i}

theorem taskRefs_sub (c : Fin τ.nSC) (i : Fin τ.nSub) : taskRefs c i ⊆ ownRefs (τ := τ) (.scVector c i) := by
  intro b hb
  rw [Finset.mem_insert, Finset.mem_insert, Finset.mem_singleton] at hb
  rcases hb with rfl | rfl | rfl <;> exact SparseCore.Cfg.mem_ownRefs_of_owner rfl

theorem ref_ne (c : Fin τ.nSC) (i : Fin τ.nSub) {a b : Ref sig .scVector} (h : a ≠ b) :
    (Proc.scVector c i).devRef a ≠ (Proc.scVector c i).devRef b := fun e => h (Proc.devRef_injective _ e)

/-- The subcore's buffers at some contents: the three scratch buffers, and the others. -/
theorem bufs_open (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f))
          ∗ bigSep (ownRefs (τ := τ) (.scVector c i) \ taskRefs c i) fun b => iprop(∃ f, ((d, b) : Loc nD τ sig) ↦{fullShare} f)) := by
  unfold SparseCore.Cfg.ownBufs
  rw [show ((V d c i : Thread nD τ).2) = Proc.scVector c i from rfl,
    SparseCore.bigSep_sdiff_split' (taskRefs_sub c i),
    bigSep_insert (by
      rw [Finset.mem_insert, Finset.mem_singleton]
      rintro (e | e)
      · exact ref_ne c i (by decide) e
      · exact ref_ne c i (by decide) e),
    bigSep_insert (by
      rw [Finset.mem_singleton]
      exact ref_ne c i (by decide)),
    bigSep_singleton]
  rfl

/-! ## The buffers, in the program's names -/

theorem tblPts_eq (q : PosShare TreeShare) (f : Buf (Elt F) (tblLoc d)) :
    (tblLoc d ↦{q} f : sProp 𝕄) = (tblV).view.loc (V d (cV L) (jV L)) ↦{q} f := rfl
theorem idxPts_eq (f : Buf (Elt F) ((V d (cV L) (jV L)).loc cc0_scratch0)) :
    ((V d (cV L) (jV L)).loc cc0_scratch0 ↦{fullShare} f : sProp 𝕄) = (idxS).view.loc (V d (cV L) (jV L)) ↦{fullShare} f := rfl
theorem offPts_eq (f : Buf (Elt F) ((V d (cV L) (jV L)).loc cc0_scratch1)) :
    ((V d (cV L) (jV L)).loc cc0_scratch1 ↦{fullShare} f : sProp 𝕄) = (offS).view.loc (V d (cV L) (jV L)) ↦{fullShare} f := rfl
theorem valPts_eq (f : Buf (Elt F) ((V d (cV L) (jV L)).loc cc0_scratch2)) :
    ((V d (cV L) (jV L)).loc cc0_scratch2 ↦{fullShare} f : sProp 𝕄) = (valS).view.loc (V d (cV L) (jV L)) ↦{fullShare} f := rfl

/-! ## The values: the offsets, the gathered entries, the targets -/

/-- The worker's labels, by place among its 512, -/
abbrev labW : S512.Idx → BitVec 32 := (labRowK L).view.read (Elt F) (m (labLoc d))
/-- and 512 times each: the offsets the gather reads. -/
def offW : S512.Idx → BitVec 32 := fun y => labW m d L y * 512#32

/-- One of the thirty-two stores: sixteen labels read out of the first scratch buffer, once it holds the worker's
    labels, each times 512, are sixteen of the offsets. -/
theorem piece_val (pay : S512.Idx → Elt F .i32) (fi : Buf (Elt F) ((V d (cV L) (jV L)).loc cc0_scratch0)) {o : Nat}
    (h : ∀ a, (![o] : Fin 1 → Nat) a + S16.size a ≤ S512.size a) (h1 h2 : S16.ShapeCasts S16) (x : S16.Idx) :
    shapeCast S16 (muli (shapeCast S16 ((idxS).view.readAt (Elt F) (Rect.unit (s := S512) ![o] S16.size h).toLoadRect
        ((idxS).view.write (Elt F) fi pay Finset.univ)) h1) (broadcast S16 512#32)) h2 x
      = pay ((Rect.unit (s := S512) ![o] S16.size h).emb x) * 512#32 := by
  rw [shapeCast_self]
  show IntOp.muli (shapeCast S16 _ h1 x) (512#32) = _
  rw [shapeCast_self]
  refine congrArg (fun w : BitVec 32 => w * 512#32) ?_
  show (View.whole cc0_scratch0).read (Elt F) ((View.whole cc0_scratch0).write (Elt F) fi pay Finset.univ)
      ((Rect.unit (s := S512) ![o] S16.size h).toLoadRect.idx x) = _
  rw [View.write_whole_univ]
  rfl

/-- A label is at most 99999: 512 times it does not wrap, and is an entry of the table. -/
theorem offW_toNat (hpre : PreOK m) (y : S512.Idx) :
    (offW m d L y).toNat = 512 * (labW m d L y).toNat ∧ (offW m d L y).toNat < 51200000 := by
  have hl : (labW m d L y).toNat ≤ 99999 := by
    have e : labW m d L y = m (labLoc d) ((labRowK L).view.emb y) := (View.read_apply _ _).trans (cast_eq _ _)
    rw [e]; exact hpre d _
  have e2 : (offW m d L y).toNat = (labW m d L y).toNat * 512 % 2 ^ 32 := by
    unfold offW; rw [BitVec.toNat_mul]; rfl
  rw [e2]
  omega

/-- Stores that are each a block of the offsets and together cover the buffer leave the offsets, whatever it held. -/
theorem off_read (Lst : List (View.Piece (Elt F) S512 .i32))
    (hG : ∀ p ∈ Lst, ∀ x : p.1.shape.Idx, p.2 x = offW m d L (p.1.emb x)) (hc : ∀ y : S512.Idx, ∃ p ∈ Lst, y ∈ p.1.set)
    (g : Buf (Elt F) ((V d (cV L) (jV L)).loc cc0_scratch1)) (y : S512.Idx) :
    (offS).view.read (Elt F) ((offS).view.writes (Elt F) g Lst) y = offW m d L y :=
  View.read_writes_apply_of_pieces (offS).view g (offW m d L) Lst hG y (hc y)

/-- So every word the gather reads is an entry of the table. -/
theorem off_inb (hpre : PreOK m) (Lst : List (View.Piece (Elt F) S512 .i32))
    (hG : ∀ p ∈ Lst, ∀ x : p.1.shape.Idx, p.2 x = offW m d L (p.1.emb x)) (hc : ∀ y : S512.Idx, ∃ p ∈ Lst, y ∈ p.1.set)
    (g : Buf (Elt F) ((V d (cV L) (jV L)).loc cc0_scratch1)) :
    ∀ x, ((offS).view.read (Elt F) ((offS).view.writes (Elt F) g Lst) x).toNat < 51200000 := fun x => by
  rw [off_read m d L Lst hG hc g x]; exact (offW_toNat m d L hpre x).2

/-- A rank-one index is the row-major place of its coordinate. -/
theorem rowMajor_symm_rank1 {n : Nat} (x : (⟨1, ![n]⟩ : Shape).Idx) (k : Fin (⟨1, ![n]⟩ : Shape).numel) (hk : k.val = (x 0).val) :
    (⟨1, ![n]⟩ : Shape).rowMajor.symm k = x := by
  rw [Equiv.symm_apply_eq]
  apply Fin.ext
  rw [hk]
  show (x 0).val = (x 0).val * 1 + 0
  omega

/-- A target whose label times 512 is an entry of the table is that entry. -/
theorem gathered_of_lt (t : FVec F S51200000 .f32) (lab : IVec S16384 32) (j : S16384.Idx) (h : (lab j * 512#32).toNat < 51200000) :
    KTerm.gathered t lab j = t (ValueIdx.ix1 ⟨(lab j * 512#32).toNat, h⟩) := dif_pos h

/-- What the gather leaves at place x of the third scratch buffer, the list holding the worker's offsets: the table's
    entry at 512 times the worker's label x, which is the target due at the worker's place x of the targets. -/
theorem gather_val (hpre : PreOK m) (offs : S512.Idx → Elt F .i32) (ho : ∀ y, offs y = offW m d L y)
    (hn : S512.numel = S512.size gathers_S51200000_S512.axis')
    (hin : ∀ x, (offs x).toNat < S51200000.size gathers_S51200000_S512.axis)
    (hsl : ∀ a, (Rect.unit (s := S51200000) ![0] S51200000.size inb_S51200000_S51200000_0).stride a = 1) (x : S512.Idx) :
    SparseCore.gatherPayload gathers_S51200000_S512
        (((tblV).slice (Rect.unit (s := S51200000) ![0] S51200000.size inb_S51200000_S51200000_0) hsl).view.read (Elt F) (tblC m d))
        (SparseCore.rows offs hn hin) x
      = yC m d ((labRowK L).view.emb x) := by
  have hlt : (labW m d L x * 512#32).toNat < 51200000 := (offW_toNat m d L hpre x).2
  refine Eq.trans ?_ (gathered_of_lt (KTerm.tbl (m (wLoc d))) (m (labLoc d)) ((labRowK L).view.emb x) hlt).symm
  refine (View.read_apply _ _).trans ((cast_eq _ _).trans (congrArg _ ?_))
  funext a
  match a with
  | ⟨0, _⟩ =>
    apply Fin.ext
    have hx : S512.rowMajor.symm ((x 0).cast hn.symm) = x := rowMajor_symm_rank1 x _ rfl
    show 0 + 1 * (offs (S512.rowMajor.symm ((x 0).cast hn.symm))).toNat = (labW m d L x * 512#32).toNat
    rw [hx, ho x]
    unfold offW
    omega

/-- A whole-buffer write read back is the payload. -/
theorem read_whole_piece {κ : Kind} {sp : Space} {s : Shape} {e : EltTy} (v : View sig κ sp s e) (f : v.ty.Contents (Elt F))
    (w : s.Idx → Elt F e) (x : s.Idx) : v.read (Elt F) (v.writes (Elt F) f [⟨Rect.whole s, w⟩]) x = w x := by
  have h := View.read_writes_cons_emb v f (Rect.whole s) w [] x
  rwa [Rect.emb_whole_apply] at h

/-- The worker's targets after the copy-out: at every entry of its part, the target due there. -/
theorem yRow_val (f : Buf (Elt F) (yLoc d)) (w : S512.Idx → Elt F .f32) (hw : ∀ x, w x = yC m d ((labRowK L).view.emb x)) :
    ∀ i ∈ (yRowK L).view.set, ((yRowK L).view.writes (Elt F) f [⟨Rect.whole S512, w⟩]) i = yC m d i := by
  intro i hi
  obtain ⟨x, -, rfl⟩ := Finset.mem_map.mp hi
  have h := read_whole_piece (F := F) (yRowK L).view f w x
  rw [View.read_apply, cast_eq] at h
  rw [h, hw x]
  rfl

set_option maxHeartbeats 4000000 in
/-- The task on vector subcore `(L 0, L 1)` of device `d`: it copies its 512 labels into its first scratch buffer and
    waits; stores 512 times each label, sixteen at a time, into its second; gathers the table's entries at those
    offsets into its third and waits; copies the third out to its 512 entries of the targets and waits. It ends
    holding what it was handed, its entries of the targets at the gathered values. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ workerPts m d (wL L) (m (yLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tblV (Memref.isWhole_whole _) labV (Memref.isWhole_whole _) yV (Memref.isWhole_whole _)
            idxS (Memref.isWhole_whole _) offS (Memref.isWhole_whole _) valS (Memref.isWhole_whole _) cc0_scratch3 cc0_scoped0 cc0_scoped1)
          fun _ => iprop(workerPts m d (wL L) (yC m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    sems_open, bufs_open]
  iintro ⟨#Hlv, -, ⟨Hlab, Htbl, Hy⟩, ⟨⟨⟨%fi, Hidx⟩, ⟨%fo, Hoff⟩, ⟨%fv, Hval⟩⟩, Hbufs⟩, ⟨⟨Hsg, Hsi, Hso⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hlab' := (Entails.of_eq (labPts_eq (F := F) d L _)) $$ Hlab
  ihave Hy' := (Entails.of_eq (yPts_eq (F := F) d L _)) $$ Hy
  ihave Htbl' := (Entails.of_eq (tblPts_eq (F := F) d L _ _)) $$ Htbl
  ihave Hidx' := (Entails.of_eq (idxPts_eq (F := F) d L _)) $$ Hidx
  ihave Hoff' := (Entails.of_eq (offPts_eq (F := F) d L _)) $$ Hoff
  ihave Hval' := (Entails.of_eq (valPts_eq (F := F) d L _)) $$ Hval
  sl_exec
  have hG : ∀ p ∈ tile_body.sl.Hoff'_32 m d L fi, ∀ x : p.1.shape.Idx, p.2 x = offW m d L (p.1.emb x) := by
    unfold tile_body.sl.Hoff'_32
    repeat' (first | (refine List.forall_mem_cons.mpr ⟨?_, ?_⟩) | (exact fun _ h => absurd h List.not_mem_nil))
    all_goals exact fun x => piece_val d L _ fi _ _ _ x
  have hc : ∀ y : S512.Idx, ∃ p ∈ tile_body.sl.Hoff'_32 m d L fi, y ∈ p.1.set :=
    View.cover_of_tiledL _ S16.size (by sl_kernel_rfl)
  have hin : ∀ x, ((offS).view.read (Elt F) ((offS).view.writes (Elt F) (offS).view.junk (tile_body.sl.Hoff'_32 m d L fi)) x).toNat < 51200000 :=
    off_inb m d L hpre _ hG hc _
  sl_exec
  sl_step
  -- the values: the third scratch buffer holds the gathered entries, the copy-out carries them to the worker's targets
  have hval : ∀ x, tile_body.sl.dma0_1 m d L fi fv hin x = yC m d ((labRowK L).view.emb x) := fun x => by
    show (valS).view.read (Elt F) ((valS).view.writes (Elt F) fv [⟨Rect.whole S512, tile_body.sl.gather0 m d L fi hin⟩]) x = _
    rw [read_whole_piece]
    exact gather_val m d L hpre _ (off_read m d L _ hG hc _) _ _ _ x
  ihave Hlab2 := (Entails.of_eq (labPts_eq (F := F) d L _).symm) $$ Hlab'
  ihave Hy2 := (Entails.of_eq ((pointsTo_congr (yRow_val m d L _ _ hval)).trans (yPts_eq (F := F) d L _).symm)) $$ Hy'
  isplitl [Hlab2 Htbl' Hy2]
  · isplitl [Hlab2]
    · iexact Hlab2
    isplitl [Htbl']
    · iexact Htbl'
    iexact Hy2
  isplitl [Hidx' Hoff' Hval' Hbufs]
  · isplitl [Hidx' Hoff' Hval']
    · isplitl [Hidx']
      · iexists _; iexact Hidx'
      isplitl [Hoff']
      · iexists _; iexact Hoff'
      iexists _; iexact Hval'
    iexact Hbufs
  isplitl [Hsg Hsi Hso Hsems]
  · isplitl [Hsg Hsi Hso]
    · isplitl [Hsg]
      · iexact Hsg
      isplitl [Hsi]
      · iexact Hsi
      iexact Hso
    iexact Hsems
  iexists _
  isplitr
  swap
  · iexact HO
  · ipureintro
    intro p hp
    rw [Finset.mem_insert, Finset.mem_insert, Finset.mem_insert] at hp
    rcases hp with rfl | rfl | rfl | hp
    · exact Or.inr rfl
    · exact Or.inr rfl
    · exact Or.inr rfl
    · exact Or.inl hp

end Tile

end Cert.KernelIdeal.KL

end
-- ==== Proof.KObl.lean ====
/-
  The gather call's obligation: the task of every vector subcore of the call's grid is the body proved at that
  subcore's grid point.
-/
import proofs.«205095_g39934605918594_cont_8to1_b_428_16_alg».proof.Proof.KTile

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row for a vector subcore is the gather kernel at that subcore's grid point, on the whole arrays
    and the subcore's scratch. -/
theorem defs₀_vector (c : Fin τ.nSC) (s : Fin τ.nSub) :
    defs₀ (F := F) (.scVector c s) 0 ()
      = SparseCore.onTile hcore0 hsub0 (fun c s => cc0_gather_kernel (coordsV c s)
          tblV (Memref.isWhole_whole _) labV (Memref.isWhole_whole _) yV (Memref.isWhole_whole _)
          idxS (Memref.isWhole_whole _) offS (Memref.isWhole_whole _) valS (Memref.isWhole_whole _) cc0_scratch3 cc0_scoped0 cc0_scoped1) ⟨⟩ c s := rfl

omit [FloatOps F] in
/-- A task that recorded only waits of its own leaves recorded pairs the obligation admits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) facts hpre O W hO).trans (wp_mono frame _ _ fun _ => obl_post)

end Cert.KernelIdeal.KL

end
-- ==== Proof.KSplit.lean ====
/-
  How the call's operands split among the 32 workers and join again: the labels and the targets row by row (the
  32 parts of 512 tile the 16384 entries), the flat table by its 32 read tokens; per SparseCore, its sixteen
  workers are those numbered `2 s + c`.
-/
import proofs.«205095_g39934605918594_cont_8to1_b_428_16_alg».proof.Proof.KPay

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The rows of a 16384-entry array -/

/-- Worker `w`'s entries of the labels, seen through the subcores' name for the array, are the `w`-th of the 32
    parts of 512 entries. -/
theorem labRowSet_eq (w : Fin 32) : labRowSet w = (row w).set := by
  show ((View.whole (main_arg1_scv : Ref sig .scVector)).slice (row w)).set = _
  rw [View.set_slice]; exact Finset.map_refl
/-- Likewise for the targets. -/
theorem yRowSet_eq (w : Fin 32) : yRowSet w = (row w).set := by
  show ((View.whole (main_v2_scv : Ref sig .scVector)).slice (row w)).set = _
  rw [View.set_slice]; exact Finset.map_refl

/-- Two workers' rows do not meet, -/
theorem labRows_disjoint : ∀ i ∈ (Finset.univ : Finset (Fin 32)), ∀ j ∈ (Finset.univ : Finset (Fin 32)), i ≠ j → Disjoint (labRowSet i) (labRowSet j) :=
  fun i _ j _ h => by rw [labRowSet_eq, labRowSet_eq]; exact Rect.part_disjoint rdiv h
theorem yRows_disjoint : ∀ i ∈ (Finset.univ : Finset (Fin 32)), ∀ j ∈ (Finset.univ : Finset (Fin 32)), i ≠ j → Disjoint (yRowSet i) (yRowSet j) :=
  fun i _ j _ h => by rw [yRowSet_eq, yRowSet_eq]; exact Rect.part_disjoint rdiv h
/-- and the 32 rows are the whole array. -/
theorem labRows_cover : (Finset.univ : Finset (Fin 32)).biUnion labRowSet = Finset.univ :=
  (Finset.biUnion_congr rfl fun i _ => labRowSet_eq i).trans (Rect.biUnion_part rdiv)
theorem yRows_cover : (Finset.univ : Finset (Fin 32)).biUnion yRowSet = Finset.univ :=
  (Finset.biUnion_congr rfl fun i _ => yRowSet_eq i).trans (Rect.biUnion_part rdiv)

/-- So an array held whole is its 32 rows held apart, at the same contents: an equation of assertions. -/
theorem labPts_rows (d : Dev nD) (f : Buf (Elt F) (labLoc d)) :
    (labLoc d ↦{fullShare} f : sProp 𝕄) = bigSep Finset.univ fun w : Fin 32 => labLoc d ↦[labRowSet w]{fullShare} f := by
  rw [← pointsTo_biUnion Finset.univ (ℓ := labLoc d) labRowSet labRows_disjoint, labRows_cover]; try rfl
theorem yPts_rows (d : Dev nD) (f : Buf (Elt F) (yLoc d)) :
    (yLoc d ↦{fullShare} f : sProp 𝕄) = bigSep Finset.univ fun w : Fin 32 => yLoc d ↦[yRowSet w]{fullShare} f := by
  rw [← pointsTo_biUnion Finset.univ (ℓ := yLoc d) yRowSet yRows_disjoint, yRows_cover]; try rfl

/-! ## The numbering of the workers -/

/-- `(c, s) ↦ 2 s + c` numbers the 2 × 16 subcores by `0 … 31`; `w ↦ (w mod 2, w div 2)` reads the number back. -/
def widEquiv : Fin 2 × Fin 16 ≃ Fin 32 where
  toFun p := wid p.1 p.2
  invFun w := (⟨w.val % 2, Nat.mod_lt _ (by omega)⟩, ⟨w.val / 2, by have := w.isLt; omega⟩)
  left_inv := fun ⟨c, s⟩ => by
    have hc := c.isLt; have hs := s.isLt
    refine Prod.ext (Fin.ext ?_) (Fin.ext ?_)
    · show (2 * s.val + c.val) % 2 = c.val; omega
    · show (2 * s.val + c.val) / 2 = s.val; omega
  right_inv := fun w => Fin.ext (by show 2 * (w.val / 2) + w.val % 2 = w.val; omega)

/-- The sixteen subcores of a SparseCore, re-indexed by the configuration's own count of them. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- The two SparseCores, likewise. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Something held once per subcore of each SparseCore is held once per worker. -/
theorem bigSep_workers (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_cores (F := F) (fun c => bigSep Finset.univ fun s : Fin 16 => Φ (wid c s)),
    ← bigSep_univ_prod (fun p : Fin 2 × Fin 16 => Φ (wid p.1 p.2)), bigSep_univ_equiv widEquiv Φ]
  rfl

/-! ## The split and the join -/

/-- The two SparseCores' holdings with the targets at `f` are the labels whole, the 32 read tokens and the targets
    whole at `f`: the workers' holdings taken apart component by component, and each array's rows put together. -/
theorem cores_eq_whole (d : Dev nD) (f : Buf (Elt F) (yLoc d)) :
    (bigSep Finset.univ fun c : Fin ((K (F := F)).nCore 0) => bigSep Finset.univ fun s : Fin 16 => workerPts m d (wid (Fin.cast nCore_zero c) s) f)
      = iprop((labLoc d ↦{fullShare} m (labLoc d)) ∗ (bigSep Finset.univ fun w : Fin 32 => tblShPts m d w) ∗ (yLoc d ↦{fullShare} f)) := by
  rw [bigSep_workers (F := F) (fun w => workerPts m d w f), labPts_rows, yPts_rows]
  show (bigSep Finset.univ fun w : Fin 32 => iprop(labRowPts m d w ∗ tblShPts m d w ∗ yRowPts d w f)) = _
  rw [bigSep_sep', bigSep_sep']

/-- One SparseCore's operands are its sixteen workers', and its results theirs. -/
theorem vecSplit : (K (F := F)).VecSplit' (P m) 0 := by
  intro d c
  show (bigSep Finset.univ fun s : Fin 16 => workerPts m d (wid (Fin.cast nCore_zero c) s) (m (yLoc d))) ⊢ |={Set.univ}=> iprop(
      (bigSep Finset.univ fun i : Fin ((K (F := F)).nSub 0) => workerPts m d (wid (Fin.cast nCore_zero c) (Fin.cast nSub_zero i)) (m (yLoc d)))
      ∗ ((bigSep Finset.univ fun i : Fin ((K (F := F)).nSub 0) => workerPts m d (wid (Fin.cast nCore_zero c) (Fin.cast nSub_zero i)) (yC m d))
          -∗ bigSep Finset.univ fun s : Fin 16 => workerPts m d (wid (Fin.cast nCore_zero c) s) (yC m d)))
  rw [bigSep_tasks (F := F) (fun s => workerPts m d (wid (Fin.cast nCore_zero c) s) (m (yLoc d))),
    bigSep_tasks (F := F) (fun s => workerPts m d (wid (Fin.cast nCore_zero c) s) (yC m d))]
  iintro H; imodintro
  isplitl [H]; · iexact H
  iintro H; iexact H

/-- The labels whole, the table's 32 read tokens and the targets whole are the two SparseCores' operands; -/
theorem st_of_whole (d : Dev nD) :
    iprop((labLoc d ↦{fullShare} m (labLoc d)) ∗ (bigSep Finset.univ fun w : Fin 32 => tblShPts m d w) ∗ (yLoc d ↦{fullShare} m (yLoc d)))
      ⊢ bigSep Finset.univ fun c : Fin ((K (F := F)).nCore 0) => (P m).st 0 d c := by
  rw [← cores_eq_whole m d (m (yLoc d))]
  exact BI.Entails.refl _

/-- and their results are the labels whole, the tokens, and the targets whole at the gathered values. -/
theorem whole_of_dn (d : Dev nD) :
    (bigSep Finset.univ fun c : Fin ((K (F := F)).nCore 0) => (P m).dn 0 d c)
      ⊢ iprop((labLoc d ↦{fullShare} m (labLoc d)) ∗ (bigSep Finset.univ fun w : Fin 32 => tblShPts m d w) ∗ (yLoc d ↦{fullShare} yC m d)) := by
  rw [← cores_eq_whole m d (yC m d)]
  exact BI.Entails.refl _

end Cert.KernelIdeal.KL

end
-- ==== Proof.KRegionBody.lean ====
/-
  The dense kernel's body at one grid point: it loads its three input blocks whole, and stores one whole block, the
  term `KTerm.bodyOut` of the three; and the pipeline's proof data built on that.
-/
import proofs.«205095_g39934605918594_cont_8to1_b_428_16_alg».proof.Proof.KPay
import Idealize.ShloMosaic.Lib.Pipeline.FrameBody
import Idealize.ShloMosaic.Lib.Pipeline.Value

set_option maxRecDepth 16384

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body's triple -/

/-- The offsets of a whole-block access, as the printed text spells them, are zero on every axis. -/
theorem hz2 : (![0, 0] : Fin 2 → Nat) = fun _ => 0 := by funext a; fin_cases a <;> rfl
theorem hz3 : (![0, 0, 0] : Fin 3 → Nat) = fun _ => 0 := by funext a; fin_cases a <;> rfl

/-- The body's one store covers the output block. -/
theorem cover_out (p0 : Vec F S4096x512 .f32) (y : S4096x512.Idx) :
    ∃ pc ∈ ([⟨Rect.unit (s := S4096x512) ![0, 0] S4096x512.size inb_S4096x512_S4096x512_0_0, p0⟩] : List (View.Piece (Elt F) S4096x512 .f32)),
      y ∈ pc.1.set :=
  ⟨_, List.mem_singleton_self _, View.mem_set_unit_zero (S := S4096x512) hz2 inb_S4096x512_S4096x512_0_0 y⟩

set_option maxHeartbeats 1000000 in
/-- The kernel body on whole staging memrefs, the inputs' at read contents `x0 x1 x2` and the output's at anything,
    runs to the continuation holding the inputs' as they were and the output's at `KTerm.bodyOut x0 x1 x2`. -/
theorem sound_kernel (c : Dev nD) (E : Set ℕ) (i : grid1.Coords)
    (arg1 : Memref sig .tc .vmem S4096x128 .f32) (harg1 : arg1.IsWhole) (arg2 : Memref sig .tc .vmem S1x1x4096 .f32) (harg2 : arg2.IsWhole)
    (arg3 : Memref sig .tc .vmem S128x128 .f32) (harg3 : arg3.IsWhole) (arg4 : Memref sig .tc .vmem S4096x512 .f32) (harg4 : arg4.IsWhole)
    (x0 : Vec F S4096x128 .f32) (x1 : Vec F S1x1x4096 .f32) (x2 : Vec F S128x128 .f32) (Kc : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (KTerm.bodyOut x0 x1 x2)) -∗ Kc ⟨⟩))
      ⊢ wp frame (wpE (defs₀ (F := F)) Variants.none c none) E (cc1__dense_body i arg1 harg1 arg2 harg2 arg3 harg3 arg4 harg4) Kc := by
  simp only [cc1__dense_body_eq_skeleton]; unfold cc1__dense_body_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover_out _)).trans ?_
  refine (View.canon_unit_zero (S := S4096x512) hz2 _ _).trans ?_
  have e0 : View.readAt (Elt F) arg1.view (Rect.unit (s := S4096x128) ![0, 0] S4096x128.size inb_S4096x128_S4096x128_0_0).toLoadRect f0
      = arg1.view.read (Elt F) f0 := View.ld_unit_zero (S := S4096x128) hz2 _ _
  have e1 : View.readAt (Elt F) arg2.view (Rect.unit (s := S1x1x4096) ![0, 0, 0] S1x1x4096.size inb_S1x1x4096_S1x1x4096_0_0_0).toLoadRect f1
      = arg2.view.read (Elt F) f1 := View.ld_unit_zero (S := S1x1x4096) hz3 _ _
  have e2 : View.readAt (Elt F) arg3.view (Rect.unit (s := S128x128) ![0, 0] S128x128.size inb_S128x128_S128x128_0_0).toLoadRect f2
      = arg3.view.read (Elt F) f2 := View.ld_unit_zero (S := S128x128) hz2 _ _
  dsimp only
  rw [e0, e1, e2]
  rfl

/-! ## What @main's arrays hold when the region is entered -/

variable (m : (ℓ : Loc nD τ sig) → Buf (Elt F) ℓ)

/-- The dense kernel's pipeline has no prefetched table. -/
abbrev aAdm : (p : Fin 1) → (pcfgs (F := F) p).Adm := fun p => (cfgs p).toPCfg_adm

/-- The weights transposed; the targets' two views; the result. -/
abbrev wtC (d : Dev nD) : Buf (Elt F) (wtLoc d) :=
  (transpose S100000x1x512 [1, 2, 0] (m (wLoc d)) Facts₀.transposes_S512x100000x1_S100000x1x512_1_2_0 : FVec F S100000x1x512 .f32)
abbrev y3C (d : Dev nD) : Buf (Elt F) (y3Loc d) :=
  (KTerm.y3Of (KTerm.gathered (KTerm.tbl (m (wLoc d))) (m (labLoc d))) : FVec F S4x1x4096 .f32)
abbrev yfC (d : Dev nD) : Buf (Elt F) (yfLoc d) :=
  (KTerm.yfOf (KTerm.gathered (KTerm.tbl (m (wLoc d))) (m (labLoc d))) : FVec F S128x128 .f32)
abbrev outC (d : Dev nD) : Buf (Elt F) (outLoc d) :=
  (KTerm.out (m (xLoc d)) (m (labLoc d)) (m (wLoc d)) : FVec F S16384x512 .f32)

/-- Each window's array at the region's entry: the features and the result's array as launched, the targets' two
    views as @main's reshapes wrote them. -/
def entryA (c : Dev nD) (w : Fin cfg1.W) : Buf (Elt F) ((cfg1.win w).arr.view.loc (c : Thread nD τ)) :=
  match w with
  | ⟨0, _⟩ => m (xLoc c)
  | ⟨1, _⟩ => y3C m c
  | ⟨2, _⟩ => yfC m c
  | ⟨3, _⟩ => m (outLoc c)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (entryA m c w)

/-! ## The pipeline's proof data -/

/-- The proof data of the dense kernel's pipeline on core `c`: the arrays as the region finds them; after the body at
    point `t` each input's buffer at its block and the output's at `KTerm.bodyOut` of the three input blocks; the
    invariant the scoped buffers no window stages and the generator register, untouched; nothing owed; full shares;
    the core's recorded waits all at or below the level the one SparseCore call left them under. -/
def dat0 (c : Dev nD) : Dat τ (Elt F) (HIx 1) ℕ UU ℕ cfg1 c where
  A w := entryA m c w
  after w t := match w with
    | ⟨0, _⟩ => iblk m c 0 t
    | ⟨1, _⟩ => iblk m c 1 t
    | ⟨2, _⟩ => iblk m c 2 t
    | ⟨3, _⟩ => KTerm.bodyOut (iblk m c 0 t) (iblk m c 1 t) (iblk m c 2 t)
  Φ _ := iprop(Pipeline.scopedRest spec1 c ∗ ∃ r, prngReg c r)
  q _ := fullShare
  owed _ := 0
  recorded _ := {p | (K (F := F)).lev ((c : Thread nD τ), p.1) p.2 ≤ 8 * 1}

/-- The one pipeline's proof data, by pipeline. -/
def dats : (p : Fin 1) → (c : Dev nD) → Dat τ (Elt F) (HIx 1) ℕ UU ℕ (Pipeline.pin (pcfgs (F := F)) aAdm p) c
  | 0 => dat0 m

theorem A_eq (c : Dev nD) (w : Fin cfg1.W) : (dat0 m c).A w = entryA m c w := by dsimp only [dat0]

/-- What the body leaves, window by window. -/
theorem after_0 (c : Dev nD) (t : Fin cfg1.N) : (dat0 m c).after 0 t = iblk m c 0 t := by dsimp only [dat0]
theorem after_1 (c : Dev nD) (t : Fin cfg1.N) : (dat0 m c).after 1 t = iblk m c 1 t := by dsimp only [dat0]
theorem after_2 (c : Dev nD) (t : Fin cfg1.N) : (dat0 m c).after 2 t = iblk m c 2 t := by dsimp only [dat0]
theorem after_3 (c : Dev nD) (t : Fin cfg1.N) :
    (dat0 m c).after 3 t = KTerm.bodyOut (iblk m c 0 t) (iblk m c 1 t) (iblk m c 2 t) := by dsimp only [dat0]

/-- Each input's current staging buffer holds its block at every point, fetched there or not: an input the pipeline
    does not fetch at a point has not moved its block index since the point before, and the body left the block. -/
theorem before_0 (c : Dev nD) (t : Fin cfg1.N) (d) : (dat0 m c).before 0 t d = iblk m c 0 t :=
  ((dat0 m c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat0 m c).before 1 t d = iblk m c 1 t :=
  ((dat0 m c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat0 m c).before 2 t d = iblk m c 2 t :=
  ((dat0 m c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat0 m c).Φ t.castSucc ∗ (dat0 m c).owesAt none t.castSucc
    ∗ (∃ d, owns (c : Thread nD τ) (st1_0 t) fullShare ((dat0 m c).before 0 t d))
    ∗ (∃ d, owns (c : Thread nD τ) (st1_1 t) fullShare ((dat0 m c).before 1 t d))
    ∗ (∃ d, owns (c : Thread nD τ) (st1_2 t) fullShare ((dat0 m c).before 2 t d))
    ∗ (∃ d, owns (c : Thread nD τ) (st1_3 t) fullShare ((dat0 m c).before 3 t d)))

/-- and what it returns. -/
def bodyPost (c : Dev nD) (t : Fin cfg1.N) : sProp 𝕄 :=
  iprop((dat0 m c).Φ t.succ ∗ (dat0 m c).owesAt none t.succ
    ∗ owns (c : Thread nD τ) (st1_0 t) fullShare ((dat0 m c).after 0 t)
    ∗ owns (c : Thread nD τ) (st1_1 t) fullShare ((dat0 m c).after 1 t)
    ∗ owns (c : Thread nD τ) (st1_2 t) fullShare ((dat0 m c).after 2 t)
    ∗ owns (c : Thread nD τ) (st1_3 t) fullShare ((dat0 m c).after 3 t))

/-- The body at any point: the inputs' memrefs hold their blocks, so `sound_kernel` applies; the invariant and the
    core's `owes` pass through unread. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before_0, before_1, before_2]
  rw [show (dat0 m c).Φ t.succ = (dat0 m c).Φ t.castSucc from rfl,
    show (dat0 m c).owesAt none t.succ = (dat0 m c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point; the body waits on nothing, so the index of its waits is immaterial. -/
theorem body_obligation (c : Dev nD) : BodyObligation (dat0 (F := F) m c) (defs₀ (F := F)) Variants.none (none : HIx 1) Set.univ := fun t => by
  rw [bigSep_W1, bigSep_W1]
  exact sound_body m c t

end Cert.KernelIdeal.KL

end
-- ==== Proof.KRegionValue.lean ====
/-
  The dense kernel's result array after all four grid points: block `t` of the result is what point `t` stored, the
  term `KTerm.bodyOut` of the three blocks point `t` loaded; the four blocks tile the array; so the array ends holding
  `KTerm.dense` of the features and the targets' two views, which is `KTerm.out` of the launch memory.
-/
import proofs.«205095_g39934605918594_cont_8to1_b_428_16_alg».proof.Proof.KRegionBody

set_option maxRecDepth 16384

noncomputable section

namespace Cert.KernelIdeal.KL

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.ShloMosaic.Pipeline (Dat Cfg Window)

variable {F : FTy → Type} [FloatOps F]

local notation "𝕄" => MT nD τ sig (HIx 1) (Elt F) ℕ UU ℕ

variable (m : (ℓ : Loc nD τ sig) → Buf (Elt F) ℓ)

/-! ## The grid's points and the windows' block indices -/

/-- Grid point `t` as a block number. -/
def tBlk (t : Fin cfg1.N) : Fin 4 := ⟨t.val, lt_of_lt_of_eq t.isLt N_1⟩

/-- The features' and the result's block index at point `t` is `(t, 0)`, the slabs' `(t, 0, 0)`, the square's `(0, 0)`. -/
theorem index_0 (t : Fin cfg1.N) : win1_0.index t 0 = t.val ∧ win1_0.index t 1 = 0 := by
  rcases fin_N1 t with rfl | rfl | rfl | rfl <;> decide
theorem index_1 (t : Fin cfg1.N) : win1_1.index t 0 = t.val ∧ win1_1.index t 1 = 0 ∧ win1_1.index t 2 = 0 := by
  rcases fin_N1 t with rfl | rfl | rfl | rfl <;> decide
theorem index_2 (t : Fin cfg1.N) : win1_2.index t 0 = 0 ∧ win1_2.index t 1 = 0 := by
  rcases fin_N1 t with rfl | rfl | rfl | rfl <;> decide
theorem index_3 (t : Fin cfg1.N) : win1_3.index t 0 = t.val ∧ win1_3.index t 1 = 0 := by
  rcases fin_N1 t with rfl | rfl | rfl | rfl <;> decide

/-! ## The input blocks, read where the rectangles say

A block's element sits in the array, on each axis, at the block index times the block's size plus its own coordinate. -/

/-- Point `t`'s block of the features: rows `4096 t …`. -/
theorem iblk0_eq (c : Dev nD) (t : Fin cfg1.N) :
    (iblk m c 0 t : Vec F S4096x128 .f32) = KTerm.xBlk (m (xLoc c)) (tBlk t) := by
  obtain ⟨h0, h1⟩ := index_0 t
  funext x
  unfold iblk
  rw [View.read_apply]
  show (m (xLoc c) : S16384x128.Idx → Elt F .f32) _ = (m (xLoc c) : S16384x128.Idx → Elt F .f32) (ix2 (KTerm.blkRow (tBlk t) (x 0)) (x 1))
  congr 1
  funext a
  apply Fin.ext
  match a with
  | ⟨0, _⟩ => show win1_0.index t 0 * 4096 + 1 * (x 0).val = 4096 * t.val + (x 0).val; rw [h0]; omega
  | ⟨1, _⟩ => show win1_0.index t 1 * 128 + 1 * (x 1).val = (x 1).val; rw [h1]; omega

/-- Point `t`'s slab of the targets' `[4, 1, 4096]` view. -/
theorem iblk1_eq (c : Dev nD) (t : Fin cfg1.N) :
    (iblk m c 1 t : Vec F S1x1x4096 .f32) = KTerm.y3Blk (y3C m c) (tBlk t) := by
  obtain ⟨h0, h1, h2⟩ := index_1 t
  funext x
  unfold iblk
  rw [View.read_apply]
  show (y3C m c : S4x1x4096.Idx → Elt F .f32) _ = (y3C m c : S4x1x4096.Idx → Elt F .f32) (ix3 (tBlk t) (x 1) (x 2))
  congr 1
  funext a
  apply Fin.ext
  have hx0 : (x 0).val < 1 := (x 0).isLt
  match a with
  | ⟨0, _⟩ => show win1_1.index t 0 * 1 + 1 * (x 0).val = t.val; rw [h0]; omega
  | ⟨1, _⟩ => show win1_1.index t 1 * 1 + 1 * (x 1).val = (x 1).val; rw [h1]; omega
  | ⟨2, _⟩ => show win1_1.index t 2 * 4096 + 1 * (x 2).val = (x 2).val; rw [h2]; omega

/-- The targets' `[128, 128]` view, whole at every point. -/
theorem iblk2_eq (c : Dev nD) (t : Fin cfg1.N) :
    (iblk m c 2 t : Vec F S128x128 .f32) = (yfC m c : S128x128.Idx → Elt F .f32) := by
  obtain ⟨h0, h1⟩ := index_2 t
  funext x
  unfold iblk
  rw [View.read_apply]
  show (yfC m c : S128x128.Idx → Elt F .f32) _ = (yfC m c : S128x128.Idx → Elt F .f32) x
  congr 1
  funext a
  apply Fin.ext
  match a with
  | ⟨0, _⟩ => show win1_2.index t 0 * 128 + 1 * (x 0).val = (x 0).val; rw [h0]; omega
  | ⟨1, _⟩ => show win1_2.index t 1 * 128 + 1 * (x 1).val = (x 1).val; rw [h1]; omega

/-! ## From the blocks to the array -/

/-- The result's term at an entry of block `tb`: the store of the point whose block holds the row. -/
theorem dense_at (X : FVec F S16384x128 .f32) (y3 : FVec F S4x1x4096 .f32) (yf : FVec F S128x128 .f32)
    (tb : Fin 4) (x : S4096x512.Idx) (j : S16384x512.Idx)
    (h0 : (j 0).val = 4096 * tb.val + (x 0).val) (h1 : (j 1).val = (x 1).val) :
    KTerm.dense X y3 yf j = KTerm.bodyOut (KTerm.xBlk X tb) (KTerm.y3Blk y3 tb) yf x := by
  have hx0 : (x 0).val < 4096 := (x 0).isLt
  have hb : KTerm.rowBlk (j 0) = tb := Fin.ext (by show (j 0).val / 4096 = tb.val; rw [h0]; omega)
  have hi : KTerm.rowIn (j 0) = x 0 := Fin.ext (by show (j 0).val % 4096 = (x 0).val; rw [h0]; omega)
  have hj : (j 1 : Fin 512) = x 1 := Fin.ext h1
  unfold KTerm.dense
  rw [hb, hi, hj]
  exact congrArg (KTerm.bodyOut (KTerm.xBlk X tb) (KTerm.y3Blk y3 tb) yf) (eq_ix2 (n0 := 4096) (n1 := 512) x).symm

/-- The result's array as the region leaves it. -/
abbrev denseC (c : Dev nD) : Buf (Elt F) (outLoc c) :=
  (KTerm.dense (m (xLoc c)) (y3C m c) (yfC m c) : FVec F S16384x512 .f32)

theorem outC_eq (c : Dev nD) : outC m c = denseC m c := rfl

/-- What point `t` writes back is block `t` of the result's term. -/
theorem flushed_eq (c : Dev nD) (t : Fin cfg1.N) (hf : (cfg1.win 3).flush t = true) :
    (dat0 m c).flushed 3 t = ((cfg1.win 3).blk t).view.read (Elt F) (denseC m c) := by
  obtain ⟨h0, h1⟩ := index_3 t
  show (dat0 m c).after 3 t = _
  rw [after_3, iblk0_eq, iblk1_eq, iblk2_eq]
  funext x
  rw [View.read_apply]
  show KTerm.bodyOut (KTerm.xBlk (m (xLoc c)) (tBlk t)) (KTerm.y3Blk (y3C m c) (tBlk t)) (yfC m c) x
    = KTerm.dense (m (xLoc c)) (y3C m c) (yfC m c) _
  refine (dense_at (m (xLoc c)) (y3C m c) (yfC m c) (tBlk t) x _ ?_ ?_).symm
  · show win1_3.index t 0 * 4096 + 1 * (x 0).val = 4096 * t.val + (x 0).val; rw [h0]; omega
  · show win1_3.index t 1 * 512 + 1 * (x 1).val = (x 1).val; rw [h1]; omega

/-- Row `r` of the result lies in the block of point `r / 4096`. -/
theorem cover (c : Dev nD) (i : ((cfg1.win 3).arr.view.loc (c : Thread nD τ)).2.ty.Idx) :
    ∃ t : Fin cfg1.N, (cfg1.win 3).flush t = true ∧ i ∈ ((cfg1.win 3).blk t).view.set := by
  have hi0 : (i 0).val < 16384 := (i 0).isLt
  have hi1 : (i 1).val < 512 := (i 1).isLt
  let t : Fin cfg1.N := ⟨(i 0).val / 4096, by rw [show cfg1.N = 4 from N_1]; omega⟩
  obtain ⟨h0, h1⟩ := index_3 t
  refine ⟨t, flush1_3 t, ?_⟩
  show i ∈ ((View.whole main_v5).slice (win1_3.rect t)).set
  rw [View.set_slice_whole, Rect.mem_set_unit]
  intro a
  match a with
  | ⟨0, _⟩ =>
    show win1_3.index t 0 * 4096 ≤ (i 0 : Nat) ∧ (i 0 : Nat) < win1_3.index t 0 * 4096 + 4096
    rw [h0]; show (i 0).val / 4096 * 4096 ≤ (i 0 : Nat) ∧ (i 0 : Nat) < (i 0).val / 4096 * 4096 + 4096; omega
  | ⟨1, _⟩ =>
    show win1_3.index t 1 * 512 ≤ (i 1 : Nat) ∧ (i 1 : Nat) < win1_3.index t 1 * 512 + 512
    rw [h1]; omega

/-- THE VALUE: after the four write-backs the result's array holds the kernel's term. -/
theorem final_out (c : Dev nD) : (dat0 m c).arrAt 3 cfg1.N = outC m c :=
  (dat0 m c).arrAt_eq_of_cover 3 (denseC m c) (flushed_eq m c) (cover c)

/-- The three input arrays reach the region's exit as it found them. -/
theorem final_x (c : Dev nD) : (dat0 m c).arrAt 0 cfg1.N = m (xLoc c) := ((dat0 m c).arrAt_in 0 rfl _).trans (A_eq m c 0)
theorem final_y3 (c : Dev nD) : (dat0 m c).arrAt 1 cfg1.N = y3C m c := ((dat0 m c).arrAt_in 1 rfl _).trans (A_eq m c 1)
theorem final_yf (c : Dev nD) : (dat0 m c).arrAt 2 cfg1.N = yfC m c := ((dat0 m c).arrAt_in 2 rfl _).trans (A_eq m c 2)

end Cert.KernelIdeal.KL

end
-- ==== Proof.KRegion.lean ====
/-
  The dense kernel's region inside @main, as one step of the TensorCore's program: from the ten arrays of @main at
  what they hold when the region is entered — the result's array at its launch contents — to the same with the result
  at the kernel's term.
-/
import proofs.«205095_g39934605918594_cont_8to1_b_428_16_alg».proof.Proof.KRegionValue

set_option maxRecDepth 16384

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The TensorCore's holdings around the region -/

/-- The four arrays the dense kernel's windows name — features, the targets' two views, the result at `f` —, -/
abbrev regArrs (d : Dev nD) (f : Buf (Elt F) (outLoc d)) : sProp 𝕄 :=
  iprop((xLoc d ↦{fullShare} m (xLoc d)) ∗ (y3Loc d ↦{fullShare} y3C m d) ∗ (yfLoc d ↦{fullShare} yfC m d) ∗ (outLoc d ↦{fullShare} f))
/-- the six that no window names: labels, weights, the flag, the transposed weights, the flat table, the targets, -/
abbrev regRest (d : Dev nD) : sProp 𝕄 :=
  iprop((labLoc d ↦{fullShare} m (labLoc d)) ∗ (wLoc d ↦{fullShare} m (wLoc d)) ∗ (flagLoc d ↦{fullShare} m (flagLoc d))
    ∗ (wtLoc d ↦{fullShare} wtC m d) ∗ (tblLoc d ↦{fullShare} tblC m d) ∗ (yLoc d ↦{fullShare} yC m d))
/-- and what the TensorCore owes once the one SparseCore call is behind it. -/
abbrev tcOw (d : Dev nD) : sProp 𝕄 :=
  iprop(∃ W, ⌜(K (F := F)).WBelow (T d) W (8 * 1)⌝ ∗ owes (T d) ((K (F := F)).Otc d 1) W)

/-- The TensorCore's holdings as the region is entered, and as it is left. -/
abbrev regPre (d : Dev nD) : sProp 𝕄 := iprop(regArrs m d (m (outLoc d)) ∗ regRest m d ∗ tcOw (F := F) d ∗ ∃ r, prngReg d r)
abbrev regPost (d : Dev nD) : sProp 𝕄 := iprop(regArrs m d (outC m d) ∗ regRest m d ∗ tcOw (F := F) d ∗ ∃ r, prngReg d r)

/-! ## The region's record -/

/-- After its one SparseCore call the TensorCore owes nothing. -/
theorem Otc_one (d : Dev nD) : (K (F := F)).Otc d 1 = 0 := (K (F := F)).Otc_end d (le_refl 1)

/-- The pipeline's arrays at contents `Fa`, window by window. -/
theorem arrays_open (c : Dev nD) (Fa) :
    ((dats m 0 c).arrays Fa : sProp 𝕄)
      = iprop((xLoc c ↦{fullShare} Fa 0) ∗ (y3Loc c ↦{fullShare} Fa 1) ∗ (yfLoc c ↦{fullShare} Fa 2) ∗ (outLoc c ↦{fullShare} Fa 3)) := by
  rw [Pipeline.arrays_eq (Pipeline.pin (pcfgs (F := F)) aAdm) (dats m) 0 c arr_whole1 ((dats m 0 c).share_full fun _ => rfl) Fa, bigSep_W1]

/-- As the region finds them, -/
theorem arrays_entry (c : Dev nD) :
    ((dats m 0 c).arrays ((dats m 0 c).arrAt · 0) : sProp 𝕄) = regArrs m c (m (outLoc c)) := by
  rw [arrays_open]; rfl

/-- and as it leaves them: the inputs untouched, the result at the kernel's term. -/
theorem arrays_exit (c : Dev nD) :
    ((dats m 0 c).arrays ((dats m 0 c).arrAt · (Pipeline.pin (pcfgs (F := F)) aAdm 0).N) : sProp 𝕄) = regArrs m c (outC m c) := by
  rw [arrays_open]
  show iprop((xLoc c ↦{fullShare} (dat0 m c).arrAt 0 cfg1.N) ∗ (y3Loc c ↦{fullShare} (dat0 m c).arrAt 1 cfg1.N)
    ∗ (yfLoc c ↦{fullShare} (dat0 m c).arrAt 2 cfg1.N) ∗ (outLoc c ↦{fullShare} (dat0 m c).arrAt 3 cfg1.N)) = _
  rw [final_x, final_y3, final_yf, final_out]

/-- The pipeline has no prefetched table to hold. -/
theorem prefHeld_emp (c : Dev nD) :
    (Pipeline.prefHeld (pcfgs (F := F) 0).pre c (fun _ => fullShare) (aAdm (F := F) 0).1 : sProp 𝕄) = BI.emp := by
  unfold Pipeline.prefHeld; rw [show (Finset.univ : Finset (Fin 0)) = ∅ from rfl, BI.bigSep_empty]

/-- The region's invariant, spelt. -/
theorem Φ_eq (c : Dev nD) (t) :
    (dats m 0 c).Φ t = iprop(Pipeline.scopedRest (Ix := HIx 1) (Name := ℕ) (U := UU) (Lvl := ℕ) (Val := Elt F) spec1 c ∗ ∃ r, prngReg c r) := rfl

/-- THE REGION's record: pipeline 0's layout, no semaphore of the kernel's own, the body obligation, and the
    TensorCore's holdings sorted into the pipeline's arrays, the generator register (which enters the invariant) and
    the six arrays that bypass the region. -/
def reg : Pipeline.RegionSeg (pcfgs (F := F)) aAdm (dats m) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation m c).loose
  hwaits c := Pipeline.hwaits_of_owed_zero (pcfgs (F := F)) aAdm (dats m) (none : HIx 1) (K (F := F)).L (K (F := F)).lev 0 (fun _ _ => rfl) c
  pre := regPre m
  post := regPost m
  X c := iprop(∃ r, prngReg c r)
  Y c := iprop(∃ r, prngReg c r)
  Z c := regRest m c
  hentry c := by
    rw [Pipeline.ownSems0_none, arrays_entry, prefHeld_emp]
    unfold regPre tcOw
    rw [Otc_one]
    iintro ⟨⟨Ha, Hrest, ⟨%W, %hW, HO⟩, Hr⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitl [Hr]; · iexact Hr
    iexact Hrest
  hin c := by
    rw [Φ_eq, scopedRest1_eq]
    iintro ⟨HX, -, -⟩
    isplitr; · iempintro
    iexact HX
  hout c := by
    rw [Φ_eq, Pipeline.ownSems0_none, scopedRest1_eq]
    iintro ⟨-, HX⟩
    isplitl [HX]; · iexact HX
    isplitr <;> iempintro
  hexit c := by
    rw [arrays_exit]
    unfold regPost tcOw
    rw [Otc_one]
    iintro ⟨Ha, HO, Hr, Hrest⟩
    imodintro
    isplitl [Ha]; · iexact Ha
    isplitl [Hrest]; · iexact Hrest
    isplitl [HO]
    · unfold Pipeline.Dat.owesAt Pipeline.owesWithin
      icases HO with ⟨%W, %hW, HO⟩
      iexists W; isplitr
      · ipureintro
        intro p hp
        rcases hW hp with h | ⟨w, s, rfl⟩
        · exact h
        · exact Nat.zero_le _
      iexact HO
    iexact Hr

set_option backward.isDefEq.respectTransparency.types false in
/-- THE REGION as one step: from the region boundary, the holdings `regPre`, the level facts and the pipeline's cells'
    ghost state and duty tokens, the custom call of the dense kernel's pipeline runs to the boundary and `regPost`. -/
theorem region_step [∀ e, Nonempty (Elt F e)] (d : Dev nD) {α : Type}
    (k : PUnit → Prog (TpuEff nD τ sig (Elt F) (ΛP (F := F)) .tc) α) (Q : α → sProp 𝕄) :
    iprop((iprop(boundary (T d) ∗ regPost m d) -∗ wp frame (wpE (D (F := F)) 𝒱 (T d) none) Set.univ (k ⟨⟩) Q)
        ∗ boundary (T d) ∗ regPre m d ∗ levAts (K (F := F)).L (K (F := F)).lev
        ∗ Pipeline.cellsGhost (Pipeline.pin (pcfgs (F := F)) aAdm) EP 0 d ∗ Pipeline.toksInit (Pipeline.pin (pcfgs (F := F)) aAdm) EP 0 d)
      ⊢ wp frame (wpE (D (F := F)) 𝒱 (T d) none) Set.univ (.op (.customCall (Pipeline.entry 0) ()) k) Q :=
  Pipeline.RegionSeg.wp (pcfgs (F := F)) aAdm (dats m) (none : HIx 1) cellOf_inj EP defs₀ 𝒱₀ (K (F := F)).L (K (F := F)).lev
    (reg m) d none (fun u hu => by cases hu) k Q

end Cert.KernelIdeal.KL

end
-- ==== Proof.KElem.lean ====
/-
  The launch element of the proof's ghost state: the handshakes' rounds, the dense kernel's staging cells' rounds
  (funded here, their invariants allocated when the region is entered), and the counters' unit.
-/
import proofs.«205095_g39934605918594_cont_8to1_b_428_16_alg».proof.Proof.KRegion

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The dense kernel's pipeline, its tables pinned (it has none). -/
abbrev pcs1 : Fin 1 → Pipeline.Cfg sig Λ₀ := Pipeline.pin (pcfgs (F := F)) aAdm

theorem cellOf_inj1 : Function.Injective (Pipeline.cellOf (nD := nD) (τ := τ) (pcs1 (F := F))) := cellOf_inj

/-- What the launch deals the TensorCore for the dense kernel's region: its staging cells' ghost state and the duty
    tokens of its transfers. -/
abbrev Gd (d : Dev nD) : sProp 𝕄 :=
  iprop(Pipeline.cellsGhost (pcs1 (F := F)) EP 0 d ∗ Pipeline.toksInit (pcs1 (F := F)) EP 0 d)

def u₀ : UU :=
  (initOf (K (F := F)).hsCells (K (F := F)).hsToks,
    (initOf (Pipeline.cells (pcs1 (F := F)) cellOf_inj1) (Pipeline.launchToks (pcs1 (F := F)) cellOf_inj1), 1))

omit [FloatOps F] in
theorem bigSep_emp' {I : Type} (s : Finset I) : (bigSep s fun _ => iprop(emp)) = (iprop(emp) : sProp 𝕄) := bigSep_emp_const s

/-- The element splits three ways; the staging cells' part funds, per device, the one pipeline's cells' ghost state and
    duty tokens; no vector subcore's proof is dealt anything. -/
theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pcs1 (F := F)) cellOf_inj1) (Pipeline.launchToks (pcs1 (F := F)) cellOf_inj1), (1 : Counters)) : UP × Counters)) $$ Hu
  icases H with ⟨HH, HR⟩
  ihave H2 := (own_pair_emb (ER (F := F)) (initOf (Pipeline.cells (pcs1 (F := F)) cellOf_inj1) (Pipeline.launchToks (pcs1 (F := F)) cellOf_inj1)) (1 : Counters)) $$ HR
  icases H2 with ⟨HP, -⟩
  imod (Pipeline.fund_ghost (pcs1 (F := F)) (EP (F := F)) cellOf_inj1) $$ HP with ⟨Hg, Ht⟩
  imodintro
  isplitl [HH]; · iexact HH
  isplitl [Hg Ht]
  · rw [bigSep_sep']
    isplitl [Hg]
    · rw [show (bigSep Finset.univ fun d : Dev nD => (Pipeline.cellsGhost (pcs1 (F := F)) EP 0 d : sProp 𝕄))
          = bigSep Finset.univ fun d : Dev nD => bigSep Finset.univ fun p : Fin 1 => Pipeline.cellsGhost (pcs1 (F := F)) EP p d from
        bigSep_congr fun d _ => (bigSep_univ_of_subsingleton (0 : Fin 1) (Φ := fun p : Fin 1 => (Pipeline.cellsGhost (pcs1 (F := F)) EP p d : sProp 𝕄))).symm]
      iexact Hg
    · rw [show (bigSep Finset.univ fun d : Dev nD => (Pipeline.toksInit (pcs1 (F := F)) EP 0 d : sProp 𝕄))
          = bigSep Finset.univ fun d : Dev nD => bigSep Finset.univ fun p : Fin 1 => Pipeline.toksInit (pcs1 (F := F)) EP p d from
        bigSep_congr fun d _ => (bigSep_univ_of_subsingleton (0 : Fin 1) (Φ := fun p : Fin 1 => (Pipeline.toksInit (pcs1 (F := F)) EP p d : sProp 𝕄))).symm]
      iexact Ht
  · rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), bigSep_emp']
    iempintro

end Cert.KernelIdeal.KL

end
-- ==== Proof.KFin.lean ====
/-
  Reading the claim off the final memory: an array held whole at the full share beside the state interpretation
  is what the memory holds there.
-/
import proofs.«205095_g39934605918594_cont_8to1_b_428_16_alg».proof.Proof.KRegion

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the TensorCore ends holding: its ten arrays, the result at the kernel's term. -/
abbrev FIN (d : Dev nD) : sProp 𝕄 := iprop(regArrs m d (outC m d) ∗ regRest m d)

def fq (d : Dev nD) (s' : Phys nD τ sig (Elt F)) : Prop :=
  s'.mem.mem (outLoc d) = outC m d ∧ s'.mem.mem (xLoc d) = m (xLoc d) ∧ s'.mem.mem (labLoc d) = m (labLoc d)
    ∧ s'.mem.mem (wLoc d) = m (wLoc d) ∧ s'.mem.mem (flagLoc d) = m (flagLoc d)

set_option maxRecDepth 16384 in
theorem hfin (d : Dev nD) (s' : Phys nD τ sig (Elt F)) : iprop(FIN m d ∗ SI s') ⊢ (⌜fq m d s'⌝ : sProp 𝕄) := by
  iintro ⟨⟨⟨Hx, -, -, Ho⟩, ⟨Hl, Hw, Hf, -, -, -⟩⟩, HSI⟩
  ihave H := (persistent_entails_right (SI_pointsTo_agree (st := s') (ℓ := outLoc d) (I := Finset.univ) (q := fullShare) (f := outC m d))) $$ [HSI Ho]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := labLoc d) (I := Finset.univ) (q := fullShare) (f := m (labLoc d)))) $$ [HSI Hl]
  · isplitl [HSI] <;> iassumption
  icases H with ⟨%h3, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h4, HSI, -⟩
  ihave H := (SI_pointsTo_agree (st := s') (ℓ := flagLoc d) (I := Finset.univ) (q := fullShare) (f := m (flagLoc d))) $$ [HSI Hf]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

end Cert.KernelIdeal.KL

end
-- ==== Proof.KMain.lean ====
/-
  @main on the TensorCore: two host lines lay the weights out as the flat table; the gather call is started and
  waited for, its operands handed over and its results taken back; two host lines view the gathered targets as
  `[4, 1, 4096]` and `[128, 128]`; the dense kernel's region runs.
-/
import proofs.«205095_g39934605918594_cont_8to1_b_428_16_alg».proof.Proof.KSplit
import proofs.«205095_g39934605918594_cont_8to1_b_428_16_alg».proof.Proof.KElem
import proofs.«205095_g39934605918594_cont_8to1_b_428_16_alg».proof.Proof.KFin

set_option maxRecDepth 16384

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's ten arrays -/

omit [FloatOps F] in
/-- The launch deals @main's ten arrays, none of them scoped, each whole at its launch contents. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (labLoc d ↦{fullShare} W main_arg1) ∗ (wLoc d ↦{fullShare} W main_arg2)
          ∗ (flagLoc d ↦{fullShare} W main_arg3) ∗ (wtLoc d ↦{fullShare} W main_v0) ∗ (tblLoc d ↦{fullShare} W main_v1)
          ∗ (yLoc d ↦{fullShare} W main_v2) ∗ (y3Loc d ↦{fullShare} W main_v3) ∗ (yfLoc d ↦{fullShare} W main_v4)
          ∗ (outLoc d ↦{fullShare} W main_v5)) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-! ## A host line over two arrays -/

/-- A host operation that reads the array `x` and writes the array `y`, both held whole: `x` keeps its contents and
    `y` takes the operation's value at them. -/
theorem wp_hostLine (d : Dev nD) {hp : (SparseCore.T (nD := nD) (τ := τ) d).2.kind.runsHlo = true} {op : HloOp τ sig (Elt F)} {x y : Ref sig .tc} (hxy : x ≠ y)
    (hbufs : op.bufs = {Proc.devRef .tc x, Proc.devRef .tc y}) (hf : op.fresh = ∅)
    (g : x.ty.Contents (Elt F) → y.ty.Contents (Elt F))
    (hx : ∀ V : Valuation τ sig (Elt F), op.result V (Proc.devRef .tc x) = V (Proc.devRef .tc x))
    (hy : ∀ V : Valuation τ sig (Elt F), op.result V (Proc.devRef .tc y) = g (V (Proc.devRef .tc x)))
    (V₀ : Valuation τ sig (Elt F))
    (vx : Buf (Elt F) ((SparseCore.T d).loc x)) (vy : Buf (Elt F) ((SparseCore.T d).loc y)) {Q : PUnit → sProp 𝕄} :
    iprop(boundary (SparseCore.T d) ∗ ((SparseCore.T d).loc x ↦{fullShare} vx) ∗ ((SparseCore.T d).loc y ↦{fullShare} vy)
        ∗ ((boundary (SparseCore.T d) ∗ ((SparseCore.T d).loc x ↦{fullShare} vx) ∗ ((SparseCore.T d).loc y ↦{fullShare} g vx)) -∗ Q ⟨⟩))
      ⊢ wp frame (wpE ((K (F := F)).defs (D (F := F))) 𝒱 (SparseCore.T d) none) Set.univ (hlo hp op fun _ => .ret ⟨⟩) Q := by
  classical
  have hne : (Proc.devRef .tc x : DevRef τ sig) ≠ Proc.devRef .tc y := StableHlo.devRef_ne_of_ne hxy
  let V : Valuation τ sig (Elt F) :=
    Function.update (Function.update V₀ (Proc.devRef .tc x) vx) (Proc.devRef .tc y) vy
  have Vx : V (Proc.devRef .tc x) = vx := by
    show Function.update (Function.update V₀ (Proc.devRef .tc x) vx) (Proc.devRef .tc y) vy (Proc.devRef .tc x) = vx
    rw [Function.update_of_ne hne, Function.update_self]
  have Vy : V (Proc.devRef .tc y) = vy := Function.update_self _ _ _
  have e0 : (held (SparseCore.T d) op.bufs V : sProp 𝕄)
      = iprop(((SparseCore.T d).loc x ↦{fullShare} vx) ∗ ((SparseCore.T d).loc y ↦{fullShare} vy)) := by
    unfold held
    rw [hbufs, SparseCore.bigSep_insert' (by simpa using hne), bigSep_singleton, Vx, Vy]
  have e1 : (held (SparseCore.T d) op.bufs (op.result V) : sProp 𝕄)
      = iprop(((SparseCore.T d).loc x ↦{fullShare} vx) ∗ ((SparseCore.T d).loc y ↦{fullShare} g vx)) := by
    unfold held
    rw [hbufs, SparseCore.bigSep_insert' (by simpa using hne), bigSep_singleton, hx, hy, Vx]
  iintro ⟨Hb, Hx, Hy, Hk⟩
  iapply (wp_hlo_within 𝒱 (SparseCore.T d) none Set.univ (op := op) (S := op.bufs) subset_rfl (V := V) hf) $$ [Hb Hx Hy]
  · isplitl [Hb]; · iexact Hb
    rw [e0]
    isplitl [Hx]; · iexact Hx
    iexact Hy
  rw [e1, wp_ret]
  iintro ⟨Hb, Hx, Hy⟩
  imodintro
  iapply Hk
  isplitl [Hb]; · iexact Hb
  isplitl [Hx]; · iexact Hx
  iexact Hy

/-- @main on device `d`'s TensorCore. The weights are transposed and flattened into the table; the table's full
    share is split into the 32 workers' read tokens and a remainder kept aside, and with the labels and the targets
    whole they are the call's operands; they come back with the targets gathered, and the tokens join the remainder
    again; the targets are viewed as four slabs and as a square; the dense kernel's region then takes the ten arrays,
    what the TensorCore still owes (the first conjunct of its state after the call) and some generator register,
    and leaves the result at the kernel's term. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hlab, Hw, Hflag, Hwt, Htbl, Hy, Hy3, Hyf, Hout⟩, -, Hprng⟩, HG⟩
  -- the weights transposed
  iapply (wp_hostLine d (x := main_arg2) (y := main_v0) (by decide) rfl rfl
      (fun v => transpose S100000x1x512 [1, 2, 0] v Facts₀.transposes_S512x100000x1_S100000x1x512_1_2_0)
      (fun V => StableHlo.unary_result_ne _ _ _ _ _ V (by decide)) (fun V => StableHlo.unary_result _ _ _ _ _ V)
      (fun r => m (d, r)) (m (wLoc d)) (m (wtLoc d)))
  isplitl [Hb]; · iexact Hb
  isplitl [Hw]; · iexact Hw
  isplitl [Hwt]; · iexact Hwt
  iintro ⟨Hb, Hw, Hwt⟩
  -- and read row-major: the flat table
  iapply (wp_hostLine d (x := main_v0) (y := main_v1) (by decide) rfl rfl
      (fun v => shapeCast S51200000 v Facts₀.shapeCasts_S100000x1x512_S51200000)
      (fun V => StableHlo.reshape_result_ne _ _ _ _ _ _ V (by decide)) (fun V => StableHlo.reshape_result _ _ _ _ _ _ V)
      (fun r => m (d, r)) (wtC m d) (m (tblLoc d)))
  isplitl [Hb]; · iexact Hb
  isplitl [Hwt]; · iexact Hwt
  isplitl [Htbl]; · iexact Htbl
  iintro ⟨Hb, Hwt, Htbl⟩
  -- the call: the labels, the table's 32 read tokens and the targets go out, and come back with the targets gathered
  ihave Ht := (Transfers.pointsTo_toks_split fullShare 32) $$ Htbl
  icases Ht with ⟨Htr, Htoks⟩
  iapply ((K (F := F)).wp_run (D (F := F)) 𝒱 (EH := EH) (P := P m) κ d 0)
  isplitr; · iexact Hctx
  isplitl [Hst]; · iexact Hst
  isplitl [Hlab Htoks Hy]
  · iapply (st_of_whole m d)
    isplitl [Hlab]; · iexact Hlab
    isplitl [Htoks]; · iexact Htoks
    iexact Hy
  iintro ⟨Hst, Hdn⟩
  ihave Hdn' := (whole_of_dn m d) $$ Hdn
  icases Hdn' with ⟨Hlab, Htoks, Hy⟩
  ihave Htbl := (Transfers.pointsTo_toks_join fullShare 32) $$ [Htr Htoks]
  · isplitl [Htr]; · iexact Htr
    iexact Htoks
  -- the gathered targets viewed as four slabs of 4096
  iapply (wp_hostLine d (x := main_v2) (y := main_v3) (by decide) rfl rfl
      (fun v => shapeCast S4x1x4096 v Facts₀.shapeCasts_S16384_S4x1x4096)
      (fun V => StableHlo.reshape_result_ne _ _ _ _ _ _ V (by decide)) (fun V => StableHlo.reshape_result _ _ _ _ _ _ V)
      (fun r => m (d, r)) (yC m d) (m (y3Loc d)))
  isplitl [Hb]; · iexact Hb
  isplitl [Hy]; · iexact Hy
  isplitl [Hy3]; · iexact Hy3
  iintro ⟨Hb, Hy, Hy3⟩
  -- and as a square
  iapply (wp_hostLine d (x := main_v2) (y := main_v4) (by decide) rfl rfl
      (fun v => shapeCast S128x128 v Facts₀.shapeCasts_S16384_S128x128)
      (fun V => StableHlo.reshape_result_ne _ _ _ _ _ _ V (by decide)) (fun V => StableHlo.reshape_result _ _ _ _ _ _ V)
      (fun r => m (d, r)) (yC m d) (m (yfLoc d)))
  isplitl [Hb]; · iexact Hb
  isplitl [Hy]; · iexact Hy
  isplitl [Hyf]; · iexact Hyf
  iintro ⟨Hb, Hy, Hyf⟩
  -- the dense kernel's region
  rw [show (Prog.lift (TpuEff.customCall (SparseCore.inner (Pipeline.entry 0)) ())
        : Prog (TpuEff nD τ sig (Elt F) (SparseCore.Sig (ΛP (F := F)) 1) (SparseCore.T (nD := nD) (τ := τ) d).2) PUnit)
      = SparseCore.liftProg (.op (.customCall (Pipeline.entry 0) ()) fun x => .ret x) from rfl]
  iapply ((K (F := F)).wp_liftProg (D (F := F)) 𝒱 (SparseCore.T d) Set.univ none _ _)
  iapply (region_step m d (fun x => .ret x) _)
  obtain ⟨R, hR⟩ : ∃ R : sProp 𝕄, (K (F := F)).tcSt EH d 1 = iprop(tcOw (F := F) d ∗ R) := ⟨_, rfl⟩
  rw [hR]
  have hR' : (K (F := F)).tcSt EH d ((0 : Fin 1).val + 1) = iprop(tcOw (F := F) d ∗ R) := hR
  ihave Hst' := (Entails.of_eq hR') $$ Hst
  icases Hst' with ⟨Hown, Hrest⟩
  ihave Hlev := (SparseCore.Cfg.ctx_levAts κ) $$ Hctx
  icases HG with ⟨HG1, HG2⟩
  isplitl [Hrest]
  · -- after the region: the result at the kernel's term; the generator register is dropped
    iintro ⟨Hb, Harrs, Hrst, Hown, -⟩
    rw [wp_ret]; imodintro; imodintro
    isplitl [Hown Hrest]
    · isplitl [Hown]; · iexact Hown
      iexact Hrest
    isplitl [Harrs]; · iexact Harrs
    iexact Hrst
  isplitl [Hb]; · iexact Hb
  isplitl [Hx Hy3 Hyf Hout Hlab Hw Hflag Hwt Htbl Hy Hown Hprng]
  · isplitl [Hx Hy3 Hyf Hout]
    · isplitl [Hx]; · iexact Hx
      isplitl [Hy3]; · iexact Hy3
      isplitl [Hyf]; · iexact Hyf
      iexact Hout
    isplitl [Hlab Hw Hflag Hwt Htbl Hy]
    · isplitl [Hlab]; · iexact Hlab
      isplitl [Hw]; · iexact Hw
      isplitl [Hflag]; · iexact Hflag
      isplitl [Hwt]; · iexact Hwt
      isplitl [Htbl]; · iexact Htbl
      iexact Hy
    isplitl [Hown]; · iexact Hown
    iexists _; iexact Hprng
  isplitl [Hlev]; · iexact Hlev
  isplitl [HG1]; · iexact HG1
  iexact HG2

end Cert.KernelIdeal.KL

end
-- ==== Proof.KLaunch.lean ====
/-
  The kernel's program, run: the SparseCore launch theorem applied to the one gather call and to @main on the
  TensorCore.
-/
import proofs.«205095_g39934605918594_cont_8to1_b_428_16_alg».proof.Proof.KObl
import proofs.«205095_g39934605918594_cont_8to1_b_428_16_alg».proof.Proof.KMain

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- Every weakly fair execution ends with the result at the kernel's term and the four arguments unchanged. -/
def QC : PUnit × MemSt nD τ sig (Elt F) → Prop := fun r => ∀ c : Dev nD,
  r.2.mem (outLoc c) = outC m c ∧ r.2.mem (xLoc c) = m (xLoc c) ∧ r.2.mem (labLoc c) = m (labLoc c)
    ∧ r.2.mem (wLoc c) = m (wLoc c) ∧ r.2.mem (flagLoc c) = m (flagLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.KernelIdeal.KL

end
-- ==== Proof.RefTerm.lean ====
import proofs.«205095_g39934605918594_cont_8to1_b_428_16_alg».proof.ReferenceIdeal

noncomputable section

namespace Cert.ReferenceIdeal.RefTerm

open Idealize.ShloMosaic Cert.ReferenceIdeal Cert.ReferenceIdeal.Facts₀

variable {F : FTy → Type} [FloatOps F] [Cert.ReferenceIdeal.Facts]

/-- The targets: row 0 of the take. The table `a2` (512 × 100000 × 1) is read as a 512 × 100000 matrix; the take
    gathers, for each of the 16384 entries of `a1`, the matrix's column at that entry (a negative entry first
    moved up by 100000), and puts the quiet NaN where the moved entry lies outside `[0, 99999]`; of the gathered
    512 × 16384 matrix only row 0 is kept, as a vector of length 16384. -/
def takeRow0 (a2 : FVec F S512x100000x1 .f32) (a1 : IVec S16384 32) : FVec F S16384 .f32 :=
  let main_v0 : FVec F S512x100000 .f32 := shapeCast S512x100000 a2 shapeCasts_S512x100000x1_S512x100000
  let main_call0_c : IVec S_ 32 := constantI S_ 32 0#32
  let main_call0_v0 : IVec S16384 32 := broadcastInDim S16384 ![] bcast_S_S16384 main_call0_c
  let main_call0_v1 : IVec S16384 1 := cmpi .slt a1 main_call0_v0
  let main_call0_c_0 : IVec S_ 32 := constantI S_ 32 100000#32
  let main_call0_v2 : IVec S16384 32 := broadcastInDim S16384 ![] bcast_S_S16384 main_call0_c_0
  let main_call0_v3 : IVec S16384 32 := addi a1 main_call0_v2
  let main_call0_v4 : IVec S16384 32 := select main_call0_v1 main_call0_v3 a1
  let main_call0_v5 : IVec S16384x1 32 := broadcastInDim S16384x1 ![0] bcast_S16384_S16384x1_0 main_call0_v4
  let main_call0_c_1 : IVec S1 32 := constantI S1 32 99999#32
  let main_call0_c_2 : IVec S_ 32 := constantI S_ 32 0#32
  let main_call0_v6 : IVec S16384x1 32 := broadcastInDim S16384x1 ![] bcast_S_S16384x1 main_call0_c_2
  let main_call0_v7 : IVec S16384x1 1 := cmpi .sge main_call0_v5 main_call0_v6
  let main_call0_v8 : IVec S1x1 32 := broadcastInDim S1x1 ![1] bcast_S1_S1x1_1 main_call0_c_1
  let main_call0_v9 : IVec S16384x1 32 := broadcastInDim S16384x1 ![0, 1] bcast_S1x1_S16384x1_0_1 main_call0_v8
  let main_call0_v10 : IVec S16384x1 1 := cmpi .sle main_call0_v5 main_call0_v9
  let main_call0_v11 : IVec S16384x1 1 := andi main_call0_v7 main_call0_v10
  let main_call0_c_3 : IVec S_ 1 := constantI S_ 1 1#1
  let main_call0_v12 : IVec S16384 1 := Host.reduce IntOp.andi main_call0_v11 main_call0_c_3 reducesTo_S16384x1_S16384_d1 h_S_
  let main_call0_v13 : FVec F S512x16384 .f32 := Host.gather gather_S512x100000_S16384x1_S512x16384_0_1_n_n_1_1_5121 main_v0 main_call0_v5
  let main_call0_v14 : IVec S512x16384 1 := broadcastInDim S512x16384 ![1] bcast_S16384_S512x16384_1 main_call0_v12
  let main_call0_cst : FVec F S_ .f32 := constant S_ .f32 0x7FC00000#32
  let main_call0_v15 : FVec F S512x16384 .f32 := broadcastInDim S512x16384 ![] bcast_S_S512x16384 main_call0_cst
  let main_v1 : FVec F S512x16384 .f32 := select main_call0_v14 main_call0_v13 main_call0_v15
  let main_v2 : FVec F S1x16384 .f32 := extractStridedSlice S1x16384 ![0, 0] main_v1 slices_S512x16384_S1x16384_0_0
  let main_v3 : FVec F S16384 .f32 := shapeCast S16384 main_v2 shapeCasts_S1x16384_S16384
  main_v3

/-- The prediction from the samples `a0` (16384 × 128) and the targets `y`: `main_v6` is each row's sum divided
    by 16384, `main_v8` the sum of `y` divided by 16384; `main_v14` is each row's sum of squared deviations of
    `a0` from `main_v6`, `main_v23` each row's sum of the products of those deviations with the deviation of `y`
    from `main_v8`; their quotient `main_v24` is a slope, `main_v26` the matching intercept, and the result is
    `slope · (row sum of a0) + intercept`. -/
def pred (a0 : FVec F S16384x128 .f32) (y : FVec F S16384 .f32) : FVec F S16384 .f32 :=
  let main_cst : FVec F S_ .f32 := constant S_ .f32 0x00000000#32
  let main_v4 : FVec F S16384 .f32 := Host.reduceAdd a0 main_cst reducesTo_S16384x128_S16384_d1 h_S_
  let main_cst_0 : FVec F S_ .f32 := constant S_ .f32 0x46800000#32
  let main_v5 : FVec F S16384 .f32 := broadcastInDim S16384 ![] bcast_S_S16384 main_cst_0
  let main_v6 : FVec F S16384 .f32 := Host.divf main_v4 main_v5
  let main_cst_1 : FVec F S_ .f32 := constant S_ .f32 0x00000000#32
  let main_v7 : FVec F S_ .f32 := Host.reduceAdd y main_cst_1 reducesTo_S16384_S_d0 h_S_
  let main_cst_2 : FVec F S_ .f32 := constant S_ .f32 0x46800000#32
  let main_v8 : FVec F S_ .f32 := Host.divf main_v7 main_cst_2
  let main_v9 : FVec F S16384 .f32 := broadcastInDim S16384 ![] bcast_S_S16384 main_v8
  let main_v10 : FVec F S16384x1 .f32 := broadcastInDim S16384x1 ![0] bcast_S16384_S16384x1_0 main_v6
  let main_v11 : FVec F S16384x128 .f32 := broadcastInDim S16384x128 ![0, 1] bcast_S16384x1_S16384x128_0_1 main_v10
  let main_v12 : FVec F S16384x128 .f32 := subf a0 main_v11
  let main_v13 : FVec F S16384x128 .f32 := mulf main_v12 main_v12
  let main_cst_3 : FVec F S_ .f32 := constant S_ .f32 0x00000000#32
  let main_v14 : FVec F S16384 .f32 := Host.reduceAdd main_v13 main_cst_3 reducesTo_S16384x128_S16384_d1 h_S_
  let main_v15 : FVec F S16384x1 .f32 := broadcastInDim S16384x1 ![0] bcast_S16384_S16384x1_0 main_v6
  let main_v16 : FVec F S16384x128 .f32 := broadcastInDim S16384x128 ![0, 1] bcast_S16384x1_S16384x128_0_1 main_v15
  let main_v17 : FVec F S16384x128 .f32 := subf a0 main_v16
  let main_v18 : FVec F S16384x1 .f32 := broadcastInDim S16384x1 ![0] bcast_S16384_S16384x1_0 y
  let main_v19 : FVec F S16384x1 .f32 := broadcastInDim S16384x1 ![0] bcast_S16384_S16384x1_0 main_v9
  let main_v20 : FVec F S16384x1 .f32 := subf main_v18 main_v19
  let main_v21 : FVec F S16384x128 .f32 := broadcastInDim S16384x128 ![0, 1] bcast_S16384x1_S16384x128_0_1 main_v20
  let main_v22 : FVec F S16384x128 .f32 := mulf main_v17 main_v21
  let main_cst_4 : FVec F S_ .f32 := constant S_ .f32 0x00000000#32
  let main_v23 : FVec F S16384 .f32 := Host.reduceAdd main_v22 main_cst_4 reducesTo_S16384x128_S16384_d1 h_S_
  let main_v24 : FVec F S16384 .f32 := Host.divf main_v23 main_v14
  let main_v25 : FVec F S16384 .f32 := mulf main_v24 main_v6
  let main_v26 : FVec F S16384 .f32 := subf main_v9 main_v25
  let main_cst_5 : FVec F S_ .f32 := constant S_ .f32 0x00000000#32
  let main_v27 : FVec F S16384 .f32 := Host.reduceAdd a0 main_cst_5 reducesTo_S16384x128_S16384_d1 h_S_
  let main_v28 : FVec F S16384 .f32 := mulf main_v24 main_v27
  let main_v29 : FVec F S16384 .f32 := addf main_v28 main_v26
  main_v29

/-- The vector `p`, as a 1 × 16384 row broadcast to 512 rows, scattered row by row over a zero 512 × 16384 matrix
    at the row indices `0 … 511` (an index below zero moved up by 512: none is), the update replacing what was
    there; then transposed, 16384 × 512. -/
def spread (p : FVec F S16384 .f32) : FVec F S16384x512 .f32 :=
  let main_cst_6 : FVec F S_ .f32 := constant S_ .f32 0x00000000#32
  let main_v30 : FVec F S512x16384 .f32 := broadcastInDim S512x16384 ![] bcast_S_S512x16384 main_cst_6
  let main_v31 : IVec S512 32 := iotaInDim S512 32 0
  let main_v32 : FVec F S1x16384 .f32 := broadcastInDim S1x16384 ![1] bcast_S16384_S1x16384_1 p
  let main_c : IVec S_ 32 := constantI S_ 32 0#32
  let main_v33 : IVec S512 32 := broadcastInDim S512 ![] bcast_S_S512 main_c
  let main_v34 : IVec S512 1 := cmpi .slt main_v31 main_v33
  let main_c_7 : IVec S_ 32 := constantI S_ 32 512#32
  let main_v35 : IVec S512 32 := broadcastInDim S512 ![] bcast_S_S512 main_c_7
  let main_v36 : IVec S512 32 := addi main_v31 main_v35
  let main_v37 : IVec S512 32 := select main_v34 main_v36 main_v31
  let main_v38 : IVec S512x1 32 := broadcastInDim S512x1 ![0] bcast_S512_S512x1_0 main_v37
  let main_v39 : FVec F S512x16384 .f32 := broadcastInDim S512x16384 ![0, 1] bcast_S1x16384_S512x16384_0_1 main_v32
  let main_v40 : FVec F S512x16384 .f32 := Host.scatter scatter_S512x16384_S512x1_S512x16384_1_0_0_1 (fun _ b => b) main_v30 main_v38 main_v39
  let main_v41 : FVec F S16384x512 .f32 := transpose S16384x512 [1, 0] main_v40 transposes_S512x16384_S16384x512_1_0
  main_v41

/-- The reference's result as one pure term of its three array arguments: @main's operations composed in order,
    in three stages — the targets, the prediction from them, its spreading over 512 columns. -/
def out (a0 : FVec F S16384x128 .f32) (a1 : IVec S16384 32) (a2 : FVec F S512x100000x1 .f32) : FVec F S16384x512 .f32 :=
  spread (pred a0 (takeRow0 a2 a1))

end Cert.ReferenceIdeal.RefTerm

end
-- ==== Proof.RefRun.lean ====
import proofs.«205095_g39934605918594_cont_8to1_b_428_16_alg».proof.Proof.RefTerm
import Idealize.ShloMosaic.Lib.StableHlo.Run
import Idealize.ShloMosaic.Adequacy

noncomputable section

namespace Cert.ReferenceIdeal.RefRun

open Idealize.ShloMosaic Idealize.ShloMosaic.TcCoe Idealize.SL.Sem Idealize.ShloMosaic.StableHlo Cert.ReferenceIdeal Cert.ReferenceIdeal.Facts₀

variable {F : FTy → Type} [FloatOps F] [∀ e, Nonempty (Elt F e)] [Cert.ReferenceIdeal.Facts]

/-- @main's 74 operations in order, its one call unfolded: the reshape of the table; the 23 of the take over the
    call's own buffers (the 22 of its body and, in seventh place, the select of the where it calls), its last
    writing @main's `%1`; then @main's remaining 50. -/
abbrev ops : List (HloOp τ sig (Elt F)) :=
  [ reshape main_arg2 main_v0 rfl shapeCasts_S512x100000x1_S512x100000,
    TRef.nullary main_call0.c (constantI S_ 32 0#32),
    TRef.unary main_call0.c main_call0.v0 (broadcastInDim S16384 ![] bcast_S_S16384),
    TRef.binary (.of main_arg1 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1 : TRef sig ⟨S16384, .i32⟩) main_call0.v2 main_call0.v3 addi,
    TRef.ternary main_call0.v1 main_call0.v3 (.of main_arg1 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_v0 : TRef sig ⟨S512x100000, .f32⟩) main_call0.v5 main_call0.v13 (fun x i => Host.gather gather_S512x100000_S16384x1_S512x16384_0_1_n_n_1_1_5121 x i),
    TRef.unary main_call0.v12 main_call0.v14 (broadcastInDim S512x16384 ![1] bcast_S16384_S512x16384_1),
    TRef.nullary main_call0.cst (constant S_ .f32 0x7FC00000#32),
    TRef.unary main_call0.cst main_call0.v15 (broadcastInDim S512x16384 ![] bcast_S_S512x16384),
    TRef.ternary main_call0.v14 main_call0.v13 main_call0.v15 main_call0.v16 select,
    unary main_v1 main_v2 ((extractStridedSlice S1x16384 ![0, 0] · slices_S512x16384_S1x16384_0_0) : (⟨S512x16384, .f32⟩ : BufTy).Contents (Elt F) → (⟨S1x16384, .f32⟩ : BufTy).Contents (Elt F)),
    reshape main_v2 main_v3 rfl shapeCasts_S1x16384_S16384,
    nullary main_cst (constant S_ .f32 0x00000000#32),
    binary main_arg0 main_cst main_v4 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    nullary main_cst_0 (constant S_ .f32 0x46800000#32),
    unary main_cst_0 main_v5 (broadcastInDim S16384 ![] bcast_S_S16384 : (⟨S_, .f32⟩ : BufTy).Contents (Elt F) → (⟨S16384, .f32⟩ : BufTy).Contents (Elt F)),
    binary main_v4 main_v5 main_v6 (Host.divf : (⟨S16384, .f32⟩ : BufTy).Contents (Elt F) → (⟨S16384, .f32⟩ : BufTy).Contents (Elt F) → (⟨S16384, .f32⟩ : BufTy).Contents (Elt F)),
    nullary main_cst_1 (constant S_ .f32 0x00000000#32),
    binary main_v3 main_cst_1 main_v7 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_2 (constant S_ .f32 0x46800000#32),
    binary main_v7 main_cst_2 main_v8 (Host.divf : (⟨S_, .f32⟩ : BufTy).Contents (Elt F) → (⟨S_, .f32⟩ : BufTy).Contents (Elt F) → (⟨S_, .f32⟩ : BufTy).Contents (Elt F)),
    unary main_v8 main_v9 (broadcastInDim S16384 ![] bcast_S_S16384 : (⟨S_, .f32⟩ : BufTy).Contents (Elt F) → (⟨S16384, .f32⟩ : BufTy).Contents (Elt F)),
    unary main_v6 main_v10 (broadcastInDim S16384x1 ![0] bcast_S16384_S16384x1_0 : (⟨S16384, .f32⟩ : BufTy).Contents (Elt F) → (⟨S16384x1, .f32⟩ : BufTy).Contents (Elt F)),
    unary main_v10 main_v11 (broadcastInDim S16384x128 ![0, 1] bcast_S16384x1_S16384x128_0_1 : (⟨S16384x1, .f32⟩ : BufTy).Contents (Elt F) → (⟨S16384x128, .f32⟩ : BufTy).Contents (Elt F)),
    binary main_arg0 main_v11 main_v12 (subf : (⟨S16384x128, .f32⟩ : BufTy).Contents (Elt F) → (⟨S16384x128, .f32⟩ : BufTy).Contents (Elt F) → (⟨S16384x128, .f32⟩ : BufTy).Contents (Elt F)),
    binary main_v12 main_v12 main_v13 (mulf : (⟨S16384x128, .f32⟩ : BufTy).Contents (Elt F) → (⟨S16384x128, .f32⟩ : BufTy).Contents (Elt F) → (⟨S16384x128, .f32⟩ : BufTy).Contents (Elt F)),
    nullary main_cst_3 (constant S_ .f32 0x00000000#32),
    binary main_v13 main_cst_3 main_v14 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v6 main_v15 (broadcastInDim S16384x1 ![0] bcast_S16384_S16384x1_0 : (⟨S16384, .f32⟩ : BufTy).Contents (Elt F) → (⟨S16384x1, .f32⟩ : BufTy).Contents (Elt F)),
    unary main_v15 main_v16 (broadcastInDim S16384x128 ![0, 1] bcast_S16384x1_S16384x128_0_1 : (⟨S16384x1, .f32⟩ : BufTy).Contents (Elt F) → (⟨S16384x128, .f32⟩ : BufTy).Contents (Elt F)),
    binary main_arg0 main_v16 main_v17 (subf : (⟨S16384x128, .f32⟩ : BufTy).Contents (Elt F) → (⟨S16384x128, .f32⟩ : BufTy).Contents (Elt F) → (⟨S16384x128, .f32⟩ : BufTy).Contents (Elt F)),
    unary main_v3 main_v18 (broadcastInDim S16384x1 ![0] bcast_S16384_S16384x1_0 : (⟨S16384, .f32⟩ : BufTy).Contents (Elt F) → (⟨S16384x1, .f32⟩ : BufTy).Contents (Elt F)),
    unary main_v9 main_v19 (broadcastInDim S16384x1 ![0] bcast_S16384_S16384x1_0 : (⟨S16384, .f32⟩ : BufTy).Contents (Elt F) → (⟨S16384x1, .f32⟩ : BufTy).Contents (Elt F)),
    binary main_v18 main_v19 main_v20 (subf : (⟨S16384x1, .f32⟩ : BufTy).Contents (Elt F) → (⟨S16384x1, .f32⟩ : BufTy).Contents (Elt F) → (⟨S16384x1, .f32⟩ : BufTy).Contents (Elt F)),
    unary main_v20 main_v21 (broadcastInDim S16384x128 ![0, 1] bcast_S16384x1_S16384x128_0_1 : (⟨S16384x1, .f32⟩ : BufTy).Contents (Elt F) → (⟨S16384x128, .f32⟩ : BufTy).Contents (Elt F)),
    binary main_v17 main_v21 main_v22 (mulf : (⟨S16384x128, .f32⟩ : BufTy).Contents (Elt F) → (⟨S16384x128, .f32⟩ : BufTy).Contents (Elt F) → (⟨S16384x128, .f32⟩ : BufTy).Contents (Elt F)),
    nullary main_cst_4 (constant S_ .f32 0x00000000#32),
    binary main_v22 main_cst_4 main_v23 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    binary main_v23 main_v14 main_v24 (Host.divf : (⟨S16384, .f32⟩ : BufTy).Contents (Elt F) → (⟨S16384, .f32⟩ : BufTy).Contents (Elt F) → (⟨S16384, .f32⟩ : BufTy).Contents (Elt F)),
    binary main_v24 main_v6 main_v25 (mulf : (⟨S16384, .f32⟩ : BufTy).Contents (Elt F) → (⟨S16384, .f32⟩ : BufTy).Contents (Elt F) → (⟨S16384, .f32⟩ : BufTy).Contents (Elt F)),
    binary main_v9 main_v25 main_v26 (subf : (⟨S16384, .f32⟩ : BufTy).Contents (Elt F) → (⟨S16384, .f32⟩ : BufTy).Contents (Elt F) → (⟨S16384, .f32⟩ : BufTy).Contents (Elt F)),
    nullary main_cst_5 (constant S_ .f32 0x00000000#32),
    binary main_arg0 main_cst_5 main_v27 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    binary main_v24 main_v27 main_v28 (mulf : (⟨S16384, .f32⟩ : BufTy).Contents (Elt F) → (⟨S16384, .f32⟩ : BufTy).Contents (Elt F) → (⟨S16384, .f32⟩ : BufTy).Contents (Elt F)),
    binary main_v28 main_v26 main_v29 (addf : (⟨S16384, .f32⟩ : BufTy).Contents (Elt F) → (⟨S16384, .f32⟩ : BufTy).Contents (Elt F) → (⟨S16384, .f32⟩ : BufTy).Contents (Elt F)),
    nullary main_cst_6 (constant S_ .f32 0x00000000#32),
    unary main_cst_6 main_v30 (broadcastInDim S512x16384 ![] bcast_S_S512x16384 : (⟨S_, .f32⟩ : BufTy).Contents (Elt F) → (⟨S512x16384, .f32⟩ : BufTy).Contents (Elt F)),
    nullary main_v31 (iotaInDim S512 32 0),
    unary main_v29 main_v32 (broadcastInDim S1x16384 ![1] bcast_S16384_S1x16384_1 : (⟨S16384, .f32⟩ : BufTy).Contents (Elt F) → (⟨S1x16384, .f32⟩ : BufTy).Contents (Elt F)),
    nullary main_c (constantI S_ 32 0#32),
    unary main_c main_v33 (broadcastInDim S512 ![] bcast_S_S512 : (⟨S_, .i32⟩ : BufTy).Contents (Elt F) → (⟨S512, .i32⟩ : BufTy).Contents (Elt F)),
    binary main_v31 main_v33 main_v34 (cmpi .slt : (⟨S512, .i32⟩ : BufTy).Contents (Elt F) → (⟨S512, .i32⟩ : BufTy).Contents (Elt F) → (⟨S512, .i1⟩ : BufTy).Contents (Elt F)),
    nullary main_c_7 (constantI S_ 32 512#32),
    unary main_c_7 main_v35 (broadcastInDim S512 ![] bcast_S_S512 : (⟨S_, .i32⟩ : BufTy).Contents (Elt F) → (⟨S512, .i32⟩ : BufTy).Contents (Elt F)),
    binary main_v31 main_v35 main_v36 (addi : (⟨S512, .i32⟩ : BufTy).Contents (Elt F) → (⟨S512, .i32⟩ : BufTy).Contents (Elt F) → (⟨S512, .i32⟩ : BufTy).Contents (Elt F)),
    ternary main_v34 main_v36 main_v31 main_v37 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v37 main_v38 (broadcastInDim S512x1 ![0] bcast_S512_S512x1_0 : (⟨S512, .i32⟩ : BufTy).Contents (Elt F) → (⟨S512x1, .i32⟩ : BufTy).Contents (Elt F)),
    unary main_v32 main_v39 (broadcastInDim S512x16384 ![0, 1] bcast_S1x16384_S512x16384_0_1 : (⟨S1x16384, .f32⟩ : BufTy).Contents (Elt F) → (⟨S512x16384, .f32⟩ : BufTy).Contents (Elt F)),
    ternary main_v30 main_v38 main_v39 main_v40 ((fun x i u => Host.scatter scatter_S512x16384_S512x1_S512x16384_1_0_0_1 (fun _ b => b) x i u) : (⟨S512x16384, .f32⟩ : BufTy).Contents (Elt F) → (⟨S512x1, .i32⟩ : BufTy).Contents (Elt F) → (⟨S512x16384, .f32⟩ : BufTy).Contents (Elt F) → (⟨S512x16384, .f32⟩ : BufTy).Contents (Elt F)),
    unary main_v40 main_v41 ((transpose S16384x512 [1, 0] · transposes_S512x16384_S16384x512_1_0) : (⟨S512x16384, .f32⟩ : BufTy).Contents (Elt F) → (⟨S16384x512, .f32⟩ : BufTy).Contents (Elt F)) ]

/-- The first 26: the table's reshape, the take, row 0 of it, reshaped to a vector (`main_v3`). -/
abbrev ops1 : List (HloOp τ sig (Elt F)) :=
  [ reshape main_arg2 main_v0 rfl shapeCasts_S512x100000x1_S512x100000,
    TRef.nullary main_call0.c (constantI S_ 32 0#32),
    TRef.unary main_call0.c main_call0.v0 (broadcastInDim S16384 ![] bcast_S_S16384),
    TRef.binary (.of main_arg1 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1 : TRef sig ⟨S16384, .i32⟩) main_call0.v2 main_call0.v3 addi,
    TRef.ternary main_call0.v1 main_call0.v3 (.of main_arg1 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_v0 : TRef sig ⟨S512x100000, .f32⟩) main_call0.v5 main_call0.v13 (fun x i => Host.gather gather_S512x100000_S16384x1_S512x16384_0_1_n_n_1_1_5121 x i),
    TRef.unary main_call0.v12 main_call0.v14 (broadcastInDim S512x16384 ![1] bcast_S16384_S512x16384_1),
    TRef.nullary main_call0.cst (constant S_ .f32 0x7FC00000#32),
    TRef.unary main_call0.cst main_call0.v15 (broadcastInDim S512x16384 ![] bcast_S_S512x16384),
    TRef.ternary main_call0.v14 main_call0.v13 main_call0.v15 main_call0.v16 select,
    unary main_v1 main_v2 ((extractStridedSlice S1x16384 ![0, 0] · slices_S512x16384_S1x16384_0_0) : (⟨S512x16384, .f32⟩ : BufTy).Contents (Elt F) → (⟨S1x16384, .f32⟩ : BufTy).Contents (Elt F)),
    reshape main_v2 main_v3 rfl shapeCasts_S1x16384_S16384 ]

/-- The next 33: the regression arithmetic from the samples and `main_v3`, ending at `main_v29`. -/
abbrev ops2 : List (HloOp τ sig (Elt F)) :=
  [ nullary main_cst (constant S_ .f32 0x00000000#32),
    binary main_arg0 main_cst main_v4 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    nullary main_cst_0 (constant S_ .f32 0x46800000#32),
    unary main_cst_0 main_v5 (broadcastInDim S16384 ![] bcast_S_S16384 : (⟨S_, .f32⟩ : BufTy).Contents (Elt F) → (⟨S16384, .f32⟩ : BufTy).Contents (Elt F)),
    binary main_v4 main_v5 main_v6 (Host.divf : (⟨S16384, .f32⟩ : BufTy).Contents (Elt F) → (⟨S16384, .f32⟩ : BufTy).Contents (Elt F) → (⟨S16384, .f32⟩ : BufTy).Contents (Elt F)),
    nullary main_cst_1 (constant S_ .f32 0x00000000#32),
    binary main_v3 main_cst_1 main_v7 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_2 (constant S_ .f32 0x46800000#32),
    binary main_v7 main_cst_2 main_v8 (Host.divf : (⟨S_, .f32⟩ : BufTy).Contents (Elt F) → (⟨S_, .f32⟩ : BufTy).Contents (Elt F) → (⟨S_, .f32⟩ : BufTy).Contents (Elt F)),
    unary main_v8 main_v9 (broadcastInDim S16384 ![] bcast_S_S16384 : (⟨S_, .f32⟩ : BufTy).Contents (Elt F) → (⟨S16384, .f32⟩ : BufTy).Contents (Elt F)),
    unary main_v6 main_v10 (broadcastInDim S16384x1 ![0] bcast_S16384_S16384x1_0 : (⟨S16384, .f32⟩ : BufTy).Contents (Elt F) → (⟨S16384x1, .f32⟩ : BufTy).Contents (Elt F)),
    unary main_v10 main_v11 (broadcastInDim S16384x128 ![0, 1] bcast_S16384x1_S16384x128_0_1 : (⟨S16384x1, .f32⟩ : BufTy).Contents (Elt F) → (⟨S16384x128, .f32⟩ : BufTy).Contents (Elt F)),
    binary main_arg0 main_v11 main_v12 (subf : (⟨S16384x128, .f32⟩ : BufTy).Contents (Elt F) → (⟨S16384x128, .f32⟩ : BufTy).Contents (Elt F) → (⟨S16384x128, .f32⟩ : BufTy).Contents (Elt F)),
    binary main_v12 main_v12 main_v13 (mulf : (⟨S16384x128, .f32⟩ : BufTy).Contents (Elt F) → (⟨S16384x128, .f32⟩ : BufTy).Contents (Elt F) → (⟨S16384x128, .f32⟩ : BufTy).Contents (Elt F)),
    nullary main_cst_3 (constant S_ .f32 0x00000000#32),
    binary main_v13 main_cst_3 main_v14 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v6 main_v15 (broadcastInDim S16384x1 ![0] bcast_S16384_S16384x1_0 : (⟨S16384, .f32⟩ : BufTy).Contents (Elt F) → (⟨S16384x1, .f32⟩ : BufTy).Contents (Elt F)),
    unary main_v15 main_v16 (broadcastInDim S16384x128 ![0, 1] bcast_S16384x1_S16384x128_0_1 : (⟨S16384x1, .f32⟩ : BufTy).Contents (Elt F) → (⟨S16384x128, .f32⟩ : BufTy).Contents (Elt F)),
    binary main_arg0 main_v16 main_v17 (subf : (⟨S16384x128, .f32⟩ : BufTy).Contents (Elt F) → (⟨S16384x128, .f32⟩ : BufTy).Contents (Elt F) → (⟨S16384x128, .f32⟩ : BufTy).Contents (Elt F)),
    unary main_v3 main_v18 (broadcastInDim S16384x1 ![0] bcast_S16384_S16384x1_0 : (⟨S16384, .f32⟩ : BufTy).Contents (Elt F) → (⟨S16384x1, .f32⟩ : BufTy).Contents (Elt F)),
    unary main_v9 main_v19 (broadcastInDim S16384x1 ![0] bcast_S16384_S16384x1_0 : (⟨S16384, .f32⟩ : BufTy).Contents (Elt F) → (⟨S16384x1, .f32⟩ : BufTy).Contents (Elt F)),
    binary main_v18 main_v19 main_v20 (subf : (⟨S16384x1, .f32⟩ : BufTy).Contents (Elt F) → (⟨S16384x1, .f32⟩ : BufTy).Contents (Elt F) → (⟨S16384x1, .f32⟩ : BufTy).Contents (Elt F)),
    unary main_v20 main_v21 (broadcastInDim S16384x128 ![0, 1] bcast_S16384x1_S16384x128_0_1 : (⟨S16384x1, .f32⟩ : BufTy).Contents (Elt F) → (⟨S16384x128, .f32⟩ : BufTy).Contents (Elt F)),
    binary main_v17 main_v21 main_v22 (mulf : (⟨S16384x128, .f32⟩ : BufTy).Contents (Elt F) → (⟨S16384x128, .f32⟩ : BufTy).Contents (Elt F) → (⟨S16384x128, .f32⟩ : BufTy).Contents (Elt F)),
    nullary main_cst_4 (constant S_ .f32 0x00000000#32),
    binary main_v22 main_cst_4 main_v23 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    binary main_v23 main_v14 main_v24 (Host.divf : (⟨S16384, .f32⟩ : BufTy).Contents (Elt F) → (⟨S16384, .f32⟩ : BufTy).Contents (Elt F) → (⟨S16384, .f32⟩ : BufTy).Contents (Elt F)),
    binary main_v24 main_v6 main_v25 (mulf : (⟨S16384, .f32⟩ : BufTy).Contents (Elt F) → (⟨S16384, .f32⟩ : BufTy).Contents (Elt F) → (⟨S16384, .f32⟩ : BufTy).Contents (Elt F)),
    binary main_v9 main_v25 main_v26 (subf : (⟨S16384, .f32⟩ : BufTy).Contents (Elt F) → (⟨S16384, .f32⟩ : BufTy).Contents (Elt F) → (⟨S16384, .f32⟩ : BufTy).Contents (Elt F)),
    nullary main_cst_5 (constant S_ .f32 0x00000000#32),
    binary main_arg0 main_cst_5 main_v27 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    binary main_v24 main_v27 main_v28 (mulf : (⟨S16384, .f32⟩ : BufTy).Contents (Elt F) → (⟨S16384, .f32⟩ : BufTy).Contents (Elt F) → (⟨S16384, .f32⟩ : BufTy).Contents (Elt F)),
    binary main_v28 main_v26 main_v29 (addf : (⟨S16384, .f32⟩ : BufTy).Contents (Elt F) → (⟨S16384, .f32⟩ : BufTy).Contents (Elt F) → (⟨S16384, .f32⟩ : BufTy).Contents (Elt F)) ]

/-- The last 15: `main_v29` spread over 512 rows by the scatter, and the transpose (`main_v41`). -/
abbrev ops3 : List (HloOp τ sig (Elt F)) :=
  [ nullary main_cst_6 (constant S_ .f32 0x00000000#32),
    unary main_cst_6 main_v30 (broadcastInDim S512x16384 ![] bcast_S_S512x16384 : (⟨S_, .f32⟩ : BufTy).Contents (Elt F) → (⟨S512x16384, .f32⟩ : BufTy).Contents (Elt F)),
    nullary main_v31 (iotaInDim S512 32 0),
    unary main_v29 main_v32 (broadcastInDim S1x16384 ![1] bcast_S16384_S1x16384_1 : (⟨S16384, .f32⟩ : BufTy).Contents (Elt F) → (⟨S1x16384, .f32⟩ : BufTy).Contents (Elt F)),
    nullary main_c (constantI S_ 32 0#32),
    unary main_c main_v33 (broadcastInDim S512 ![] bcast_S_S512 : (⟨S_, .i32⟩ : BufTy).Contents (Elt F) → (⟨S512, .i32⟩ : BufTy).Contents (Elt F)),
    binary main_v31 main_v33 main_v34 (cmpi .slt : (⟨S512, .i32⟩ : BufTy).Contents (Elt F) → (⟨S512, .i32⟩ : BufTy).Contents (Elt F) → (⟨S512, .i1⟩ : BufTy).Contents (Elt F)),
    nullary main_c_7 (constantI S_ 32 512#32),
    unary main_c_7 main_v35 (broadcastInDim S512 ![] bcast_S_S512 : (⟨S_, .i32⟩ : BufTy).Contents (Elt F) → (⟨S512, .i32⟩ : BufTy).Contents (Elt F)),
    binary main_v31 main_v35 main_v36 (addi : (⟨S512, .i32⟩ : BufTy).Contents (Elt F) → (⟨S512, .i32⟩ : BufTy).Contents (Elt F) → (⟨S512, .i32⟩ : BufTy).Contents (Elt F)),
    ternary main_v34 main_v36 main_v31 main_v37 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v37 main_v38 (broadcastInDim S512x1 ![0] bcast_S512_S512x1_0 : (⟨S512, .i32⟩ : BufTy).Contents (Elt F) → (⟨S512x1, .i32⟩ : BufTy).Contents (Elt F)),
    unary main_v32 main_v39 (broadcastInDim S512x16384 ![0, 1] bcast_S1x16384_S512x16384_0_1 : (⟨S1x16384, .f32⟩ : BufTy).Contents (Elt F) → (⟨S512x16384, .f32⟩ : BufTy).Contents (Elt F)),
    ternary main_v30 main_v38 main_v39 main_v40 ((fun x i u => Host.scatter scatter_S512x16384_S512x1_S512x16384_1_0_0_1 (fun _ b => b) x i u) : (⟨S512x16384, .f32⟩ : BufTy).Contents (Elt F) → (⟨S512x1, .i32⟩ : BufTy).Contents (Elt F) → (⟨S512x16384, .f32⟩ : BufTy).Contents (Elt F) → (⟨S512x16384, .f32⟩ : BufTy).Contents (Elt F)),
    unary main_v40 main_v41 ((transpose S16384x512 [1, 0] · transposes_S512x16384_S16384x512_1_0) : (⟨S512x16384, .f32⟩ : BufTy).Contents (Elt F) → (⟨S16384x512, .f32⟩ : BufTy).Contents (Elt F)) ]

theorem ops_split : (ops : List (HloOp τ sig (Elt F))) = ops1 ++ ops2 ++ ops3 := rfl

-- the chain is 74 statements deep, and re-associating it descends once per statement
set_option maxRecDepth 2048 in
/-- @main is that straight line: the two functions' definitions unfolded at their calls and the call's record at its
    fields, @main is one chain of steps once sequencing is reassociated, and the line's program unfolds to the same
    chain. -/
theorem main_eq (c : Dev nD) : main (F := F) c = seq ops := by
  simp only [main, fn_take.body, fn_where.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., reshape_bufs_sub .., nullary_bufs_sub .., binary_bufs_sub .., nullary_bufs_sub .., unary_bufs_sub ..,
    binary_bufs_sub .., nullary_bufs_sub .., binary_bufs_sub .., nullary_bufs_sub .., binary_bufs_sub .., unary_bufs_sub ..,
    unary_bufs_sub .., unary_bufs_sub .., binary_bufs_sub .., binary_bufs_sub .., nullary_bufs_sub .., binary_bufs_sub ..,
    unary_bufs_sub .., unary_bufs_sub .., binary_bufs_sub .., unary_bufs_sub .., unary_bufs_sub .., binary_bufs_sub ..,
    unary_bufs_sub .., binary_bufs_sub .., nullary_bufs_sub .., binary_bufs_sub .., binary_bufs_sub .., binary_bufs_sub ..,
    binary_bufs_sub .., nullary_bufs_sub .., binary_bufs_sub .., binary_bufs_sub .., binary_bufs_sub .., nullary_bufs_sub ..,
    unary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., unary_bufs_sub ..,
    ternary_bufs_sub .., unary_bufs_sub ..⟩

/-- The fold over two lines run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The three stages' folds

Each stage's fold at its last buffer is the stage's term of the contents it reads: the fold unrolled, each
operation's result at its own buffer its function's value and at any other buffer what was there; the typed
references' transports are the identity at these literal references, so what is left is the term. -/

-- the reduction and the gather are kept folded: the equation never looks inside them, and with them open the comparison
-- of the two sides runs out of recursion depth (at a bound of 8192 too)
attribute [local irreducible] Host.reduce Host.gather in
theorem stage1 (V : Valuation τ sig (Elt F)) :
    after ops1 V (Proc.devRef .tc main_v3 : DevRef τ sig) = RefTerm.takeRow0 (F := F) (V (Proc.devRef .tc main_arg2 : DevRef τ sig)) (V (Proc.devRef .tc main_arg1 : DevRef τ sig)) := by
  after_results_simp
  rfl

/-- The first stage writes no argument: the samples are still there for the second. -/
theorem stage1_arg0 (V : Valuation τ sig (Elt F)) : after ops1 V (Proc.devRef .tc main_arg0 : DevRef τ sig) = V (Proc.devRef .tc main_arg0 : DevRef τ sig) := by
  after_results_simp

theorem stage2 (V : Valuation τ sig (Elt F)) :
    after ops2 V (Proc.devRef .tc main_v29 : DevRef τ sig) = RefTerm.pred (F := F) (V (Proc.devRef .tc main_arg0 : DevRef τ sig)) (V (Proc.devRef .tc main_v3 : DevRef τ sig)) := by
  after_results_simp
  rfl

theorem stage3 (V : Valuation τ sig (Elt F)) :
    after ops3 V (Proc.devRef .tc main_v41 : DevRef τ sig) = RefTerm.spread (F := F) (V (Proc.devRef .tc main_v29 : DevRef τ sig)) := by
  after_results_simp
  rfl

/-- The whole fold at the result buffer: the three stages composed. -/
theorem out_eq (V : Valuation τ sig (Elt F)) :
    after ops V (Proc.devRef .tc main_v41 : DevRef τ sig) = RefTerm.out (F := F) (V (Proc.devRef .tc main_arg0 : DevRef τ sig)) (V (Proc.devRef .tc main_arg1 : DevRef τ sig)) (V (Proc.devRef .tc main_arg2 : DevRef τ sig)) := by
  rw [ops_split, after_append, after_append, stage3, stage2, stage1_arg0, stage1]
  rfl

/-- No operation writes an argument. -/
theorem arg0_eq (V : Valuation τ sig (Elt F)) : after ops V (Proc.devRef .tc main_arg0 : DevRef τ sig) = V (Proc.devRef .tc main_arg0 : DevRef τ sig) := by
  after_results_simp
theorem arg1_eq (V : Valuation τ sig (Elt F)) : after ops V (Proc.devRef .tc main_arg1 : DevRef τ sig) = V (Proc.devRef .tc main_arg1 : DevRef τ sig) := by
  after_results_simp
theorem arg2_eq (V : Valuation τ sig (Elt F)) : after ops V (Proc.devRef .tc main_arg2 : DevRef τ sig) = V (Proc.devRef .tc main_arg2 : DevRef τ sig) := by
  after_results_simp
theorem arg3_eq (V : Valuation τ sig (Elt F)) : after ops V (Proc.devRef .tc main_arg3 : DevRef τ sig) = V (Proc.devRef .tc main_arg3 : DevRef τ sig) := by
  after_results_simp

/-- Every weakly fair execution of the reference ends, faulting nowhere, with its result buffer at `RefTerm.out` of the
    three argument arrays and the four arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v41) = RefTerm.out (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v41).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefRun

end
-- ==== Proof.Ysel.lean ====
/-
  The target of a sample: the entry of row 0 of the table that the sample's label names. Both programs read the
  table at the label (an unsigned word in range), so both sides of the claim are stated over this one selection.
-/
import Idealize.ShloMosaic.Lib.ValueIdx
import proofs.«205095_g39934605918594_cont_8to1_b_428_16_alg».proof.ReferenceIdeal

noncomputable section

namespace Cert.ReferenceIdeal.RefValue

open Idealize.ShloMosaic Idealize.ShloMosaic.ValueIdx

/-- The target of sample `i`: row 0 of the table at the sample's label (zero for a label outside the table). -/
def ysel (W : FVec Ideal Cert.ReferenceIdeal.S512x100000x1 .f32) (lab : IVec Cert.ReferenceIdeal.S16384 32) (i : Fin 16384) : EReal :=
  if h : (lab (ix1 i)).toNat < 100000 then W (ix3 (⟨0, by decide⟩ : Fin 512) ⟨(lab (ix1 i)).toNat, h⟩ (⟨0, by decide⟩ : Fin 1)) else 0

end Cert.ReferenceIdeal.RefValue

end
-- ==== Proof.KValueGather.lean ====
/-
  The three layout steps between the kernel's arguments and the dense kernel's blocks, read at an index.

  The flat table: the weights are transposed to [label, 1, row] and read row-major, so flat position
  512 v + r holds W[r, v, 0]. A sample's gathered target is the table at 512 times its label; the product does
  not wrap for a label at most 99999 (99999 · 512 < 2³²), so it is W[0, label, 0]: the selection both programs share.
  The two views of the 16384 targets are row-major too: slab t, place k of the [4, 1, 4096] view is target 4096 t + k;
  row a, column b of the [128, 128] view is target 128 a + b, and the square view's total is the targets' total.
-/
import proofs.«205095_g39934605918594_cont_8to1_b_428_16_alg».proof.Proof.KTerm
import proofs.«205095_g39934605918594_cont_8to1_b_428_16_alg».proof.Proof.Ysel
import Idealize.ShloMosaic.Lib.ValueIdx
import Idealize.ShloMosaic.Lib.Pipeline.Value

noncomputable section

namespace Cert.KernelIdeal.KValue

open Idealize.ShloMosaic Idealize.ShloMosaic.ValueIdx Cert.KernelIdeal

variable [Cert.KernelIdeal.Facts]

/-- A rank-1 index set is its one coordinate's range. -/
def idx1Equiv (n : Nat) : Fin n ≃ (⟨1, ![n]⟩ : Shape).Idx where
  toFun i := ix1 i
  invFun j := j 0
  left_inv _ := rfl
  right_inv j := (eq_ix1 j).symm

/-- A sum over a rank-1 index set is the sum over the coordinate. -/
theorem sum_idx1 {M : Type} [AddCommMonoid M] {n : Nat} (f : (⟨1, ![n]⟩ : Shape).Idx → M) :
    ∑ j, f j = ∑ i : Fin n, f (ix1 i) :=
  (Equiv.sum_comp (idx1Equiv n) f).symm

/-- A reshape keeps the total: it only renames the positions. -/
theorem sum_shapeCast {M : Type} [AddCommMonoid M] {s t : Shape} (x : s.Idx → M) (h : s.ShapeCasts t) :
    ∑ j, shapeCast t x h j = ∑ k, x k :=
  Equiv.sum_comp (Shape.reshapeEquiv h) x

section AnyInstance
variable {F : FTy → Type} [FloatOps F]

/-- Flat position 512 v + r of the table is W[r, v, 0]. -/
theorem tbl_apply (W : FVec F S512x100000x1 .f32) (v : Fin 100000) (r : Fin 512) (p : Fin 51200000)
    (hp : p.val = v.val * 512 + r.val) : KTerm.tbl W (ix1 p) = W (ix3 r v (0 : Fin 1)) := by
  unfold KTerm.tbl
  refine (shapeCast_apply _ _ (ix1 p) (ix3 v (0 : Fin 1) r) ?_).trans ?_
  · rw [Shape.rowMajor_val_three, Shape.rowMajor_val_one]
    show (v.val * 1 + 0) * 512 + r.val = p.val
    omega
  · refine transpose_apply [1, 2, 0] W _ (ix3 v (0 : Fin 1) r) (ix3 r v (0 : Fin 1)) ?_
    intro b
    match b with
    | ⟨0, _⟩ => rfl
    | ⟨1, _⟩ => rfl
    | ⟨2, _⟩ => rfl

/-- Slab t, place k of the [4, 1, 4096] view is target 4096 t + k. -/
theorem y3Of_apply (y : FVec F S16384 .f32) (t : Fin 4) (k : Fin 4096) (i : Fin 16384) (hi : i.val = 4096 * t.val + k.val) :
    KTerm.y3Of y (ix3 t (0 : Fin 1) k) = y (ix1 i) := by
  unfold KTerm.y3Of
  refine shapeCast_apply _ _ (ix3 t (0 : Fin 1) k) (ix1 i) ?_
  rw [Shape.rowMajor_val_three, Shape.rowMajor_val_one]
  show i.val = (t.val * 1 + 0) * 4096 + k.val
  omega

/-- Row a, column b of the [128, 128] view is target 128 a + b. -/
theorem yfOf_apply (y : FVec F S16384 .f32) (a b : Fin 128) (i : Fin 16384) (hi : i.val = 128 * a.val + b.val) :
    KTerm.yfOf y (ix2 a b) = y (ix1 i) := by
  unfold KTerm.yfOf
  refine shapeCast_apply _ _ (ix2 a b) (ix1 i) ?_
  rw [Shape.rowMajor_val_two, Shape.rowMajor_val_one]
  show i.val = a.val * 128 + b.val
  omega

end AnyInstance

/-- The square view's total is the targets' total. -/
theorem sum_yfOf (y : FVec Ideal S16384 .f32) : ∑ p : S128x128.Idx, KTerm.yfOf y p = ∑ i : Fin 16384, y (ix1 i) := by
  unfold KTerm.yfOf
  rw [sum_shapeCast]
  exact sum_idx1 y

/-- A sample's gathered target is the selection `ysel`: the word 512 · label does not wrap, and the table there holds
    row 0 of the weights at the label. -/
theorem gathered_apply (W : FVec Ideal S512x100000x1 .f32) (lab : IVec S16384 32)
    (hlab : ∀ j : S16384.Idx, (lab j).toNat ≤ 99999) (i : Fin 16384) :
    KTerm.gathered (KTerm.tbl (F := Ideal) W) lab (ix1 i) = Cert.ReferenceIdeal.RefValue.ysel W lab i := by
  have hv := hlab (ix1 i)
  have hmul : (lab (ix1 i) * 512#32).toNat = (lab (ix1 i)).toNat * 512 := by
    rw [BitVec.toNat_mul]
    show (lab (ix1 i)).toNat * 512 % 2 ^ 32 = _
    exact Nat.mod_eq_of_lt (by omega)
  have hin : (lab (ix1 i) * 512#32).toNat < 51200000 := by rw [hmul]; omega
  have hlt : (lab (ix1 i)).toNat < 100000 := by omega
  unfold KTerm.gathered Cert.ReferenceIdeal.RefValue.ysel
  rw [dif_pos hin, dif_pos hlt]
  exact tbl_apply W ⟨(lab (ix1 i)).toNat, hlt⟩ ⟨0, by decide⟩ _ (by show (lab (ix1 i) * 512#32).toNat = (lab (ix1 i)).toNat * 512 + 0; omega)

end Cert.KernelIdeal.KValue

end
-- ==== Proof.KValueDot.lean ====
/-
  The dense kernel turns the targets' row of 4096 into a column by a product with an identity matrix.

  The 1024 × 1024 matrix whose entry (p, q) is the integer 1 when the two coordinates are equal and 0 otherwise,
  converted to a float, is the identity: contracted along its second axis against the second axis of a 1 × 1024
  row it gives, at row b, the sum over k of [b = k] · row[k], in which every term but k = b is 0 · row[k] = 0 (in the extended
  reals too), so the sum is row[b]. The kernel does this for the four quarters of the row and stacks the four
  1024 × 1 columns: the stacked column at a is quarter a / 1024 at a mod 1024, which is the row at a.
-/
import proofs.«205095_g39934605918594_cont_8to1_b_428_16_alg».proof.Proof.KTerm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Idealize.ShloMosaic Idealize.ShloMosaic.ValueIdx Cert.KernelIdeal
open Cert.KernelIdeal.Facts₀

variable [Cert.KernelIdeal.Facts]

/-- The matrix of the comparison "row coordinate = column coordinate", as floats. -/
abbrev ident : FVec Ideal S1024x1024 .f32 :=
  sitofp .f32 (extui 32 (cmpi .eq (iota .tc S1024x1024 32 [0] iota_S1024x1024_d0_w32) (iota .tc S1024x1024 32 [1] iota_S1024x1024_d1_w32)) natLt_1_32)

/-- Its entries: 1 on the diagonal, 0 off it. -/
theorem ident_apply (p q : Fin 1024) : ident (ix2 p q) = if p = q then (1 : EReal) else 0 := by
  unfold ident
  rw [sitofp_apply, extui_apply]
  show FloatOps.sitofp (F := Ideal) .f32
    ((IntOp.cmpi .eq (iota .tc S1024x1024 32 [0] iota_S1024x1024_d0_w32 (ix2 p q)) (iota .tc S1024x1024 32 [1] iota_S1024x1024_d1_w32 (ix2 p q))).setWidth 32) = _
  rw [iota_single_apply, iota_single_apply]
  show ((((IntOp.cmpi .eq (BitVec.ofNat 32 p.val) (BitVec.ofNat 32 q.val)).setWidth 32).toInt : ℝ) : EReal) = _
  by_cases h : p = q
  · subst h
    rw [if_pos rfl, IntOp.cmpi_eq.2 rfl, show ((1#1 : BitVec 1).setWidth 32).toInt = 1 by decide]
    simp
  · have hne : ¬ IntOp.cmpi .eq (BitVec.ofNat 32 p.val) (BitVec.ofNat 32 q.val) = 1#1 := by
      intro h1
      have h2 := congrArg BitVec.toNat (IntOp.cmpi_eq.1 h1)
      have hp := p.isLt
      have hq := q.isLt
      rw [BitVec.toNat_ofNat, BitVec.toNat_ofNat, Nat.mod_eq_of_lt (by omega), Nat.mod_eq_of_lt (by omega)] at h2
      exact h (Fin.ext h2)
    rw [if_neg h, eq_zero_of_ne_one hne, show ((0#1 : BitVec 1).setWidth 32).toInt = 0 by decide]
    simp

/-! The product's operand indices, axis by axis: a free axis reads the result index, the contracted axis the
    contraction position. -/

theorem lhs_dot_0 (i : S1024x1.Idx) (q : dot_S1024x1024_S1x1024_S1024x1_1_1_0_0_n_n.contr.Idx) :
    (dot_S1024x1024_S1x1024_S1024x1_1_1_0_0_n_n.lhsIdx i q 0).val = (i 0).val := by
  unfold DotDims.lhsIdx
  rw [dif_neg (show ¬(0 : Fin S1024x1024.rank) ∈ dot_S1024x1024_S1x1024_S1024x1_1_1_0_0_n_n.lhsBatch by decide),
    dif_pos (show (0 : Fin S1024x1024.rank) ∈ dot_S1024x1024_S1x1024_S1024x1_1_1_0_0_n_n.lhsNonContracting by decide)]
  rfl

theorem lhs_dot_1 (i : S1024x1.Idx) (q : dot_S1024x1024_S1x1024_S1024x1_1_1_0_0_n_n.contr.Idx) :
    (dot_S1024x1024_S1x1024_S1024x1_1_1_0_0_n_n.lhsIdx i q 1).val = (q ⟨0, by decide⟩).val :=
  dot_S1024x1024_S1x1024_S1024x1_1_1_0_0_n_n.lhsIdx_val_of_single rfl i q

theorem rhs_dot_0 (i : S1024x1.Idx) (q : dot_S1024x1024_S1x1024_S1024x1_1_1_0_0_n_n.contr.Idx) :
    (dot_S1024x1024_S1x1024_S1024x1_1_1_0_0_n_n.rhsIdx i q 0).val = (i 1).val := by
  unfold DotDims.rhsIdx
  rw [dif_neg (show ¬(0 : Fin S1x1024.rank) ∈ dot_S1024x1024_S1x1024_S1024x1_1_1_0_0_n_n.rhsBatch by decide),
    dif_pos (show (0 : Fin S1x1024.rank) ∈ dot_S1024x1024_S1x1024_S1024x1_1_1_0_0_n_n.rhsNonContracting by decide)]
  rfl

theorem rhs_dot_1 (i : S1024x1.Idx) (q : dot_S1024x1024_S1x1024_S1024x1_1_1_0_0_n_n.contr.Idx) :
    (dot_S1024x1024_S1x1024_S1024x1_1_1_0_0_n_n.rhsIdx i q 1).val = (q ⟨0, by decide⟩).val :=
  dot_S1024x1024_S1x1024_S1024x1_1_1_0_0_n_n.rhsIdx_val_of_single rfl i q

/-- The identity times a row, read at row b of the column it gives: the row's entry b. -/
theorem matmul_ident_apply (row : FVec Ideal S1x1024 .f32) (b : Fin 1024) :
    matmul dot_S1024x1024_S1x1024_S1024x1_1_1_0_0_n_n none ident row (constant (F := Ideal) S1024x1 .f32 0x00000000#32) (ix2 b (0 : Fin 1))
      = row (ix2 (0 : Fin 1) b) := by
  simp only [matmul]
  rw [Ideal.matmul_constant_zero_apply,
    ← Equiv.sum_comp (ValueIdx.contrEquiv1 dot_S1024x1024_S1x1024_S1024x1_1_1_0_0_n_n 1024 rfl rfl).symm]
  have key : ∀ k : Fin 1024,
      ident (dot_S1024x1024_S1x1024_S1024x1_1_1_0_0_n_n.lhsIdx (ix2 b (0 : Fin 1))
          ((ValueIdx.contrEquiv1 dot_S1024x1024_S1x1024_S1024x1_1_1_0_0_n_n 1024 rfl rfl).symm k))
        * row (dot_S1024x1024_S1x1024_S1024x1_1_1_0_0_n_n.rhsIdx (ix2 b (0 : Fin 1))
          ((ValueIdx.contrEquiv1 dot_S1024x1024_S1x1024_S1024x1_1_1_0_0_n_n 1024 rfl rfl).symm k))
        = (if b = k then (1 : EReal) else 0) * row (ix2 (0 : Fin 1) k) := by
    intro k
    have hk := ValueIdx.contrEquiv1_symm_val dot_S1024x1024_S1x1024_S1024x1_1_1_0_0_n_n 1024 rfl rfl k
    have el : dot_S1024x1024_S1x1024_S1024x1_1_1_0_0_n_n.lhsIdx (ix2 b (0 : Fin 1))
        ((ValueIdx.contrEquiv1 dot_S1024x1024_S1x1024_S1024x1_1_1_0_0_n_n 1024 rfl rfl).symm k) = ix2 b k := funext fun a => Fin.ext (by
      match a with
      | ⟨0, _⟩ => exact lhs_dot_0 _ _
      | ⟨1, _⟩ => exact (lhs_dot_1 _ _).trans hk)
    have er : dot_S1024x1024_S1x1024_S1024x1_1_1_0_0_n_n.rhsIdx (ix2 b (0 : Fin 1))
        ((ValueIdx.contrEquiv1 dot_S1024x1024_S1x1024_S1024x1_1_1_0_0_n_n 1024 rfl rfl).symm k) = ix2 (0 : Fin 1) k := funext fun a => Fin.ext (by
      match a with
      | ⟨0, _⟩ => exact rhs_dot_0 _ _
      | ⟨1, _⟩ => exact (rhs_dot_1 _ _).trans hk)
    rw [el, er, ident_apply]
  rw [Finset.sum_congr rfl (fun k _ => key k), Finset.sum_eq_single b]
  · rw [if_pos rfl, one_mul]
  · intro k _ hkb
    rw [if_neg (Ne.symm hkb), zero_mul]
  · intro h
    exact absurd (Finset.mem_univ b) h

/-- A quarter of the row: the slice at offset o, read at b, is the row at o + b. -/
theorem slice_apply (v2 : FVec Ideal S1x4096 .f32) (o : Nat) (h : S1x4096.Slices ![0, o] S1x1024) (b : Fin 1024) (c : Fin 4096)
    (hc : c.val = o + b.val) : extractStridedSlice S1x1024 ![0, o] v2 h (ix2 (0 : Fin 1) b) = v2 (ix2 (0 : Fin 1) c) := by
  refine extractStridedSlice_apply ![0, o] v2 h _ (ix2 (0 : Fin 1) c) ?_
  intro a
  match a with
  | ⟨0, _⟩ => rfl
  | ⟨1, _⟩ => exact hc

/-- The row view of a slab: entry c is the slab's target c. -/
theorem rowView_apply (y3 : FVec Ideal S1x1x4096 .f32) (c : Fin 4096) :
    shapeCast S1x4096 y3 shapeCasts_S1x1x4096_S1x4096 (ix2 (0 : Fin 1) c) = y3 (ix3 (0 : Fin 1) (0 : Fin 1) c) := by
  refine shapeCast_apply _ _ _ _ ?_
  rw [Shape.rowMajor_val_three, Shape.rowMajor_val_two]
  show (0 * 1 + 0) * 4096 + c.val = 0 * 4096 + c.val
  omega

/-- Off the stacking axis a piece's index and the column's agree. -/
theorem stack_off_axis (b : Fin 1024) (a : Fin 4096) (b' : Fin S1024x1.rank)
    (hb' : b'.cast (rfl : S1024x1.rank = S4096x1.rank) ≠ (0 : Fin S4096x1.rank)) :
    ((ix2 b (0 : Fin 1) : S1024x1.Idx) b').val = ((ix2 a (0 : Fin 1) : S4096x1.Idx) (b'.cast (rfl : S1024x1.rank = S4096x1.rank))).val :=
  match b', hb' with
  | ⟨0, _⟩, hb' => absurd rfl hb'
  | ⟨1, _⟩, _ => rfl

/-- The four quarter columns stacked: at a, the row's entry a. -/
theorem col_apply (v2 : FVec Ideal S1x4096 .f32) (a : Fin 4096) :
    concatenate S4096x1 0
      [⟨S1024x1, matmul dot_S1024x1024_S1x1024_S1024x1_1_1_0_0_n_n none ident (extractStridedSlice S1x1024 ![0, 0] v2 slices_S1x4096_o0_0_S1x1024) (constant (F := Ideal) S1024x1 .f32 0x00000000#32)⟩,
       ⟨S1024x1, matmul dot_S1024x1024_S1x1024_S1024x1_1_1_0_0_n_n none ident (extractStridedSlice S1x1024 ![0, 1024] v2 slices_S1x4096_o0_1024_S1x1024) (constant (F := Ideal) S1024x1 .f32 0x00000000#32)⟩,
       ⟨S1024x1, matmul dot_S1024x1024_S1x1024_S1024x1_1_1_0_0_n_n none ident (extractStridedSlice S1x1024 ![0, 2048] v2 slices_S1x4096_o0_2048_S1x1024) (constant (F := Ideal) S1024x1 .f32 0x00000000#32)⟩,
       ⟨S1024x1, matmul dot_S1024x1024_S1x1024_S1024x1_1_1_0_0_n_n none ident (extractStridedSlice S1x1024 ![0, 3072] v2 slices_S1x4096_o0_3072_S1x1024) (constant (F := Ideal) S1024x1 .f32 0x00000000#32)⟩]
      concatenates_S1024x1_S1024x1_S1024x1_S1024x1_S4096x1_d0 (ix2 a (0 : Fin 1)) = v2 (ix2 (0 : Fin 1) a) := by
  have ha := a.isLt
  by_cases h1 : a.val < 1024
  · refine (concatenate_apply_piece (0 : Fin S4096x1.rank) _ _ (ix2 a (0 : Fin 1)) 0 (by simp) S1024x1 _ rfl rfl 0 rfl
      (ix2 (⟨a.val, h1⟩ : Fin 1024) (0 : Fin 1)) (stack_off_axis _ a) (by show 0 + a.val = a.val; omega)).trans ?_
    exact (matmul_ident_apply _ _).trans (slice_apply v2 0 _ _ a (by show a.val = 0 + a.val; omega))
  · by_cases h2 : a.val < 2048
    · refine (concatenate_apply_piece (0 : Fin S4096x1.rank) _ _ (ix2 a (0 : Fin 1)) 1 (by simp) S1024x1 _ rfl rfl 1024 rfl
        (ix2 (⟨a.val - 1024, by omega⟩ : Fin 1024) (0 : Fin 1)) (stack_off_axis _ a) (by show 1024 + (a.val - 1024) = a.val; omega)).trans ?_
      exact (matmul_ident_apply _ _).trans (slice_apply v2 1024 _ _ a (by show a.val = 1024 + (a.val - 1024); omega))
    · by_cases h3 : a.val < 3072
      · refine (concatenate_apply_piece (0 : Fin S4096x1.rank) _ _ (ix2 a (0 : Fin 1)) 2 (by simp) S1024x1 _ rfl rfl 2048 rfl
          (ix2 (⟨a.val - 2048, by omega⟩ : Fin 1024) (0 : Fin 1)) (stack_off_axis _ a) (by show 2048 + (a.val - 2048) = a.val; omega)).trans ?_
        exact (matmul_ident_apply _ _).trans (slice_apply v2 2048 _ _ a (by show a.val = 2048 + (a.val - 2048); omega))
      · refine (concatenate_apply_piece (0 : Fin S4096x1.rank) _ _ (ix2 a (0 : Fin 1)) 3 (by simp) S1024x1 _ rfl rfl 3072 rfl
          (ix2 (⟨a.val - 3072, by omega⟩ : Fin 1024) (0 : Fin 1)) (stack_off_axis _ a) (by show 3072 + (a.val - 3072) = a.val; omega)).trans ?_
        exact (matmul_ident_apply _ _).trans (slice_apply v2 3072 _ _ a (by show a.val = 3072 + (a.val - 3072); omega))

end Cert.KernelIdeal.KValue

end
-- ==== Proof.Spec.lean ====
/-
  The mathematics both programs compute, written once over plain index types and the extended reals,
  with no program in sight.

  A sample `i` has a feature row `X i : Fin 128 → EReal` and a target `y i`. Both programs fit, per sample, the
  line through the row's entries and the target and evaluate it on the row's sum; the quantities are

    s_i   = Σ_j X i j                       the row's sum
    x̄_i   = s_i / n                         n = 16384, the number of samples (NOT the row's length)
    ȳ     = (Σ_i y i) / n
    Sx_i  = Σ_j (X i j − x̄_i)²
    β_i   = Sxy_i / Sx_i
    pred_i = β_i · s_i + (ȳ − β_i · x̄_i)

  and they differ only in how they spell `Sxy_i`: the kernel multiplies once,
  `(y i − ȳ) · (s_i − d · x̄_i)` with `d = 128` the row's length, where the reference sums the products,
  `Σ_j (X i j − x̄_i) · (y i − ȳ)`. Over the reals these are equal by distributivity; over the extended reals
  distributivity fails at the infinities, so the law is stated for rows and targets that are real numbers.

  The two numbers `n` and `d` are kept as the f32 words both programs print, never evaluated: the same word on
  both sides denotes the same extended real.
-/
import Idealize.ShloMosaic.PureOps.Ideal
import Mathlib.Algebra.BigOperators.Ring.Finset
import Mathlib.Algebra.BigOperators.Group.Finset.Basic
import Mathlib.Data.Fintype.Card
import Mathlib.Tactic.Ring
import Mathlib.Tactic.NormNum

noncomputable section

namespace Cert.Spec

open Idealize.ShloMosaic

/-- The number of samples, 16384, as the f32 word `0x46800000`. -/
abbrev nE : EReal := Ideal.ofBits .f32 0x46800000#32
/-- The length of a row, 128, as the f32 word `0x43000000`. -/
abbrev dE : EReal := Ideal.ofBits .f32 0x43000000#32

variable (X : Fin 16384 → Fin 128 → EReal) (y : Fin 16384 → EReal)

/-- The sum of sample `i`'s row. -/
def rowSum (i : Fin 16384) : EReal := ∑ j : Fin 128, X i j
/-- The row's sum over the number of samples. -/
def xAvg (i : Fin 16384) : EReal := Ideal.div (rowSum X i) nE
/-- The targets' sum over the number of samples. -/
def yAvg : EReal := Ideal.div (∑ i : Fin 16384, y i) nE
/-- The row's squared deviations from `xAvg`, summed. -/
def sx (i : Fin 16384) : EReal := ∑ j : Fin 128, (X i j - xAvg X i) * (X i j - xAvg X i)
/-- The cross term as the kernel spells it: one product. -/
def sxyK (i : Fin 16384) : EReal := (y i - yAvg y) * (rowSum X i - dE * xAvg X i)
/-- The cross term as the reference spells it: a sum of products. -/
def sxyR (i : Fin 16384) : EReal := ∑ j : Fin 128, (X i j - xAvg X i) * (y i - yAvg y)
/-- The fitted line evaluated on the row's sum, from a given cross term. -/
def predOf (sxy : EReal) (i : Fin 16384) : EReal :=
  Ideal.div sxy (sx X i) * rowSum X i + (yAvg y - Ideal.div sxy (sx X i) * xAvg X i)
/-- The kernel's prediction for sample `i`. -/
def predK (i : Fin 16384) : EReal := predOf X y (sxyK X y i) i
/-- The reference's prediction for sample `i`. -/
def predR (i : Fin 16384) : EReal := predOf X y (sxyR X y i) i

/-- The word `0x46800000` denotes the real number 16384: exponent field 141, no fraction bit, so 2²³ · 2^(141 − 127 − 23) = 2¹⁴. -/
private theorem nE_eq : nE = ((16384 : ℝ) : EReal) := by
  simp [nE, Ideal.ofBits, Ideal.ieee]
  rw [← EReal.coe_mul, EReal.coe_eq_coe_iff]
  norm_num

/-- The word `0x43000000` denotes the real number 128: exponent field 134, no fraction bit, so 2²³ · 2^(134 − 127 − 23) = 2⁷. -/
private theorem dE_eq : dE = ((128 : ℝ) : EReal) := by
  simp [dE, Ideal.ofBits, Ideal.ieee]
  rw [← EReal.coe_mul, EReal.coe_eq_coe_iff]
  norm_num

/-- The inclusion of the reals in the extended reals commutes with finite sums. -/
private theorem coe_sum {ι : Type} (s : Finset ι) (f : ι → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- The identity over the reals: the deviations of a row from any number `m`, each times a common factor `c`, sum to
    `c` times (the row's sum less 128 copies of `m`). -/
private theorem real_identity (x : Fin 128 → ℝ) (m c : ℝ) :
    ∑ j : Fin 128, (x j - m) * c = c * ((∑ j : Fin 128, x j) - 128 * m) := by
  rw [← Finset.sum_mul, Finset.sum_sub_distrib, Finset.sum_const, Finset.card_univ, Fintype.card_fin, nsmul_eq_mul]
  push_cast
  ring

/-- Over real rows and real targets the two spellings of the cross term agree: distributivity of the product over the
    row's sum, and `Σ_j (X i j − x̄) = s − 128 · x̄`. -/
theorem sxyR_eq_sxyK (hX : ∀ i j, ∃ r : ℝ, X i j = (r : EReal)) (hy : ∀ i, ∃ r : ℝ, y i = (r : EReal)) (i : Fin 16384) :
    sxyR X y i = sxyK X y i := by
  choose x hx using hX
  choose Y hY using hy
  -- the row's sum, the two averages: each is the inclusion of a real number
  have hrow : rowSum X i = ((∑ j : Fin 128, x i j : ℝ) : EReal) := by
    unfold rowSum
    rw [coe_sum]
    exact Finset.sum_congr rfl (fun j _ => hx i j)
  have hxa : xAvg X i = (((∑ j : Fin 128, x i j) * (1 / 16384) : ℝ) : EReal) := by
    unfold xAvg
    rw [hrow, nE_eq, Ideal.div_coe (by norm_num), ← EReal.coe_mul]
  have hya : yAvg y = (((∑ k : Fin 16384, Y k) * (1 / 16384) : ℝ) : EReal) := by
    have hs : (∑ k : Fin 16384, y k) = ((∑ k : Fin 16384, Y k : ℝ) : EReal) := by
      rw [coe_sum]
      exact Finset.sum_congr rfl (fun k _ => hY k)
    unfold yAvg
    rw [hs, nE_eq, Ideal.div_coe (by norm_num), ← EReal.coe_mul]
  -- both spellings, over the reals
  have hR : sxyR X y i
      = ((∑ j : Fin 128, (x i j - (∑ j : Fin 128, x i j) * (1 / 16384)) * (Y i - (∑ k : Fin 16384, Y k) * (1 / 16384)) : ℝ) : EReal) := by
    unfold sxyR
    rw [coe_sum]
    refine Finset.sum_congr rfl (fun j _ => ?_)
    rw [hx i j, hxa, hya, hY i, ← EReal.coe_sub, ← EReal.coe_sub, ← EReal.coe_mul]
  have hK : sxyK X y i
      = (((Y i - (∑ k : Fin 16384, Y k) * (1 / 16384)) * ((∑ j : Fin 128, x i j) - 128 * ((∑ j : Fin 128, x i j) * (1 / 16384))) : ℝ) : EReal) := by
    unfold sxyK
    rw [hrow, hxa, hya, hY i, dE_eq, ← EReal.coe_sub, ← EReal.coe_mul, ← EReal.coe_sub, ← EReal.coe_mul]
  rw [hR, hK, real_identity]

/-- Hence the two predictions agree. -/
theorem predR_eq_predK (hX : ∀ i j, ∃ r : ℝ, X i j = (r : EReal)) (hy : ∀ i, ∃ r : ℝ, y i = (r : EReal)) (i : Fin 16384) :
    predR X y i = predK X y i := by
  unfold predR predK
  rw [sxyR_eq_sxyK X y hX hy i]

end Cert.Spec

end
-- ==== Proof.KValuePayload.lean ====
/-
  What one grid point of the dense kernel stores, read at an entry.

  From its block x of 4096 rows, its slab y3 of 4096 targets and the whole square yf of all targets, the body
  computes for row a: the row's sum s, the ratio m = s / n, the targets' ratio ȳ = (Σ yf) / n, the squared deviations
  Σ_c (x[a,c] − m)², the cross term (y3[a] − ȳ) · (s − d · m), their quotient β, and stores β · s + (ȳ − β · m) in every column
  of row a. Each step is read at an index: a lane sum is a sum over the 128 columns, the reshapes and the broadcasts of a
  column keep the row, the total over [1, 128, 128] is the total over the square. The two constants stay the words the
  program prints, n = 0x46800000 and d = 0x43000000.
-/
import proofs.«205095_g39934605918594_cont_8to1_b_428_16_alg».proof.Proof.KTerm
import proofs.«205095_g39934605918594_cont_8to1_b_428_16_alg».proof.Proof.KValueDot
import proofs.«205095_g39934605918594_cont_8to1_b_428_16_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Idealize.ShloMosaic Idealize.ShloMosaic.ValueIdx Cert.KernelIdeal Cert.KernelIdeal.Gen

variable [Cert.KernelIdeal.Facts]

/-- The fitted line on a row's sum, from the row, the row's target t and the targets' ratio ȳ. -/
def lineAt (row : Fin 128 → EReal) (t yb : EReal) : EReal :=
  Ideal.div ((t - yb) * ((∑ c : Fin 128, row c) - Cert.Spec.dE * Ideal.div (∑ c : Fin 128, row c) Cert.Spec.nE))
      (∑ c : Fin 128, (row c - Ideal.div (∑ c : Fin 128, row c) Cert.Spec.nE) * (row c - Ideal.div (∑ c : Fin 128, row c) Cert.Spec.nE))
    * (∑ c : Fin 128, row c)
  + (yb - Ideal.div ((t - yb) * ((∑ c : Fin 128, row c) - Cert.Spec.dE * Ideal.div (∑ c : Fin 128, row c) Cert.Spec.nE))
      (∑ c : Fin 128, (row c - Ideal.div (∑ c : Fin 128, row c) Cert.Spec.nE) * (row c - Ideal.div (∑ c : Fin 128, row c) Cert.Spec.nE))
    * Ideal.div (∑ c : Fin 128, row c) Cert.Spec.nE)

/-- The specification's kernel-side prediction is that line, on sample i's row and target. -/
theorem predK_eq_lineAt (X : Fin 16384 → Fin 128 → EReal) (y : Fin 16384 → EReal) (i : Fin 16384) :
    Cert.Spec.predK X y i = lineAt (X i) (y i) (Cert.Spec.yAvg y) := rfl

/-- A lane sum over the 128 columns, at row a. -/
theorem rowReduce_apply (v : FVec Ideal S4096x128 .f32) (a : Fin 4096) :
    multiReduction (F := Ideal) .add [1] S4096 v 0x00000000#32 reduces_S4096x128_S4096 (.inl rfl) rfl (ix1 a)
      = ∑ c : Fin 128, v (ix2 a c) := by
  refine (Ideal.multiReduction_add_single v 0x00000000#32 reduces_S4096x128_S4096 (.inl rfl) rfl (ix1 a)).trans ?_
  refine Finset.sum_congr rfl fun c _ => congrArg v ?_
  funext b
  apply Fin.ext
  match b with
  | ⟨0, _⟩ => rfl
  | ⟨1, _⟩ => rfl

/-- A vector of 4096 viewed as a column keeps its entries. -/
theorem col_of_vec (v : FVec Ideal S4096 .f32) (a : Fin 4096) :
    shapeCast S4096x1 v shapeCasts_S4096_S4096x1 (ix2 a (0 : Fin 1)) = v (ix1 a) := by
  refine shapeCast_apply _ _ _ _ ?_
  rw [Shape.rowMajor_val_one, Shape.rowMajor_val_two]
  show a.val = a.val * 1 + 0
  omega

/-- A column broadcast along the rows' second axis keeps the row. -/
theorem bcast_col_apply {n : Nat} (v : FVec Ideal S4096x1 .f32) (h : S4096x1.Broadcasts ⟨2, ![4096, n]⟩) (a : Fin 4096) (c : Fin n) :
    broadcastTo ⟨2, ![4096, n]⟩ v h (ix2 a c) = v (ix2 a (0 : Fin 1)) := by
  refine broadcastTo_apply v h _ (ix2 a (0 : Fin 1)) ?_
  intro b
  match b with
  | ⟨0, _⟩ => rfl
  | ⟨1, _⟩ => rfl

/-- The row's sum. -/
theorem pay2_apply (x : FVec Ideal S4096x128 .f32) (a : Fin 4096) :
    k1_pay2 (F := Ideal) x (ix2 a (0 : Fin 1)) = ∑ c : Fin 128, x (ix2 a c) := by
  unfold k1_pay2
  exact (col_of_vec _ a).trans (rowReduce_apply x a)

/-- The row's sum over the number of samples. -/
theorem pay3_apply (x : FVec Ideal S4096x128 .f32) (a : Fin 4096) :
    k1_pay3 (F := Ideal) x (ix2 a (0 : Fin 1)) = Ideal.div (∑ c : Fin 128, x (ix2 a c)) Cert.Spec.nE := by
  unfold k1_pay3
  show Ideal.div (k1_pay2 (F := Ideal) x (ix2 a (0 : Fin 1))) (Ideal.ofBits .f32 0x46800000#32) = _
  rw [pay2_apply]

/-- The targets' total over the number of samples. -/
theorem pay4_eq (yf : FVec Ideal S128x128 .f32) :
    k1_pay4 (F := Ideal) yf = Ideal.div (∑ p : S128x128.Idx, yf p) Cert.Spec.nE := by
  have hsum : multiReduction (F := Ideal) .add [1, 2] S1
      (shapeCast S1x128x128 (shapeCast S128x128 yf shapeCasts_S128x128_S128x128) shapeCasts_S128x128_S1x128x128)
      0x00000000#32 reduces_S1x128x128_S1 (.inl rfl) rfl (ix1 (0 : Fin 1)) = ∑ p : S128x128.Idx, yf p := by
    refine (Ideal.multiReduction_add_total _ 0x00000000#32 reduces_S1x128x128_S1 (fun b => match b with | ⟨0, _⟩ => rfl)
      (.inl rfl) rfl (ix1 (0 : Fin 1))).trans ?_
    rw [shapeCast_self]
    exact Equiv.sum_comp (Shape.reshapeEquiv shapeCasts_S128x128_S1x128x128) yf
  unfold k1_pay4
  show Ideal.div (extractAt ![0, 0, 0] (shapeCast S1x1x1 _ shapeCasts_S1_S1x1x1) inpos_S1x1x1_p0_0_0) (Ideal.ofBits .f32 0x46800000#32) = _
  unfold extractAt
  rw [shapeCast_apply _ shapeCasts_S1_S1x1x1 _ (ix1 (0 : Fin 1)) (by rw [Shape.rowMajor_val_one, Shape.rowMajor_val_three]; rfl), hsum]

/-- The row's squared deviations from its ratio, summed. -/
theorem sx_apply (x : FVec Ideal S4096x128 .f32) (a : Fin 4096) :
    shapeCast S4096x1
      (multiReduction (F := Ideal) .add [1] S4096
        (mulf (subf x (broadcastTo S4096x128 (k1_pay3 (F := Ideal) x) broadcasts_S4096x1_S4096x128))
          (subf x (broadcastTo S4096x128 (k1_pay3 (F := Ideal) x) broadcasts_S4096x1_S4096x128)))
        0x00000000#32 reduces_S4096x128_S4096 (.inl rfl) rfl)
      shapeCasts_S4096_S4096x1 (ix2 a (0 : Fin 1))
      = ∑ c : Fin 128, (x (ix2 a c) - Ideal.div (∑ c : Fin 128, x (ix2 a c)) Cert.Spec.nE)
          * (x (ix2 a c) - Ideal.div (∑ c : Fin 128, x (ix2 a c)) Cert.Spec.nE) := by
  refine (col_of_vec _ a).trans ((rowReduce_apply _ a).trans ?_)
  refine Finset.sum_congr rfl fun c _ => ?_
  rw [mulf_apply, subf_apply, bcast_col_apply, pay3_apply]

/-- The quotient β of the cross term by the squared deviations, at row a. -/
theorem pay5_apply (x : FVec Ideal S4096x128 .f32) (y3 : FVec Ideal S1x1x4096 .f32) (yf : FVec Ideal S128x128 .f32) (a : Fin 4096) :
    k1_pay5 (F := Ideal) x y3 yf (ix2 a (0 : Fin 1))
      = Ideal.div ((y3 (ix3 (0 : Fin 1) (0 : Fin 1) a) - Ideal.div (∑ p : S128x128.Idx, yf p) Cert.Spec.nE)
            * ((∑ c : Fin 128, x (ix2 a c)) - Cert.Spec.dE * Ideal.div (∑ c : Fin 128, x (ix2 a c)) Cert.Spec.nE))
          (∑ c : Fin 128, (x (ix2 a c) - Ideal.div (∑ c : Fin 128, x (ix2 a c)) Cert.Spec.nE)
            * (x (ix2 a c) - Ideal.div (∑ c : Fin 128, x (ix2 a c)) Cert.Spec.nE)) := by
  unfold k1_pay5
  dsimp only
  rw [divf_apply, sx_apply, mulf_apply, subf_apply, subf_apply, mulf_apply, col_apply, rowView_apply, pay2_apply, pay3_apply, pay4_eq]
  rfl

/-- What the body stores at row a, column r: the fitted line on the row's sum. -/
theorem bodyOut_apply (x : FVec Ideal S4096x128 .f32) (y3 : FVec Ideal S1x1x4096 .f32) (yf : FVec Ideal S128x128 .f32)
    (a : Fin 4096) (r : Fin 512) :
    KTerm.bodyOut (F := Ideal) x y3 yf (ix2 a r)
      = lineAt (fun c => x (ix2 a c)) (y3 (ix3 (0 : Fin 1) (0 : Fin 1) a)) (Ideal.div (∑ p : S128x128.Idx, yf p) Cert.Spec.nE) := by
  unfold KTerm.bodyOut k1_pay1 k1_pay6 k1_pay7
  dsimp only
  rw [bcast_col_apply, shapeCast_self, addf_apply, subf_apply, mulf_apply, mulf_apply, pay5_apply, pay2_apply, pay3_apply, pay4_eq]
  rfl

end Cert.KernelIdeal.KValue

end
-- ==== Proof.KValue.lean ====
/-
  The kernel's result at an entry is the specification's prediction.

  Entry (i, r) of the result is what the grid point holding row i stores at row i mod 4096 of its block. That point
  read rows 4096 (i / 4096) … of the features, so its row i mod 4096 is row i; slab i / 4096 of the targets at place
  i mod 4096 is target i; and the whole square's total is the targets' total. The targets are the gathered ones, which
  for in-range labels are the shared selection of row 0 of the weights at the label.
-/
import proofs.«205095_g39934605918594_cont_8to1_b_428_16_alg».proof.Proof.KTerm
import proofs.«205095_g39934605918594_cont_8to1_b_428_16_alg».proof.Proof.KValueGather
import proofs.«205095_g39934605918594_cont_8to1_b_428_16_alg».proof.Proof.KValuePayload
import proofs.«205095_g39934605918594_cont_8to1_b_428_16_alg».proof.Proof.Spec
import proofs.«205095_g39934605918594_cont_8to1_b_428_16_alg».proof.Proof.Ysel
import Idealize.ShloMosaic.Lib.ValueIdx

noncomputable section

namespace Cert.KernelIdeal.KValue

open Idealize.ShloMosaic Idealize.ShloMosaic.ValueIdx Cert.KernelIdeal

variable [Cert.KernelIdeal.Facts]

/-- A row is row (i mod 4096) of block (i / 4096). -/
theorem blkRow_rowBlk_rowIn (i : Fin 16384) : KTerm.blkRow (KTerm.rowBlk i) (KTerm.rowIn i) = i := by
  apply Fin.ext
  show 4096 * (i.val / 4096) + i.val % 4096 = i.val
  exact Nat.div_add_mod i.val 4096

/-- The dense kernel's result at (i, r), from the features and any 16384 targets: the fitted line on row i, target i and
    the targets' ratio. -/
theorem dense_apply (X : FVec Ideal S16384x128 .f32) (y : FVec Ideal S16384 .f32) (i : Fin 16384) (r : Fin 512) :
    KTerm.dense (F := Ideal) X (KTerm.y3Of y) (KTerm.yfOf y) (ix2 i r)
      = lineAt (fun c => X (ix2 i c)) (y (ix1 i)) (Ideal.div (∑ k : Fin 16384, y (ix1 k)) Cert.Spec.nE) := by
  unfold KTerm.dense
  show KTerm.bodyOut (F := Ideal) (KTerm.xBlk X (KTerm.rowBlk i)) (KTerm.y3Blk (KTerm.y3Of y) (KTerm.rowBlk i)) (KTerm.yfOf y)
    (ix2 (KTerm.rowIn i) r) = _
  rw [bodyOut_apply, sum_yfOf]
  have hx : (fun c : Fin 128 => KTerm.xBlk X (KTerm.rowBlk i) (ix2 (KTerm.rowIn i) c)) = fun c => X (ix2 i c) := by
    funext c
    show X (ix2 (KTerm.blkRow (KTerm.rowBlk i) (KTerm.rowIn i)) c) = _
    rw [blkRow_rowBlk_rowIn]
  have hy : KTerm.y3Blk (KTerm.y3Of y) (KTerm.rowBlk i) (ix3 (0 : Fin 1) (0 : Fin 1) (KTerm.rowIn i)) = y (ix1 i) := by
    show KTerm.y3Of y (ix3 (KTerm.rowBlk i) (0 : Fin 1) (KTerm.rowIn i)) = _
    exact y3Of_apply y _ _ i (by
      show i.val = 4096 * (i.val / 4096) + i.val % 4096
      exact (Nat.div_add_mod i.val 4096).symm)
  rw [hx, hy]

/-- The kernel's result at an entry is the specification's kernel-side prediction for the sample, on the features' rows
    and the targets both programs select. -/
theorem out_apply (X : FVec Ideal S16384x128 .f32) (lab : IVec S16384 32) (W : FVec Ideal S512x100000x1 .f32)
    (hlab : ∀ j : S16384.Idx, (lab j).toNat ≤ 99999) (i : Fin 16384) (r : Fin 512) :
    KTerm.out (F := Ideal) X lab W (ix2 i r)
      = Cert.Spec.predK (fun i j => X (ix2 i j)) (Cert.ReferenceIdeal.RefValue.ysel W lab) i := by
  unfold KTerm.out
  rw [dense_apply, predK_eq_lineAt, gathered_apply W lab hlab i]
  have hs : (∑ k : Fin 16384, KTerm.gathered (KTerm.tbl (F := Ideal) W) lab (ix1 k))
      = ∑ k : Fin 16384, Cert.ReferenceIdeal.RefValue.ysel W lab k :=
    Finset.sum_congr rfl fun k _ => gathered_apply W lab hlab k
  rw [hs]
  rfl

end Cert.KernelIdeal.KValue

end
-- ==== Proof.LibHostScatter.lean ====
/-
  A general fact about the host scatter (a left fold over the update indices in row-major order): when every update
  index lands inside the operand and no two land on the same element, each element hit once is the body applied to the
  operand's element and that update, and every other element is the operand's.
-/
import Idealize.ShloMosaic.PureOps

noncomputable section

namespace Cert.Lib

open Idealize.ShloMosaic

variable {α : Type} {s si u : Shape} {w : Nat}

/-- Under a total landing map `g`, the host scatter is the left fold, over the update positions in row-major order,
    of the step that replaces the element `g j` by the body applied to it and the update `j`. -/
theorem scatter_eq_foldl (d : ScatterDims s si u) (f : α → α → α) (x : s.Idx → α) (idx : IVec si w) (upd : u.Idx → α)
    (g : u.Idx → s.Idx) (hg : ∀ j, d.resultIdx? j idx = some (g j)) :
    Host.scatter d f x idx upd =
      (List.finRange u.numel).foldl (fun r n => fun i' =>
        if i' = g (u.rowMajor.symm n) then f (r (g (u.rowMajor.symm n))) (upd (u.rowMajor.symm n)) else r i') x := by
  unfold Host.scatter
  congr 1
  funext r n
  rw [hg]

/-- A left fold of replacement steps over any list of update positions leaves alone an element that none of the
    listed updates lands on. -/
theorem foldl_step_miss (f : α → α → α) (upd : u.Idx → α) (g : u.Idx → s.Idx) (i : s.Idx) :
    ∀ (l : List (Fin u.numel)) (r : s.Idx → α), (∀ n ∈ l, g (u.rowMajor.symm n) ≠ i) →
      l.foldl (fun r n => fun i' =>
        if i' = g (u.rowMajor.symm n) then f (r (g (u.rowMajor.symm n))) (upd (u.rowMajor.symm n)) else r i') r i = r i := by
  intro l
  induction l with
  | nil => intro r _; rfl
  | cons m t ih =>
    intro r h
    rw [List.foldl_cons, ih _ (fun n hn => h n (List.mem_cons_of_mem _ hn))]
    have hm : i ≠ g (u.rowMajor.symm m) := fun e => h m (List.mem_cons_self ..) e.symm
    simp only [if_neg hm]

/-- A left fold of replacement steps over a list of pairwise distinct update positions, the landing map injective:
    the element a listed update lands on is the body applied once, to the starting element and that update. -/
theorem foldl_step_hit (f : α → α → α) (upd : u.Idx → α) (g : u.Idx → s.Idx) (hinj : Function.Injective g) :
    ∀ (l : List (Fin u.numel)) (r : s.Idx → α) (n : Fin u.numel), n ∈ l → l.Nodup →
      l.foldl (fun r n => fun i' =>
        if i' = g (u.rowMajor.symm n) then f (r (g (u.rowMajor.symm n))) (upd (u.rowMajor.symm n)) else r i') r
          (g (u.rowMajor.symm n)) = f (r (g (u.rowMajor.symm n))) (upd (u.rowMajor.symm n)) := by
  intro l
  induction l with
  | nil => intro r n hn; cases hn
  | cons m t ih =>
    intro r n hn hnd
    rw [List.nodup_cons] at hnd
    rw [List.foldl_cons]
    rcases List.mem_cons.mp hn with rfl | hnt
    · rw [foldl_step_miss f upd g _ t _ (fun n' hn' e => hnd.1 (by
        have := u.rowMajor.symm.injective (hinj e)
        exact this ▸ hn'))]
      simp only [if_true]
    · rw [ih _ n hnt hnd.2]
      have hne : g (u.rowMajor.symm n) ≠ g (u.rowMajor.symm m) := fun e => hnd.1 (by
        have := u.rowMajor.symm.injective (hinj e)
        exact this ▸ hnt)
      simp only [if_neg hne]

/-- An element that some update lands on (the landing map `g` is total and injective): the body applied once. -/
theorem scatter_apply_hit (d : ScatterDims s si u) (f : α → α → α) (x : s.Idx → α) (idx : IVec si w) (upd : u.Idx → α)
    (g : u.Idx → s.Idx) (hg : ∀ j, d.resultIdx? j idx = some (g j)) (hinj : Function.Injective g) (j : u.Idx) :
    Host.scatter d f x idx upd (g j) = f (x (g j)) (upd j) := by
  rw [scatter_eq_foldl d f x idx upd g hg]
  have h := foldl_step_hit (s := s) f upd g hinj (List.finRange u.numel) x (u.rowMajor j) (List.mem_finRange _)
    (List.nodup_finRange _)
  simpa only [Equiv.symm_apply_apply] using h

/-- An element no update lands on keeps the operand's value. -/
theorem scatter_apply_miss (d : ScatterDims s si u) (f : α → α → α) (x : s.Idx → α) (idx : IVec si w) (upd : u.Idx → α)
    (g : u.Idx → s.Idx) (hg : ∀ j, d.resultIdx? j idx = some (g j)) (i : s.Idx) (hi : ∀ j, g j ≠ i) :
    Host.scatter d f x idx upd i = x i := by
  rw [scatter_eq_foldl d f x idx upd g hg]
  exact foldl_step_miss f upd g i (List.finRange u.numel) x (fun n _ => hi _)

end Cert.Lib

end
-- ==== Proof.RefValue.lean ====
/-
  The reference's result read at an index, at the ideal values (a float an extended real, every operation exact).

  The reference's operations fall into three stretches, each read here as one function and at one index:

    * the TAKE: the table, seen as a 512 × 100000 matrix, gathered at the labels (a label below zero first moved up by
      100000, the gathered value replaced by a NaN where the moved label leaves `[0, 99999]`), and row 0 of the result
      kept. For labels in range, read as unsigned words, nothing is moved and nothing is replaced (99999 < 2³¹, so the
      signed comparisons agree with the unsigned ones), and entry `i` is the table's row 0 at label `i`: `ysel`.
    * the FIT: from the rows `X i` and the targets `y i`, the row sums, the two averages (both over the number of
      samples), the sums of squared deviations and of products of deviations, their quotient, and the line's value on
      the row sum. Each reduction is the initial zero plus a finite sum over one axis, each broadcast reads one entry,
      so entry `i` is the specification's `predR` verbatim.
    * the SCATTER: the prediction, as one row copied 512 times, written over a zero 512 × 16384 matrix at the row
      indices 0 … 511, the written value replacing the old one; then the transpose. Update row `r` lands on row `r`
      (the landing map is the identity, so every element is hit exactly once), hence entry `(i, r)` of the result is
      the prediction at `i`.
-/
import Idealize.ShloMosaic.Lib.ValueIdx
import Idealize.ShloMosaic.Lib.ValueIdxRank1
import Idealize.ShloMosaic.Lib.IdealHost
import Idealize.ShloMosaic.Lib.ValueLayout
import Idealize.ShloMosaic.Lib.Pipeline.Value
import Idealize.ShloMosaic.Lib.StableHlo.Predicate
import Idealize.ShloMosaic.PureOps.Ideal.Laws
import proofs.«205095_g39934605918594_cont_8to1_b_428_16_alg».proof.ReferenceIdeal
import proofs.«205095_g39934605918594_cont_8to1_b_428_16_alg».proof.Proof.Spec
import proofs.«205095_g39934605918594_cont_8to1_b_428_16_alg».proof.Proof.LibHostScatter
import proofs.«205095_g39934605918594_cont_8to1_b_428_16_alg».proof.Proof.Ysel
import proofs.«205095_g39934605918594_cont_8to1_b_428_16_alg».proof.Proof.RefTerm

noncomputable section

namespace Cert.ReferenceIdeal.RefValue

open Idealize.ShloMosaic Idealize.ShloMosaic.ValueIdx
open Cert.ReferenceIdeal
open scoped BigOperators

/-! ## Broadcasts, casts and the slice, read at an index

Each reads ONE entry of its operand. The broadcast's axis map is written with its literal types (`Fin 1 → Fin 2` …). -/

section Layout
variable {α : Type}

/-- A scalar copied along a vector of 16384 entries. -/
theorem bcast_scalar_vec (h : S_.BroadcastsInDim S16384 (![] : Fin 0 → Fin 1)) (x : S_.Idx → α) (i : Fin 16384) :
    broadcastInDim S16384 (![] : Fin 0 → Fin 1) h x (ix1 i) = x ix0 := broadcastInDim_scalar_apply h x _

/-- A vector stood up as a column: entry `(i, 0)` is entry `i`. -/
theorem bcast_vec_col (h : S16384.BroadcastsInDim S16384x1 (![0] : Fin 1 → Fin 2)) (x : S16384.Idx → α) (i : Fin 16384) (z : Fin 1) :
    broadcastInDim S16384x1 (![0] : Fin 1 → Fin 2) h x (ix2 i z) = x (ix1 i) :=
  broadcastInDim_apply _ h x _ _ (fun a => by match a with | ⟨0, _⟩ => rfl)

/-- A column copied along the 128 entries of each row: entry `(i, j)` is the column's entry `(i, 0)`. -/
theorem bcast_col_mat (h : S16384x1.BroadcastsInDim S16384x128 (![0, 1] : Fin 2 → Fin 2)) (x : S16384x1.Idx → α) (i : Fin 16384) (j : Fin 128) :
    broadcastInDim S16384x128 (![0, 1] : Fin 2 → Fin 2) h x (ix2 i j) = x (ix2 i (0 : Fin 1)) :=
  broadcastInDim_apply _ h x _ _ (fun a => by match a with | ⟨0, _⟩ => rfl | ⟨1, _⟩ => rfl)

/-- A vector of 16384 entries laid along the columns of a 512 × 16384 matrix: entry `(r, i)` is entry `i`. -/
theorem bcast_vec_cols (h : S16384.BroadcastsInDim S512x16384 (![1] : Fin 1 → Fin 2)) (x : S16384.Idx → α) (r : Fin 512) (i : Fin 16384) :
    broadcastInDim S512x16384 (![1] : Fin 1 → Fin 2) h x (ix2 r i) = x (ix1 i) :=
  broadcastInDim_apply _ h x _ _ (fun a => by match a with | ⟨0, _⟩ => rfl)

/-- A scalar copied along a vector of 512 entries. -/
theorem bcast_scalar_v512 (h : S_.BroadcastsInDim S512 (![] : Fin 0 → Fin 1)) (x : S_.Idx → α) (r : Fin 512) :
    broadcastInDim S512 (![] : Fin 0 → Fin 1) h x (ix1 r) = x ix0 := broadcastInDim_scalar_apply h x _

/-- A vector of 512 entries stood up as a column. -/
theorem bcast_v512_col (h : S512.BroadcastsInDim S512x1 (![0] : Fin 1 → Fin 2)) (x : S512.Idx → α) (r : Fin 512) (z : Fin 1) :
    broadcastInDim S512x1 (![0] : Fin 1 → Fin 2) h x (ix2 r z) = x (ix1 r) :=
  broadcastInDim_apply _ h x _ _ (fun a => by match a with | ⟨0, _⟩ => rfl)

/-- A vector laid down as one row: entry `(0, i)` is entry `i`. -/
theorem bcast_vec_row (h : S16384.BroadcastsInDim S1x16384 (![1] : Fin 1 → Fin 2)) (x : S16384.Idx → α) (z : Fin 1) (i : Fin 16384) :
    broadcastInDim S1x16384 (![1] : Fin 1 → Fin 2) h x (ix2 z i) = x (ix1 i) :=
  broadcastInDim_apply _ h x _ _ (fun a => by match a with | ⟨0, _⟩ => rfl)

/-- One row copied down 512 rows: entry `(r, i)` is the row's entry `(0, i)`. -/
theorem bcast_row_mat (h : S1x16384.BroadcastsInDim S512x16384 (![0, 1] : Fin 2 → Fin 2)) (x : S1x16384.Idx → α) (r : Fin 512) (i : Fin 16384) :
    broadcastInDim S512x16384 (![0, 1] : Fin 2 → Fin 2) h x (ix2 r i) = x (ix2 (0 : Fin 1) i) :=
  broadcastInDim_apply _ h x _ _ (fun a => by match a with | ⟨0, _⟩ => rfl | ⟨1, _⟩ => rfl)

/-- The table with its trailing unit axis dropped: entry `(a, b)` is the table's entry `(a, b, 0)`
    (the two have the same row-major position, `a · 100000 + b`). -/
theorem cast_table (h : S512x100000x1.ShapeCasts S512x100000) (W : S512x100000x1.Idx → α) (a : Fin 512) (b : Fin 100000) :
    shapeCast S512x100000 W h (ix2 a b) = W (ix3 a b (0 : Fin 1)) :=
  shapeCast_apply W h _ _ (by
    rw [Shape.rowMajor_val_three, Shape.rowMajor_val_two]
    show (a.val * 100000 + b.val) * 1 + 0 = a.val * 100000 + b.val
    omega)

/-- Row 0 cut out of a 512 × 16384 matrix. -/
theorem slice_row0 (h : S512x16384.Slices ![0, 0] S1x16384) (x : S512x16384.Idx → α) (z : Fin 1) (i : Fin 16384) :
    extractStridedSlice S1x16384 ![0, 0] x h (ix2 z i) = x (ix2 (0 : Fin 512) i) :=
  slice2_axis0_apply 0 x h z i (0 : Fin 512) (by have := z.isLt; show 0 = 0 + z.val; omega)

end Layout

/-! ## The sums -/

/-- A row's sum: the reduction over axis 1 from the zero word is `0 + Σ_j x (i, j)`. -/
theorem rowSum_apply (h' : S16384x128.ReducesTo [1] S16384) (hu : 0 < S_.numel) (x : FVec Ideal S16384x128 .f32) (i : Fin 16384) :
    Host.reduceAdd (F := Ideal) x (constant (F := Ideal) S_ .f32 0x00000000#32) h' hu (ix1 i) = ∑ j : Fin 128, x (ix2 i j) := by
  have h : S16384x128.Reduces [1] S16384 := by decide
  rw [hostReduceAdd_apply, Ideal.hostReduceAdd_single h' h, constant_apply, Ideal.ofBits_zero_f32, zero_add]
  exact Finset.sum_congr rfl fun k _ => congrArg x (funext fun a => Fin.ext (by
    match a with
    | ⟨0, _⟩ => rfl
    | ⟨1, _⟩ => rfl))

/-- The sum of a whole vector: the reduction to a scalar from the zero word is `0 + Σ_i y i`, the sum over the index
    set carried to the sum over the coordinate. -/
theorem total_apply (h' : S16384.ReducesTo [0] S_) (hu : 0 < S_.numel) (y : FVec Ideal S16384 .f32) :
    Host.reduceAdd (F := Ideal) y (constant (F := Ideal) S_ .f32 0x00000000#32) h' hu ix0 = ∑ i : Fin 16384, y (ix1 i) := by
  rw [hostReduceAdd_apply, Ideal.hostReduceAdd_total h' (fun b => b.elim0), constant_apply, Ideal.ofBits_zero_f32, zero_add]
  exact (Equiv.sum_comp (idxEquiv1 (n := 16384)).symm y).symm

/-! ## Words -/

/-- A word below 2³¹ is not below zero as a signed word. -/
theorem cmpi_slt_zero_of_small (a : BitVec 32) (ha : a.toNat < 2 ^ 31) : IntOp.cmpi .slt a 0#32 = 0#1 :=
  eq_zero_of_ne_one fun h => by
    have := (StableHlo.Predicate.slt_iff_toNat ha (by decide)).mp h
    simp at this

/-- An `and`-reduction from `true` of an array that is `true` everywhere is `true`, whatever is reduced to what:
    every step of the fold is `true ∧ true`. -/
theorem reduce_andi_ones {s t u : Shape} {axes : List (Fin s.rank)} (x : s.Idx → BitVec 1) (init : u.Idx → BitVec 1)
    (h : s.ReducesTo axes t) (hu : 0 < u.numel) (hx : ∀ k, x k = 1#1) (hi : ∀ k, init k = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons n l ih =>
    rw [List.foldl_cons, hx]
    exact ih

/-! ## The gather read at an index

The operand's axis 0 is an offset axis (the whole column of 512 is taken) and its axis 1 is collapsed and indexed:
result entry `(r, i)` is the operand at row `r` and at the column the start index `i` names, read signed and clamped
into `[0, 99999]`. -/

section Gather
variable {α : Type} [Facts]

theorem gather_apply (x : S512x100000.Idx → α) (idx : IVec S16384x1 32) (r : Fin 512) (i : Fin 16384) :
    Host.gather gather_S512x100000_S16384x1_S512x16384_0_1_n_n_1_1_5121 x idx (ix2 r i)
      = x (ix2 r ⟨min (idx (ix2 i (0 : Fin 1))).toInt.toNat 99999, by omega⟩) := by
  have hsim : (gather_S512x100000_S16384x1_S512x16384_0_1_n_n_1_1_5121).startIndexMap = [1] := rfl
  have hk : (gather_S512x100000_S16384x1_S512x16384_0_1_n_n_1_1_5121).sKept = [0] := rfl
  unfold Host.gather
  congr 1
  funext a
  refine Fin.ext ?_
  match a with
  | ⟨0, _⟩ =>
    -- axis 0: not indexed, not batched; the offset coordinate is the result's row
    show GatherDims.start _ (ix2 r i) idx 0 + GatherDims.batchCoord _ (ix2 r i) 0 + GatherDims.offCoord _ (ix2 r i) 0 = r.val
    rw [GatherDims.batchCoord_eq_zero _ _ _ List.not_mem_nil]
    unfold GatherDims.start
    rw [dif_neg (by rw [hsim]; decide)]
    unfold GatherDims.offCoord
    rw [dif_pos (by rw [hk]; decide)]
    simp only [Nat.zero_add]
    rfl
  | ⟨1, _⟩ =>
    -- axis 1: the clamped start index, read at the start indices' entry (i, 0); no batch, no offset
    show GatherDims.start _ (ix2 r i) idx 1 + GatherDims.batchCoord _ (ix2 r i) 1 + GatherDims.offCoord _ (ix2 r i) 1 = _
    rw [GatherDims.batchCoord_eq_zero _ _ _ List.not_mem_nil,
      GatherDims.offCoord_eq_zero _ _ _ (by rw [hk]; decide)]
    unfold GatherDims.start
    rw [dif_pos (by rw [hsim]; decide)]
    have hsi : (gather_S512x100000_S16384x1_S512x16384_0_1_n_n_1_1_5121).siIdx (ix2 r i)
        ⟨List.idxOf (1 : Fin 2) (gather_S512x100000_S16384x1_S512x16384_0_1_n_n_1_1_5121).startIndexMap,
          List.idxOf_lt_length_iff.2 (by rw [hsim]; decide)⟩ = ix2 i (0 : Fin 1) := by
      funext b; refine Fin.ext ?_
      match b with
      | ⟨0, _⟩ => rfl
      | ⟨1, _⟩ => rfl
    rw [hsi]
    rfl

end Gather

/-! ## The take: row 0 of the table at the labels -/

section Take
variable [Facts]
open Facts₀

/-- The take's start indices: the labels, moved up by 100000 where negative (nowhere, for labels in range), as a column. -/
def idxCol (lab : IVec S16384 32) : IVec S16384x1 32 :=
  let main_call0_c := constantI S_ 32 0#32
  let main_call0_v0 := broadcastInDim S16384 ![] bcast_S_S16384 main_call0_c
  let main_call0_v1 := cmpi .slt lab main_call0_v0
  let main_call0_c_0 := constantI S_ 32 100000#32
  let main_call0_v2 := broadcastInDim S16384 ![] bcast_S_S16384 main_call0_c_0
  let main_call0_v3 := addi lab main_call0_v2
  let main_call0_v4 := select main_call0_v1 main_call0_v3 lab
  let main_call0_v5 := broadcastInDim S16384x1 ![0] bcast_S16384_S16384x1_0 main_call0_v4
  main_call0_v5

/-- A label at most 99999 is below 2³¹, so it is not negative as a signed word and is left where it is. -/
theorem idxCol_apply (lab : IVec S16384 32) (hlab : ∀ j : S16384.Idx, (lab j).toNat ≤ 99999) (i : Fin 16384) (z : Fin 1) :
    idxCol lab (ix2 i z) = lab (ix1 i) := by
  unfold idxCol
  simp only [bcast_vec_col, select_apply]
  have h0 : cmpi .slt lab (broadcastInDim S16384 ![] bcast_S_S16384 (constantI S_ 32 0#32)) (ix1 i) = 0#1 :=
    cmpi_slt_zero_of_small (lab (ix1 i)) (by have := hlab (ix1 i); omega)
  rw [h0, select_zero]

/-- The take's mask: the start index inside `[0, 99999]`, reduced by `and` over the index vector's one entry. -/
def inRange (lab : IVec S16384 32) : IVec S16384 1 :=
  let main_call0_v5 := idxCol lab
  let main_call0_c_1 := constantI S1 32 99999#32
  let main_call0_c_2 := constantI S_ 32 0#32
  let main_call0_v6 := broadcastInDim S16384x1 ![] bcast_S_S16384x1 main_call0_c_2
  let main_call0_v7 := cmpi .sge main_call0_v5 main_call0_v6
  let main_call0_v8 := broadcastInDim S1x1 ![1] bcast_S1_S1x1_1 main_call0_c_1
  let main_call0_v9 := broadcastInDim S16384x1 ![0, 1] bcast_S1x1_S16384x1_0_1 main_call0_v8
  let main_call0_v10 := cmpi .sle main_call0_v5 main_call0_v9
  let main_call0_v11 := andi main_call0_v7 main_call0_v10
  let main_call0_c_3 := constantI S_ 1 1#1
  let main_call0_v12 := Host.reduce IntOp.andi main_call0_v11 main_call0_c_3 reducesTo_S16384x1_S16384_d1 h_S_
  main_call0_v12

/-- For labels in range the mask is `true` everywhere: both bounds are broadcast constants, and on words below 2³¹ the
    signed comparisons are the comparisons of the values. -/
theorem inRange_apply (lab : IVec S16384 32) (hlab : ∀ j : S16384.Idx, (lab j).toNat ≤ 99999) (i : Fin 16384) :
    inRange lab (ix1 i) = 1#1 := by
  unfold inRange
  refine reduce_andi_ones _ _ _ _ (fun k => ?_) (fun _ => rfl) _
  obtain ⟨a, z, rfl⟩ : ∃ (a : Fin 16384) (z : Fin 1), k = ix2 a z := ⟨k 0, k 1, eq_ix2 k⟩
  show IntOp.andi (IntOp.cmpi .sge (idxCol lab (ix2 a z)) 0#32) (IntOp.cmpi .sle (idxCol lab (ix2 a z)) 99999#32) = 1#1
  have hl := hlab (ix1 a)
  rw [idxCol_apply lab hlab a z,
    (StableHlo.Predicate.sge_iff_toNat (a := lab (ix1 a)) (b := 0#32) (by omega) (by decide)).mpr (by simp),
    (StableHlo.Predicate.sle_iff_toNat (a := lab (ix1 a)) (b := 99999#32) (by omega) (by decide)).mpr (by simpa using hl)]
  decide

/-- The operations up to the targets: the table as a matrix, gathered at the labels, masked, row 0 kept. -/
def ychain (W : FVec Ideal S512x100000x1 .f32) (lab : IVec S16384 32) : FVec Ideal S16384 .f32 :=
  let main_v0 := shapeCast S512x100000 W shapeCasts_S512x100000x1_S512x100000
  let main_call0_v5 := idxCol lab
  let main_call0_v12 := inRange lab
  let main_call0_v13 := Host.gather gather_S512x100000_S16384x1_S512x16384_0_1_n_n_1_1_5121 main_v0 main_call0_v5
  let main_call0_v14 := broadcastInDim S512x16384 ![1] bcast_S16384_S512x16384_1 main_call0_v12
  let main_call0_cst := constant (F := Ideal) S_ .f32 0x7FC00000#32
  let main_call0_v15 := broadcastInDim S512x16384 ![] bcast_S_S512x16384 main_call0_cst
  let main_v1 := select main_call0_v14 main_call0_v13 main_call0_v15
  let main_v2 := extractStridedSlice S1x16384 ![0, 0] main_v1 slices_S512x16384_S1x16384_0_0
  let main_v3 := shapeCast S16384 main_v2 shapeCasts_S1x16384_S16384
  main_v3

/-- Entry `i` of the targets is the table's row 0 at label `i`: the mask is `true`, the select takes the gathered value,
    and the clamp of a label in range is the label. -/
theorem ychain_apply (W : FVec Ideal S512x100000x1 .f32) (lab : IVec S16384 32)
    (hlab : ∀ j : S16384.Idx, (lab j).toNat ≤ 99999) (i : Fin 16384) : ychain W lab (ix1 i) = ysel W lab i := by
  have hl := hlab (ix1 i)
  unfold ychain
  dsimp only
  rw [shapeCast_1a_a_apply, slice_row0, select_apply, bcast_vec_cols, inRange_apply lab hlab i, select_one, gather_apply,
    cast_table]
  unfold ysel
  rw [dif_pos (by omega)]
  congr 1
  funext b
  match b with
  | ⟨0, _⟩ => rfl
  | ⟨1, _⟩ =>
    refine Fin.ext ?_
    show min (idxCol lab (ix2 i (0 : Fin 1))).toInt.toNat 99999 = (lab (ix1 i)).toNat
    rw [idxCol_apply lab hlab i 0, StableHlo.Predicate.toInt_eq_toNat_of_lt (by omega), Int.toNat_natCast]
    omega
  | ⟨2, _⟩ => rfl

end Take

/-! ## The fit -/

section Fit
variable [Facts]
open Facts₀

/-- The operations from the row sums to the prediction, as one function of the rows and the targets. -/
def predChain (X : FVec Ideal S16384x128 .f32) (y : FVec Ideal S16384 .f32) : FVec Ideal S16384 .f32 :=
  let main_cst := constant (F := Ideal) S_ .f32 0x00000000#32
  let main_v4 := Host.reduceAdd X main_cst reducesTo_S16384x128_S16384_d1 h_S_
  let main_cst_0 := constant (F := Ideal) S_ .f32 0x46800000#32
  let main_v5 := broadcastInDim S16384 ![] bcast_S_S16384 main_cst_0
  let main_v6 := Host.divf main_v4 main_v5
  let main_cst_1 := constant (F := Ideal) S_ .f32 0x00000000#32
  let main_v7 := Host.reduceAdd y main_cst_1 reducesTo_S16384_S_d0 h_S_
  let main_cst_2 := constant (F := Ideal) S_ .f32 0x46800000#32
  let main_v8 := Host.divf main_v7 main_cst_2
  let main_v9 := broadcastInDim S16384 ![] bcast_S_S16384 main_v8
  let main_v10 := broadcastInDim S16384x1 ![0] bcast_S16384_S16384x1_0 main_v6
  let main_v11 := broadcastInDim S16384x128 ![0, 1] bcast_S16384x1_S16384x128_0_1 main_v10
  let main_v12 := subf X main_v11
  let main_v13 := mulf main_v12 main_v12
  let main_cst_3 := constant (F := Ideal) S_ .f32 0x00000000#32
  let main_v14 := Host.reduceAdd main_v13 main_cst_3 reducesTo_S16384x128_S16384_d1 h_S_
  let main_v15 := broadcastInDim S16384x1 ![0] bcast_S16384_S16384x1_0 main_v6
  let main_v16 := broadcastInDim S16384x128 ![0, 1] bcast_S16384x1_S16384x128_0_1 main_v15
  let main_v17 := subf X main_v16
  let main_v18 := broadcastInDim S16384x1 ![0] bcast_S16384_S16384x1_0 y
  let main_v19 := broadcastInDim S16384x1 ![0] bcast_S16384_S16384x1_0 main_v9
  let main_v20 := subf main_v18 main_v19
  let main_v21 := broadcastInDim S16384x128 ![0, 1] bcast_S16384x1_S16384x128_0_1 main_v20
  let main_v22 := mulf main_v17 main_v21
  let main_cst_4 := constant (F := Ideal) S_ .f32 0x00000000#32
  let main_v23 := Host.reduceAdd main_v22 main_cst_4 reducesTo_S16384x128_S16384_d1 h_S_
  let main_v24 := Host.divf main_v23 main_v14
  let main_v25 := mulf main_v24 main_v6
  let main_v26 := subf main_v9 main_v25
  let main_cst_5 := constant (F := Ideal) S_ .f32 0x00000000#32
  let main_v27 := Host.reduceAdd X main_cst_5 reducesTo_S16384x128_S16384_d1 h_S_
  let main_v28 := mulf main_v24 main_v27
  let main_v29 := addf main_v28 main_v26
  main_v29

/-- Entry `i` of the prediction is the specification's `predR` at `i`: every operation read at its index is the
    specification's own expression (the divisor the same word, the sums over the same coordinates). -/
theorem predChain_apply (X : FVec Ideal S16384x128 .f32) (y : FVec Ideal S16384 .f32) (i : Fin 16384) :
    predChain X y (ix1 i) = Cert.Spec.predR (fun i j => X (ix2 i j)) (fun i => y (ix1 i)) i := by
  unfold predChain
  simp only [addf_apply, mulf_apply, subf_apply, hostDivf_apply, rowSum_apply, total_apply, bcast_scalar_vec,
    bcast_vec_col, bcast_col_mat, constant_apply]
  simp only [Cert.Spec.predR, Cert.Spec.predOf, Cert.Spec.sxyR, Cert.Spec.sx, Cert.Spec.xAvg, Cert.Spec.yAvg,
    Cert.Spec.rowSum]

end Fit

/-! ## The scatter and the transpose -/

section Scatter
variable [Facts]
open Facts₀

/-- The scatter's row indices: the iota over the 512 rows, moved up by 512 where negative (nowhere), as a column. -/
def rowIdx : IVec S512x1 32 :=
  let main_v31 := iotaInDim S512 32 0
  let main_c := constantI S_ 32 0#32
  let main_v33 := broadcastInDim S512 ![] bcast_S_S512 main_c
  let main_v34 := cmpi .slt main_v31 main_v33
  let main_c_7 := constantI S_ 32 512#32
  let main_v35 := broadcastInDim S512 ![] bcast_S_S512 main_c_7
  let main_v36 := addi main_v31 main_v35
  let main_v37 := select main_v34 main_v36 main_v31
  let main_v38 := broadcastInDim S512x1 ![0] bcast_S512_S512x1_0 main_v37
  main_v38

/-- Row `r` of the indices is the word of `r`: a row number below 512 is not negative as a signed word. -/
theorem rowIdx_apply (r : Fin 512) (z : Fin 1) : rowIdx (ix2 r z) = BitVec.ofNat 32 r.val := by
  unfold rowIdx
  simp only [bcast_v512_col, select_apply]
  have h0 : cmpi .slt (iotaInDim S512 32 0) (broadcastInDim S512 ![] bcast_S_S512 (constantI S_ 32 0#32)) (ix1 r) = 0#1 := by
    show IntOp.cmpi .slt (BitVec.ofNat 32 r.val) (broadcastInDim S512 ![] bcast_S_S512 (constantI S_ 32 0#32) (ix1 r)) = 0#1
    rw [bcast_scalar_v512]
    exact cmpi_slt_zero_of_small _ (by
      have := r.isLt
      rw [BitVec.toNat_ofNat, Nat.mod_eq_of_lt (by omega)]; omega)
  rw [h0, select_zero]
  rfl

/-- Every update lands on the element with its own coordinates: on axis 0 the start is the row index read signed (the
    row's number) and the window coordinate is zero; on axis 1 the start is zero and the window coordinate is the
    update's column. Both are inside the operand. -/
theorem scatter_lands (idx : IVec S512x1 32) (hidx : ∀ (r : Fin 512) (z : Fin 1), idx (ix2 r z) = BitVec.ofNat 32 r.val)
    (j : S512x16384.Idx) :
    (scatter_S512x16384_S512x1_S512x16384_1_0_0_1).resultIdx? j idx = some j := by
  obtain ⟨r, i, rfl⟩ : ∃ (r : Fin 512) (i : Fin 16384), j = ix2 r i := ⟨j 0, j 1, eq_ix2 j⟩
  generalize hj : (ix2 r i : S512x16384.Idx) = j
  have hj0 : j 0 = r := by rw [← hj]
  have hsd : (scatter_S512x16384_S512x1_S512x16384_1_0_0_1).scatterDimsToOperandDims = [0] := rfl
  have hk : (scatter_S512x16384_S512x1_S512x16384_1_0_0_1).sKept = [1] := rfl
  have hsw0 : (scatter_S512x16384_S512x1_S512x16384_1_0_0_1).start j idx (0 : Fin 2)
      + ((scatter_S512x16384_S512x1_S512x16384_1_0_0_1).window j (0 : Fin 2) : Int) = ((j (0 : Fin 2)).val : Int) := by
    unfold ScatterDims.start ScatterDims.window
    rw [dif_pos (by rw [hsd]; decide), dif_neg (by rw [hk]; decide)]
    have hsi : (scatter_S512x16384_S512x1_S512x16384_1_0_0_1).siIdx j
        ⟨List.idxOf (0 : Fin 2) (scatter_S512x16384_S512x1_S512x16384_1_0_0_1).scatterDimsToOperandDims,
          List.idxOf_lt_length_iff.2 (by rw [hsd]; decide)⟩ = ix2 r (0 : Fin 1) := by
      funext b; refine Fin.ext ?_
      match b with
      | ⟨0, _⟩ => exact congrArg Fin.val hj0
      | ⟨1, _⟩ => rfl
    rw [hsi, hidx, StableHlo.Predicate.toInt_ofNat_small _ (by have := r.isLt; omega), hj0]
    simp
  have hsw1 : (scatter_S512x16384_S512x1_S512x16384_1_0_0_1).start j idx (1 : Fin 2)
      + ((scatter_S512x16384_S512x1_S512x16384_1_0_0_1).window j (1 : Fin 2) : Int) = ((j (1 : Fin 2)).val : Int) := by
    unfold ScatterDims.start ScatterDims.window
    rw [dif_neg (by rw [hsd]; decide), dif_pos (by rw [hk]; decide)]
    simp only [Int.zero_add]
    rfl
  have hsw : ∀ a : Fin 2, (scatter_S512x16384_S512x1_S512x16384_1_0_0_1).start j idx a
      + ((scatter_S512x16384_S512x1_S512x16384_1_0_0_1).window j a : Int) = ((j a).val : Int) := by
    intro a
    match a with
    | ⟨0, _⟩ => exact hsw0
    | ⟨1, _⟩ => exact hsw1
  unfold ScatterDims.resultIdx?
  rw [dif_pos (fun a => ⟨by rw [hsw]; exact Int.natCast_nonneg _, by rw [hsw]; exact_mod_cast (j a).isLt⟩)]
  congr 1
  funext a
  refine Fin.ext ?_
  show ((scatter_S512x16384_S512x1_S512x16384_1_0_0_1).start j idx a
      + ((scatter_S512x16384_S512x1_S512x16384_1_0_0_1).window j a : Int)).toNat = (j a).val
  rw [hsw]
  rfl

/-- The operations after the prediction: written into every row of a zero matrix, then transposed. -/
def tailChain (p : FVec Ideal S16384 .f32) : FVec Ideal S16384x512 .f32 :=
  let main_cst_6 := constant (F := Ideal) S_ .f32 0x00000000#32
  let main_v30 := broadcastInDim S512x16384 ![] bcast_S_S512x16384 main_cst_6
  let main_v32 := broadcastInDim S1x16384 ![1] bcast_S16384_S1x16384_1 p
  let main_v39 := broadcastInDim S512x16384 ![0, 1] bcast_S1x16384_S512x16384_0_1 main_v32
  let main_v40 := Host.scatter scatter_S512x16384_S512x1_S512x16384_1_0_0_1 (fun _ b => b) main_v30 rowIdx main_v39
  let main_v41 := transpose S16384x512 [1, 0] main_v40 transposes_S512x16384_S16384x512_1_0
  main_v41

/-- Entry `(i, r)` of the result is the prediction at `i`: the transpose reads `(r, i)`, which update `(r, i)` — and no
    other, the landing map being the identity — overwrites with the broadcast prediction's entry `(r, i)`. -/
theorem tailChain_apply (p : FVec Ideal S16384 .f32) (i : Fin 16384) (r : Fin 512) : tailChain p (ix2 i r) = p (ix1 i) := by
  unfold tailChain
  dsimp only
  rw [transpose_ix2_apply]
  have h := Cert.Lib.scatter_apply_hit scatter_S512x16384_S512x1_S512x16384_1_0_0_1 (fun (_ b : Ideal .f32) => b)
    (broadcastInDim S512x16384 ![] bcast_S_S512x16384 (constant (F := Ideal) S_ .f32 0x00000000#32)) rowIdx
    (broadcastInDim S512x16384 ![0, 1] bcast_S1x16384_S512x16384_0_1 (broadcastInDim S1x16384 ![1] bcast_S16384_S1x16384_1 p))
    id (fun j => scatter_lands rowIdx rowIdx_apply j) Function.injective_id (ix2 r i)
  rw [id] at h
  rw [h, bcast_row_mat, bcast_vec_row]

end Scatter

/-! ## The whole reference

The reference's term is three stages composed — the take, the fit, the scatter — and each stage is the same operations
in the same order as the stretch read above, so each pair agrees once both are written out. -/

section Whole
variable [Facts]

attribute [local irreducible] Host.reduce Host.reduceAdd Host.gather Host.scatter in
theorem takeRow0_eq (W : FVec Ideal S512x100000x1 .f32) (lab : IVec S16384 32) :
    Cert.ReferenceIdeal.RefTerm.takeRow0 (F := Ideal) W lab = ychain W lab := rfl

attribute [local irreducible] Host.reduce Host.reduceAdd Host.gather Host.scatter in
theorem pred_eq (X : FVec Ideal S16384x128 .f32) (y : FVec Ideal S16384 .f32) :
    Cert.ReferenceIdeal.RefTerm.pred (F := Ideal) X y = predChain X y := rfl

attribute [local irreducible] Host.reduce Host.reduceAdd Host.gather Host.scatter in
theorem spread_eq (p : FVec Ideal S16384 .f32) :
    Cert.ReferenceIdeal.RefTerm.spread (F := Ideal) p = tailChain p := rfl

/-- The take at an index: for labels in range, entry `i` of the targets is the table's row 0 at label `i`. -/
theorem takeRow0_apply (W : FVec Ideal S512x100000x1 .f32) (lab : IVec S16384 32)
    (hlab : ∀ j : S16384.Idx, (lab j).toNat ≤ 99999) (i : Fin 16384) :
    Cert.ReferenceIdeal.RefTerm.takeRow0 (F := Ideal) W lab (ix1 i) = ysel W lab i := by
  rw [takeRow0_eq]; exact ychain_apply W lab hlab i

/-- The fit at an index: entry `i` of the prediction is the specification's `predR`. -/
theorem pred_apply (X : FVec Ideal S16384x128 .f32) (y : FVec Ideal S16384 .f32) (i : Fin 16384) :
    Cert.ReferenceIdeal.RefTerm.pred (F := Ideal) X y (ix1 i) = Cert.Spec.predR (fun i j => X (ix2 i j)) (fun i => y (ix1 i)) i := by
  rw [pred_eq]; exact predChain_apply X y i

/-- The scatter and the transpose at an index: entry `(i, r)` is the prediction at `i`. -/
theorem spread_apply (p : FVec Ideal S16384 .f32) (i : Fin 16384) (r : Fin 512) :
    Cert.ReferenceIdeal.RefTerm.spread (F := Ideal) p (ix2 i r) = p (ix1 i) := by
  rw [spread_eq]; exact tailChain_apply p i r

/-- THE REFERENCE AT AN INDEX: for labels in range, entry `(i, r)` of the reference's result is the fitted line's value
    for sample `i`, with the targets the table's row 0 at the labels. -/
theorem out_apply (X : FVec Ideal Cert.ReferenceIdeal.S16384x128 .f32) (lab : IVec Cert.ReferenceIdeal.S16384 32)
    (W : FVec Ideal Cert.ReferenceIdeal.S512x100000x1 .f32)
    (hlab : ∀ j : Cert.ReferenceIdeal.S16384.Idx, (lab j).toNat ≤ 99999) (i : Fin 16384) (r : Fin 512) :
    Cert.ReferenceIdeal.RefTerm.out (F := Ideal) X lab W (ix2 i r)
      = Cert.Spec.predR (fun i j => X (ix2 i j)) (ysel W lab) i := by
  show Cert.ReferenceIdeal.RefTerm.spread (F := Ideal)
      (Cert.ReferenceIdeal.RefTerm.pred (F := Ideal) X (Cert.ReferenceIdeal.RefTerm.takeRow0 (F := Ideal) W lab)) (ix2 i r) = _
  have hy : (fun i' : Fin 16384 => Cert.ReferenceIdeal.RefTerm.takeRow0 (F := Ideal) W lab (ix1 i')) = ysel W lab :=
    funext fun i' => takeRow0_apply W lab hlab i'
  rw [spread_apply, pred_apply, hy]

end Whole

end Cert.ReferenceIdeal.RefValue

end
-- ==== Proof.PreFacts.lean ====
/-
  The printed input-domain predicate, read back.

  The predicate is the conjunction of three "for every entry" statements, each printed as an and-reduction of a
  one-bit array down to the scalar shape: every entry of the feature array has absolute value below +∞, every entry of
  the third array likewise, and every label word lies in [0, 99999] read signed. The claim states the conjunction is the
  word 1. A fold by "and" that ends in 1 met only 1s, so each comparison holds at every index. At the extended reals
  |x| = max x (−x) is below +∞ exactly when x is a real number; a 32-bit word that is nonnegative read signed reads the
  same unsigned, so the signed upper bound is the unsigned one.
-/
import proofs.«205095_g39934605918594_cont_8to1_b_428_16_alg».proof.Pre_input_domain
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_input_domain

/-- The scalar shape has one index. -/
instance : Subsingleton S_.Idx := ⟨fun a b => funext fun d => d.elim0⟩

/-- A word in [0, 99999] read signed is at most 99999 read unsigned: nonnegative signed means the top bit is clear, and
    then the two readings agree. -/
theorem toNat_le_of_signed (w : BitVec 32) (h0 : (0#32 : BitVec 32).toInt ≤ w.toInt)
    (h1 : w.toInt ≤ (99999#32 : BitVec 32).toInt) : w.toNat ≤ 99999 := by
  have e0 : (0#32 : BitVec 32).toInt = 0 := by decide
  have e1 : (99999#32 : BitVec 32).toInt = 99999 := by decide
  rw [e0] at h0
  rw [e1] at h1
  rw [BitVec.toInt_eq_toNat_cond] at h0 h1
  have hlt := w.isLt
  by_cases hc : 2 * w.toNat < 2 ^ 32
  · rw [if_pos hc] at h1
    omega
  · rw [if_neg hc] at h0
    omega

/-- The f32 word with all exponent bits set and no fraction bit denotes +∞. -/
theorem inf_word : Ideal.ofBits .f32 0x7F800000#32 = (⊤ : EReal) := by
  simp [Ideal.ofBits, Ideal.ieee]

/-- An extended real whose absolute value max x (−x) is strictly below +∞ is a real number: at −∞ and at +∞ the
    maximum is +∞. -/
theorem real_of_abs_lt_top (x : EReal) (h : Ideal.cmp .olt (max x (-x)) (⊤ : EReal) = 1#1) : ∃ r : ℝ, x = (r : EReal) := by
  induction x using EReal.rec with
  | bot => exact absurd h (by simp [Ideal.cmp])
  | coe r => exact ⟨r, rfl⟩
  | top => exact absurd h (by simp [Ideal.cmp])

/-- The three conjuncts of the predicate, each at every index: the two float comparisons as the instance's own
    operations on the entry, the two integer comparisons as words. -/
theorem conjuncts {F : FTy → Type} [FloatOps F] [Cert.Pre_input_domain.Facts] (a0 : FVec F S16384x128 .f32) (a1 : IVec S16384 32)
    (a2 : FVec F S512x100000x1 .f32) (a3 : IVec S_ 1)
    (h : Cert.Pre_input_domain.fn (F := F) a0 a1 a2 a3 = fun _ => 1#1) :
    (∀ j, FloatOps.cmpf .olt (FloatOps.hostAbsf (a0 j)) (FloatOps.ofBits (F := F) .f32 0x7F800000#32) = 1#1)
      ∧ (∀ j, FloatOps.cmpf .olt (FloatOps.hostAbsf (a2 j)) (FloatOps.ofBits (F := F) .f32 0x7F800000#32) = 1#1)
      ∧ (∀ j, IntOp.cmpi .sge (a1 j) 0#32 = 1#1 ∧ IntOp.cmpi .sle (a1 j) 99999#32 = 1#1) := by
  have e := congrFun h ValueIdx.ix0
  dsimp only [Cert.Pre_input_domain.fn] at e
  obtain ⟨e12, e3⟩ := IntOp.andi_eq_one.1 e
  obtain ⟨e1, e2⟩ := IntOp.andi_eq_one.1 e12
  refine ⟨fun j => Host.reduce_andi_all _ _ _ _ _ e1 j, fun j => Host.reduce_andi_all _ _ _ _ _ e2 j, fun j => ?_⟩
  exact IntOp.andi_eq_one.1 (Host.reduce_andi_all _ _ _ _ _ e3 j)

/-- The precondition bounds every label, at either float instance (its integer conjunct reads no float). -/
theorem range_of_pre {F : FTy → Type} [FloatOps F] [Cert.Pre_input_domain.Facts] (a0 : FVec F S16384x128 .f32) (a1 : IVec S16384 32)
    (a2 : FVec F S512x100000x1 .f32) (a3 : IVec S_ 1)
    (h : Cert.Pre_input_domain.fn (F := F) a0 a1 a2 a3 = fun _ => 1#1) : ∀ j : S16384.Idx, (a1 j).toNat ≤ 99999 := by
  intro j
  obtain ⟨hge, hle⟩ := (conjuncts a0 a1 a2 a3 h).2.2 j
  exact toNat_le_of_signed (a1 j) (IntOp.cmpi_sge.1 hge) (IntOp.cmpi_sle.1 hle)

/-- At the ideal instance the precondition makes every entry of the two float arrays a real number. -/
theorem finite_of_pre [Cert.Pre_input_domain.Facts] (a0 : FVec Ideal S16384x128 .f32) (a1 : IVec S16384 32)
    (a2 : FVec Ideal S512x100000x1 .f32) (a3 : IVec S_ 1)
    (h : Cert.Pre_input_domain.fn (F := Ideal) a0 a1 a2 a3 = fun _ => 1#1) :
    (∀ j, ∃ r : ℝ, a0 j = (r : EReal)) ∧ (∀ j, ∃ r : ℝ, a2 j = (r : EReal)) := by
  obtain ⟨h0, h2, -⟩ := conjuncts a0 a1 a2 a3 h
  refine ⟨fun j => real_of_abs_lt_top (a0 j) ?_, fun j => real_of_abs_lt_top (a2 j) ?_⟩
  · have := h0 j
    rwa [Ideal.ofBits_def, inf_word] at this
  · have := h2 j
    rwa [Ideal.ofBits_def, inf_word] at this

end Cert.PreFacts

end
-- ==== Proof.ClaimsIdeal.lean ====
/-
  The four conjuncts of the claim that speak of the ideal values, assembled.

  Both programs are run: the kernel's program ends with its result at the kernel's term of the three argument arrays,
  the reference's with its result at the reference's term, each leaving the arguments as they were. The two frames are
  those runs with the result forgotten. The idealization rewrote nothing, so there is nothing to preserve. For the
  agreement of the results: the precondition bounds every label by 99999 and makes every feature and every table entry
  a real number; entry `(i, r)` of the reference's term is then the fitted line's value for sample `i` with the cross
  term summed product by product, entry `(i, r)` of the kernel's term the same with the cross term as one product; over
  real rows and real targets the two cross terms agree (distributivity), and the targets — row 0 of the table at the
  labels, or zero — are real. So the two terms are one array.
-/
import proofs.«205095_g39934605918594_cont_8to1_b_428_16_alg».proof.Defs
import proofs.«205095_g39934605918594_cont_8to1_b_428_16_alg».proof.Proof.Gen.KernelIdeal
import proofs.«205095_g39934605918594_cont_8to1_b_428_16_alg».proof.Proof.Gen.ReferenceIdeal
import proofs.«205095_g39934605918594_cont_8to1_b_428_16_alg».proof.Proof.Gen.Pre_input_domain
import proofs.«205095_g39934605918594_cont_8to1_b_428_16_alg».proof.Proof.KLaunch
import proofs.«205095_g39934605918594_cont_8to1_b_428_16_alg».proof.Proof.RefRun
import proofs.«205095_g39934605918594_cont_8to1_b_428_16_alg».proof.Proof.KValue
import proofs.«205095_g39934605918594_cont_8to1_b_428_16_alg».proof.Proof.RefValue
import proofs.«205095_g39934605918594_cont_8to1_b_428_16_alg».proof.Proof.PreFacts
import proofs.«205095_g39934605918594_cont_8to1_b_428_16_alg».proof.Proof.Spec
import proofs.«205095_g39934605918594_cont_8to1_b_428_16_alg».proof.Proof.Ysel
import Idealize.ShloMosaic.Lib.ValueIdx

noncomputable section

namespace Cert.Proof.ClaimsIdeal

open Idealize.ShloMosaic Idealize.ShloMosaic.TcCoe Idealize.ShloMosaic.ValueIdx Idealize.SL.Sem

/-! ## The two terms are one array -/

/-- A target is a real number when the table's entries are: it is an entry of the table, or zero. -/
theorem ysel_real (W : FVec Ideal Cert.ReferenceIdeal.S512x100000x1 .f32) (lab : IVec Cert.ReferenceIdeal.S16384 32)
    (hW : ∀ j, ∃ r : ℝ, W j = (r : EReal)) (i : Fin 16384) :
    ∃ r : ℝ, Cert.ReferenceIdeal.RefValue.ysel W lab i = (r : EReal) := by
  unfold Cert.ReferenceIdeal.RefValue.ysel
  split
  · exact hW _
  · exact ⟨0, EReal.coe_zero.symm⟩

/-- For labels in range and real features and table entries, the reference's term and the kernel's term of the same
    three arrays are equal: entry by entry both are the fitted line's value, the two spellings of the cross term
    agreeing over the reals. -/
theorem out_eq (X : FVec Ideal Cert.ReferenceIdeal.S16384x128 .f32) (lab : IVec Cert.ReferenceIdeal.S16384 32)
    (W : FVec Ideal Cert.ReferenceIdeal.S512x100000x1 .f32) (hlab : ∀ j : Cert.ReferenceIdeal.S16384.Idx, (lab j).toNat ≤ 99999)
    (hX : ∀ j, ∃ r : ℝ, X j = (r : EReal)) (hW : ∀ j, ∃ r : ℝ, W j = (r : EReal)) :
    Cert.ReferenceIdeal.RefTerm.out (F := Ideal) X lab W = Cert.KernelIdeal.KTerm.out (F := Ideal) X lab W := by
  funext j
  obtain ⟨i, r, rfl⟩ : ∃ (i : Fin 16384) (r : Fin 512), j = ix2 i r := ⟨j 0, j 1, eq_ix2 j⟩
  rw [Cert.ReferenceIdeal.RefValue.out_apply X lab W hlab i r]
  refine Eq.trans ?_ (Cert.KernelIdeal.KValue.out_apply X lab W hlab i r).symm
  exact Cert.Spec.predR_eq_predK _ _ (fun i j => hX (ix2 i j)) (fun i => ysel_real W lab hW i) i

/-! ## The claims -/

/-- The precondition bounds every label on every device. -/
theorem preOK (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) : Cert.KernelIdeal.KL.PreOK m :=
  fun d j => Cert.PreFacts.range_of_pre _ _ _ _ (hpre d) j

theorem frame_ki : Cert.frame_KernelIdeal (hKernelIdeal := Cert.KernelIdeal.Gen.facts)
    (hPre_input_domain := Cert.Pre_input_domain.Gen.facts) := fun m ρ hpre =>
  (θ_run (Cert.KernelIdeal.defs (F := Ideal)) _ _).mono (fun _ h c => (h c).2)
    (Cert.KernelIdeal.KL.run_main (F := Ideal) m ρ (preOK m hpre))

theorem frame_ri : Cert.frame_ReferenceIdeal (hReferenceIdeal := Cert.ReferenceIdeal.Gen.facts)
    (hPre_input_domain := Cert.Pre_input_domain.Gen.facts) := fun m ρ _ =>
  (θ_run (Cert.ReferenceIdeal.defs (F := Ideal)) _ _).mono (fun _ h c => (h c).2)
    (Cert.ReferenceIdeal.RefRun.run (F := Ideal) m ρ)

/-- The idealization is the program's own text read at the ideal values: nothing was rewritten. -/
theorem preserves : Cert.preserves_Kernel_KernelIdeal := trivial

/-- From memories that agree on the arguments both programs run, leave the arguments unchanged, and end with one result:
    the kernel's term of the kernel's arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.KernelIdeal.KL.outC m c, Cert.KernelIdeal.KL.run_main (F := Ideal) m ρ (preOK m hpre), ?_⟩
  refine (θ_run (Cert.ReferenceIdeal.defs (F := Ideal)) _ _).mono (fun _ h c => ⟨(h c).1.trans ?_, (h c).2⟩)
    (Cert.ReferenceIdeal.RefRun.run (F := Ideal) m' ρ')
  rw [(hagree c).1, (hagree c).2.1, (hagree c).2.2.1]
  have hfin := Cert.PreFacts.finite_of_pre _ _ _ _ (hpre c)
  exact out_eq _ _ _ (Cert.PreFacts.range_of_pre _ _ _ _ (hpre c)) hfin.1 hfin.2

end Cert.Proof.ClaimsIdeal

end
-- ==== Proof.WTerm.lean ====
/-
  The kernel's result as one pure term of its three array arguments, at any float instance.

  @main lays the weights out as a flat table `tbl W`, entry `v · 512 + r` being `W[r, v, 0]`. Every vector subcore
  gathers, for its 512 samples, the table's entry at 512 times the sample's label — row 0 of the weights at that
  label —: the array `gathered`. @main then views those 16384 targets twice, as `[4, 1, 4096]` (one slab per grid
  point of the dense kernel) and as `[128, 128]` (whole, for the targets' sum). The dense kernel's point `t` reads
  rows `4096 t … 4096 t + 4095` of the features, slab `t` of the targets and the whole `[128, 128]` view, and stores one
  `[4096, 512]` block, `bodyOut` of the three; block `t` of the result is that store.
-/
import proofs.«205095_g39934605918594_cont_8to1_b_428_16_alg».proof.Kernel
import proofs.«205095_g39934605918594_cont_8to1_b_428_16_alg».proof.Proof.Gen.Kernel.Skeleton
import Idealize.ShloMosaic.Lib.ValueIdx

noncomputable section

namespace Cert.Kernel.KTerm

open Idealize.ShloMosaic Idealize.ShloMosaic.ValueIdx Cert.Kernel Cert.Kernel.Gen
open Cert.Kernel.Facts₀

variable {F : FTy → Type} [FloatOps F] [Cert.Kernel.Facts]

/-- The weights as @main flattens them for the gather: transposed to `[label, 1, row]`, then read row-major. -/
def tbl (W : FVec F S512x100000x1 .f32) : FVec F S51200000 .f32 :=
  shapeCast S51200000 (transpose S100000x1x512 [1, 2, 0] W Facts₀.transposes_S512x100000x1_S100000x1x512_1_2_0)
    Facts₀.shapeCasts_S100000x1x512_S51200000

/-- Sample `j`'s target: the table's entry at 512 times the sample's label (entry 0 should that word fall outside
    the table, which an in-range label never does). -/
def gathered (t : FVec F S51200000 .f32) (lab : IVec S16384 32) : FVec F S16384 .f32 := fun j =>
  if h : (lab j * 512#32).toNat < 51200000 then t (ix1 ⟨(lab j * 512#32).toNat, h⟩) else t (ix1 ⟨0, by decide⟩)

/-- The targets as four slabs of 4096. -/
def y3Of (y : FVec F S16384 .f32) : FVec F S4x1x4096 .f32 := shapeCast S4x1x4096 y Facts₀.shapeCasts_S16384_S4x1x4096
/-- The targets as a square, whole. -/
def yfOf (y : FVec F S16384 .f32) : FVec F S128x128 .f32 := shapeCast S128x128 y Facts₀.shapeCasts_S16384_S128x128

/-- What one grid point of the dense kernel stores, from the three blocks it loads. -/
def bodyOut (x : Vec F S4096x128 .f32) (y3 : Vec F S1x1x4096 .f32) (yf : Vec F S128x128 .f32) : FVec F S4096x512 .f32 :=
  k1_pay1 (k1_pay4 yf) (k1_pay6 x y3 yf) (k1_pay7 x y3 yf)

/-- Row `a` of block `t` is row `4096 t + a` of the array. -/
def blkRow (t : Fin 4) (a : Fin 4096) : Fin 16384 := ⟨4096 * t.val + a.val, by omega⟩
/-- The block a row lies in, and its place there. -/
def rowBlk (i : Fin 16384) : Fin 4 := ⟨i.val / 4096, by omega⟩
def rowIn (i : Fin 16384) : Fin 4096 := ⟨i.val % 4096, Nat.mod_lt _ (by decide)⟩

/-- Block `t` of the features: rows `4096 t …`. -/
def xBlk (X : FVec F S16384x128 .f32) (t : Fin 4) : Vec F S4096x128 .f32 := fun a =>
  X (ix2 (blkRow t (a 0)) (a 1))
/-- Slab `t` of the targets' `[4, 1, 4096]` view. -/
def y3Blk (y3 : FVec F S4x1x4096 .f32) (t : Fin 4) : Vec F S1x1x4096 .f32 := fun a =>
  y3 (ix3 t (a 1) (a 2))

/-- The dense kernel's result array: entry `(i, r)` is the store of the grid point whose block holds row `i`. -/
def dense (X : FVec F S16384x128 .f32) (y3 : FVec F S4x1x4096 .f32) (yf : FVec F S128x128 .f32) : FVec F S16384x512 .f32 := fun j =>
  bodyOut (xBlk X (rowBlk (j 0))) (y3Blk y3 (rowBlk (j 0))) yf (ix2 (rowIn (j 0)) (j 1))

/-- The kernel's result, of its features, labels and weights. -/
def out (X : FVec F S16384x128 .f32) (lab : IVec S16384 32) (W : FVec F S512x100000x1 .f32) : FVec F S16384x512 .f32 :=
  dense X (y3Of (gathered (tbl W) lab)) (yfOf (gathered (tbl W) lab))

end Cert.Kernel.KTerm

end
-- ==== Proof.WBase.lean ====
/-
  The kernel's program as the SparseCore launch theorem sees it: its configuration and body table, the resource
  algebra of the proof (the launch handshakes' rounds, the dense kernel's staging cells' rounds, and the counters of
  the vector subcores' own transfers), the buffers by name, and the one thing the proof asks of the launch memory:
  every label is at most 99999, so that 512 times a label is an entry of the flattened table.
-/
import proofs.«205095_g39934605918594_cont_8to1_b_428_16_alg».proof.Defs
import proofs.«205095_g39934605918594_cont_8to1_b_428_16_alg».proof.Proof.WTerm
import proofs.«205095_g39934605918594_cont_8to1_b_428_16_alg».proof.Proof.Gen.Kernel
import proofs.«205095_g39934605918594_cont_8to1_b_428_16_alg».proof.Proof.Gen.Kernel.Skeleton
import proofs.«205095_g39934605918594_cont_8to1_b_428_16_alg».proof.Proof.Gen.Kernel.Launch
import proofs.«205095_g39934605918594_cont_8to1_b_428_16_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

/-- The launch handshakes' rounds. -/
abbrev UH : Type := URounds (GSem nD τ sig) ℕ
/-- The dense kernel's staging cells' rounds. -/
abbrev UP : Type := UR sig nD τ
/-- Handshakes, staging cells, and the counters of the vector subcores' own transfers. -/
abbrev UU : Type := UH × (UP × Counters)

local notation "𝕄" => MT nD τ sig (HIx 1) (Elt F) ℕ UU ℕ

abbrev EH : Emb UH (MT nD τ sig (HIx 1) (Elt F) ℕ UU ℕ) := embL
abbrev ER : Emb (UP × Counters) (MT nD τ sig (HIx 1) (Elt F) ℕ UU ℕ) := embR
abbrev EP : Emb UP (MT nD τ sig (HIx 1) (Elt F) ℕ UU ℕ) := (Emb.inl : Emb UP (UP × Counters)).trans ER

/-! ## The launch memory and the buffers -/

/-- @main's arrays on device `d`: features, labels, weights, the flag; the transposed weights, the flat table, the
    gathered targets and their two views; the result. -/
abbrev xLoc (d : Dev nD) : Loc nD τ sig := (SparseCore.T d).loc main_arg0
abbrev labLoc (d : Dev nD) : Loc nD τ sig := (SparseCore.T d).loc main_arg1
abbrev wLoc (d : Dev nD) : Loc nD τ sig := (SparseCore.T d).loc main_arg2
abbrev flagLoc (d : Dev nD) : Loc nD τ sig := (SparseCore.T d).loc main_arg3
abbrev wtLoc (d : Dev nD) : Loc nD τ sig := (SparseCore.T d).loc main_v0
abbrev tblLoc (d : Dev nD) : Loc nD τ sig := (SparseCore.T d).loc main_v1
abbrev yLoc (d : Dev nD) : Loc nD τ sig := (SparseCore.T d).loc main_v2
abbrev y3Loc (d : Dev nD) : Loc nD τ sig := (SparseCore.T d).loc main_v3
abbrev yfLoc (d : Dev nD) : Loc nD τ sig := (SparseCore.T d).loc main_v4
abbrev outLoc (d : Dev nD) : Loc nD τ sig := (SparseCore.T d).loc main_v5

/-- The vector subcores' names for the three arrays they touch and their three scratch buffers. -/
abbrev tblV : Memref sig .scVector .hbm S51200000 .f32 := Memref.whole main_v1_scv
abbrev labV : Memref sig .scVector .hbm S16384 .i32 := Memref.whole main_arg1_scv
abbrev yV : Memref sig .scVector .hbm S16384 .f32 := Memref.whole main_v2_scv
abbrev idxS : Memref sig .scVector .vmem S512 .i32 := Memref.whole cc0_scratch0
abbrev offS : Memref sig .scVector .vmem S512 .i32 := Memref.whole cc0_scratch1
abbrev valS : Memref sig .scVector .vmem S512 .f32 := Memref.whole cc0_scratch2

/-- What the proof asks of the launch memory: every label is at most 99999. -/
def PreOK (m : (ℓ : Loc nD τ sig) → Buf (Elt F) ℓ) : Prop := ∀ (d : Dev nD) (j : S16384.Idx), (m (labLoc d) j).toNat ≤ 99999

end Cert.Kernel.KL

end
-- ==== Proof.WPay.lean ====
/-
  What the launch handshakes carry, for the one SparseCore call.

  The 32 vector subcores are numbered as the kernel numbers them, `w = 2 s + c` for subcore `s` of SparseCore `c`;
  subcore `w` works on entries `512 w … 512 w + 511` of the labels and of the targets. The call hands subcore `w`
  the full share of its 512 labels, a read token of the flat table (which @main has written by then: the weights
  transposed and flattened), and its 512 entries of the targets' array at whatever it holds; the subcore hands back
  the same, its entries of the targets now the table's entries at 512 times the labels.
-/
import proofs.«205095_g39934605918594_cont_8to1_b_428_16_alg».proof.Proof.WBase

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- Vector subcore `s` of SparseCore `c` is worker `2 s + c`. -/
def wid (c : Fin 2) (s : Fin 16) : Fin 32 := ⟨2 * s.val + c.val, by omega⟩

theorem rdiv : 32 ∣ S16384.size 0 := ⟨512, rfl⟩
/-- Worker `w`'s 512 entries of a 16384-entry array. -/
abbrev row (w : Fin 32) : Rect S16384 := Rect.part (s := S16384) (a₀ := 0) rdiv w
abbrev labRowSet (w : Fin 32) : Finset S16384.Idx := ((labV).view.slice (row w)).set
abbrev yRowSet (w : Fin 32) : Finset S16384.Idx := ((yV).view.slice (row w)).set

/-- Worker `w`'s read token of the table. -/
abbrev tblq (w : Fin 32) : PosShare TreeShare := Transfers.shareTok fullShare 32 w

variable [FloatOps F]

/-- The flat table as the call finds it, and the targets as it leaves them. -/
abbrev tblC (d : Dev nD) : Buf (Elt F) (tblLoc d) := (KTerm.tbl (m (wLoc d)) : FVec F S51200000 .f32)
abbrev yC (d : Dev nD) : Buf (Elt F) (yLoc d) := (KTerm.gathered (KTerm.tbl (m (wLoc d))) (m (labLoc d)) : FVec F S16384 .f32)

abbrev labRowPts (d : Dev nD) (w : Fin 32) : sProp 𝕄 := labLoc d ↦[labRowSet w]{fullShare} m (labLoc d)
abbrev tblShPts (d : Dev nD) (w : Fin 32) : sProp 𝕄 := tblLoc d ↦{tblq w} tblC m d
abbrev yRowPts (d : Dev nD) (w : Fin 32) (f : Buf (Elt F) (yLoc d)) : sProp 𝕄 := yLoc d ↦[yRowSet w]{fullShare} f

/-- What one worker is handed, and hands back with its targets at `f`. -/
abbrev workerPts (d : Dev nD) (w : Fin 32) (f : Buf (Elt F) (yLoc d)) : sProp 𝕄 :=
  iprop(labRowPts m d w ∗ tblShPts m d w ∗ yRowPts d w f)

/-- The one call: SparseCore `c` takes its sixteen workers' holdings and brings them back, the targets gathered. -/
def P : (K (F := F)).Pay (nD := nD) (Val := Elt F) (Name := ℕ) (U := UU) where
  st := fun q d c => match q with
    | 0 => bigSep Finset.univ fun s : Fin 16 => workerPts m d (wid (Fin.cast nCore_zero c) s) (m (yLoc d))
  dn := fun q d c => match q with
    | 0 => bigSep Finset.univ fun s : Fin 16 => workerPts m d (wid (Fin.cast nCore_zero c) s) (yC m d)
  go := fun q d c i => match q with
    | 0 => workerPts m d (wid (Fin.cast nCore_zero c) (Fin.cast nSub_zero i)) (m (yLoc d))
  td := fun q d c i => match q with
    | 0 => workerPts m d (wid (Fin.cast nCore_zero c) (Fin.cast nSub_zero i)) (yC m d)
  x := fun _ _ => iprop(emp)

instance P_storable : (P (F := F) m).IsStorable where
  st q d c := match q with
    | 0 => (inferInstance : BI.Storable (upEmb : UEmb _ 𝕄)
      (bigSep Finset.univ fun s : Fin 16 => workerPts m d (wid (Fin.cast nCore_zero c) s) (m (yLoc d))))
  dn q d c := match q with
    | 0 => (inferInstance : BI.Storable (upEmb : UEmb _ 𝕄)
      (bigSep Finset.univ fun s : Fin 16 => workerPts m d (wid (Fin.cast nCore_zero c) s) (yC m d)))
  go q d c i := match q with
    | 0 => (inferInstance : BI.Storable (upEmb : UEmb _ 𝕄)
      (workerPts m d (wid (Fin.cast nCore_zero c) (Fin.cast nSub_zero i)) (m (yLoc d))))
  td q d c i := match q with
    | 0 => (inferInstance : BI.Storable (upEmb : UEmb _ 𝕄)
      (workerPts m d (wid (Fin.cast nCore_zero c) (Fin.cast nSub_zero i)) (yC m d)))

end Cert.Kernel.KL

end
-- ==== Proof.WTile.lean ====
/-
  One vector subcore's task, at a symbolic place of the grid.
-/
import proofs.«205095_g39934605918594_cont_8to1_b_428_16_alg».proof.Proof.WPay
import Idealize.ShloMosaic.Lib.Ring
import Idealize.ShloMosaic.Lib.Pipeline.Value

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl
/-- The worker at grid point `L`: `2 · (L 1) + (L 0)`. -/
abbrev wL (L : grid0.Coords) : Fin 32 := wid (Fin.cast bound_zero (L 0)) (Fin.cast bound_one (L 1))

/-! ## The worker's 512 entries, as the program slices them -/

/-- The rectangle the program slices the labels and the targets by: 512 entries from the computed offset. -/
abbrev rowK (L : grid0.Coords) : Rect S16384 := Rect.unit (s := S16384) (k0_off1 L) S512.size (k0_off1_inb L)
/-- The worker's labels and its targets, as the program names them. -/
abbrev labRowK (L : grid0.Coords) : Memref sig .scVector .hbm S512 .i32 := (labV).slice (rowK L) (fun _ => rfl)
abbrev yRowK (L : grid0.Coords) : Memref sig .scVector .hbm S512 .f32 := (yV).slice (rowK L) (fun _ => rfl)

/-- Two unit-stride rectangles with the same offsets and sizes are one rectangle. -/
theorem unit_congr {s : Shape} {o o' z z' : Fin s.rank → Nat} (ho : o = o') (hz : z = z') (h : ∀ a, o a + z a ≤ s.size a)
    (h' : ∀ a, o' a + z' a ≤ s.size a) : Rect.unit (s := s) o z h = Rect.unit (s := s) o' z' h' := by
  subst ho; subst hz; rfl

/-- The computed offset, 1024 times the subcore plus 512 times the core, is where part (2 subcore + core) of the 32
    parts begins, and a part is 512 long: the program's rectangle is the worker's part. -/
theorem rowK_eq : rowK L = row (wL L) := by
  refine unit_congr ?_ ?_ _ _
  · rw [k0_off1_eq]
    funext a
    have ha : a = 0 := Subsingleton.elim _ _
    subst ha
    show 1024 * (L 1).val + 512 * (L 0).val = (2 * (L 1).val + (L 0).val) * (16384 / 32)
    omega
  · funext a
    have ha : a = 0 := Subsingleton.elim _ _
    subst ha
    rfl

theorem set_labRowK : (labRowK L).view.set = labRowSet (wL L) := by
  show ((labV).view.slice (rowK L)).set = ((labV).view.slice (row (wL L))).set
  rw [rowK_eq]
theorem set_yRowK : (yRowK L).view.set = yRowSet (wL L) := by
  show ((yV).view.slice (rowK L)).set = ((yV).view.slice (row (wL L))).set
  rw [rowK_eq]

/-- The labels held on the worker's part are the labels held on the program's slice, -/
theorem labPts_eq (f : Buf (Elt F) (labLoc d)) :
    (labLoc d ↦[labRowSet (wL L)]{fullShare} f : sProp 𝕄)
      = (labRowK L).view.loc (V d (cV L) (jV L)) ↦[(labRowK L).view.set]{fullShare} f := by
  rw [set_labRowK]
/-- and so for the targets. -/
theorem yPts_eq (f : Buf (Elt F) (yLoc d)) :
    (yLoc d ↦[yRowSet (wL L)]{fullShare} f : sProp 𝕄)
      = (yRowK L).view.loc (V d (cV L) (jV L)) ↦[(yRowK L).view.set]{fullShare} f := by
  rw [set_yRowK]

/-! ## What a vector subcore owns: three DMA semaphores, three scratch buffers -/

abbrev gCell (thr : Thread nD τ) : GSem nD τ sig := (thr, .dma cc0_scratch3.sem)
abbrev iCell (thr : Thread nD τ) : GSem nD τ sig := (thr, .dma cc0_scoped0.sem)
abbrev oCell (thr : Thread nD τ) : GSem nD τ sig := (thr, .dma cc0_scoped1.sem)
/-- The three cells the task uses. -/
abbrev taskCells (thr : Thread nD τ) : Finset (GSem nD τ sig) := {gCell thr, iCell thr, oCell thr}

theorem cell_ne (thr : Thread nD τ) {a b : SemLoc sig} (h : a ≠ b) : ((thr, a) : GSem nD τ sig) ≠ (thr, b) :=
  fun e => h (Prod.mk.inj e).2

theorem taskCells_sub (c : Fin τ.nSC) (i : Fin τ.nSub) : taskCells (V d c i) ⊆ ownCells (V d c i) := by
  intro g hg
  rw [Finset.mem_insert, Finset.mem_insert, Finset.mem_singleton] at hg
  rcases hg with rfl | rfl | rfl
  · exact mem_ownCells.mpr ⟨rfl, show (SemLoc.dma cc0_scratch3.sem : SemLoc sig).isScoped .scVector = true by decide⟩
  · exact mem_ownCells.mpr ⟨rfl, show (SemLoc.dma cc0_scoped0.sem : SemLoc sig).isScoped .scVector = true by decide⟩
  · exact mem_ownCells.mpr ⟨rfl, show (SemLoc.dma cc0_scoped1.sem : SemLoc sig).isScoped .scVector = true by decide⟩

/-- The subcore's semaphores at zero: the task's three, and the others. -/
theorem sems_open (c : Fin τ.nSC) (i : Fin τ.nSub) :
    (ownSems0 (V d c i) : sProp 𝕄)
      = iprop((semVal (gCell (V d c i)) 0 ∗ semVal (iCell (V d c i)) 0 ∗ semVal (oCell (V d c i)) 0)
          ∗ bigSep (ownCells (V d c i) \ taskCells (V d c i)) fun g => semVal g 0) := by
  unfold SparseCore.Cfg.ownSems0
  rw [SparseCore.bigSep_sdiff_split' (taskCells_sub d c i),
    bigSep_insert (by
      rw [Finset.mem_insert, Finset.mem_singleton]
      rintro (e | e)
      · exact cell_ne _ (by decide) e
      · exact cell_ne _ (by decide) e),
    bigSep_insert (by
      rw [Finset.mem_singleton]
      exact cell_ne _ (by decide)),
    bigSep_singleton]
  rfl

abbrev idxRef (c : Fin τ.nSC) (i : Fin τ.nSub) : DevRef τ sig := (Proc.scVector c i).devRef cc0_scratch0
abbrev offRef (c : Fin τ.nSC) (i : Fin τ.nSub) : DevRef τ sig := (Proc.scVector c i).devRef cc0_scratch1
abbrev valRef (c : Fin τ.nSC) (i : Fin τ.nSub) : DevRef τ sig := (Proc.scVector c i).devRef cc0_scratch2
/-- The three scratch buffers. -/
abbrev taskRefs (c : Fin τ.nSC) (i : Fin τ.nSub) : Finset (DevRef τ sig) := {idxRef c i, offRef c i, valRef c i}

theorem taskRefs_sub (c : Fin τ.nSC) (i : Fin τ.nSub) : taskRefs c i ⊆ ownRefs (τ := τ) (.scVector c i) := by
  intro b hb
  rw [Finset.mem_insert, Finset.mem_insert, Finset.mem_singleton] at hb
  rcases hb with rfl | rfl | rfl <;> exact SparseCore.Cfg.mem_ownRefs_of_owner rfl

theorem ref_ne (c : Fin τ.nSC) (i : Fin τ.nSub) {a b : Ref sig .scVector} (h : a ≠ b) :
    (Proc.scVector c i).devRef a ≠ (Proc.scVector c i).devRef b := fun e => h (Proc.devRef_injective _ e)

/-- The subcore's buffers at some contents: the three scratch buffers, and the others. -/
theorem bufs_open (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f))
          ∗ bigSep (ownRefs (τ := τ) (.scVector c i) \ taskRefs c i) fun b => iprop(∃ f, ((d, b) : Loc nD τ sig) ↦{fullShare} f)) := by
  unfold SparseCore.Cfg.ownBufs
  rw [show ((V d c i : Thread nD τ).2) = Proc.scVector c i from rfl,
    SparseCore.bigSep_sdiff_split' (taskRefs_sub c i),
    bigSep_insert (by
      rw [Finset.mem_insert, Finset.mem_singleton]
      rintro (e | e)
      · exact ref_ne c i (by decide) e
      · exact ref_ne c i (by decide) e),
    bigSep_insert (by
      rw [Finset.mem_singleton]
      exact ref_ne c i (by decide)),
    bigSep_singleton]
  rfl

/-! ## The buffers, in the program's names -/

theorem tblPts_eq (q : PosShare TreeShare) (f : Buf (Elt F) (tblLoc d)) :
    (tblLoc d ↦{q} f : sProp 𝕄) = (tblV).view.loc (V d (cV L) (jV L)) ↦{q} f := rfl
theorem idxPts_eq (f : Buf (Elt F) ((V d (cV L) (jV L)).loc cc0_scratch0)) :
    ((V d (cV L) (jV L)).loc cc0_scratch0 ↦{fullShare} f : sProp 𝕄) = (idxS).view.loc (V d (cV L) (jV L)) ↦{fullShare} f := rfl
theorem offPts_eq (f : Buf (Elt F) ((V d (cV L) (jV L)).loc cc0_scratch1)) :
    ((V d (cV L) (jV L)).loc cc0_scratch1 ↦{fullShare} f : sProp 𝕄) = (offS).view.loc (V d (cV L) (jV L)) ↦{fullShare} f := rfl
theorem valPts_eq (f : Buf (Elt F) ((V d (cV L) (jV L)).loc cc0_scratch2)) :
    ((V d (cV L) (jV L)).loc cc0_scratch2 ↦{fullShare} f : sProp 𝕄) = (valS).view.loc (V d (cV L) (jV L)) ↦{fullShare} f := rfl

/-! ## The values: the offsets, the gathered entries, the targets -/

/-- The worker's labels, by place among its 512, -/
abbrev labW : S512.Idx → BitVec 32 := (labRowK L).view.read (Elt F) (m (labLoc d))
/-- and 512 times each: the offsets the gather reads. -/
def offW : S512.Idx → BitVec 32 := fun y => labW m d L y * 512#32

/-- One of the thirty-two stores: sixteen labels read out of the first scratch buffer, once it holds the worker's
    labels, each times 512, are sixteen of the offsets. -/
theorem piece_val (pay : S512.Idx → Elt F .i32) (fi : Buf (Elt F) ((V d (cV L) (jV L)).loc cc0_scratch0)) {o : Nat}
    (h : ∀ a, (![o] : Fin 1 → Nat) a + S16.size a ≤ S512.size a) (h1 h2 : S16.ShapeCasts S16) (x : S16.Idx) :
    shapeCast S16 (muli (shapeCast S16 ((idxS).view.readAt (Elt F) (Rect.unit (s := S512) ![o] S16.size h).toLoadRect
        ((idxS).view.write (Elt F) fi pay Finset.univ)) h1) (broadcast S16 512#32)) h2 x
      = pay ((Rect.unit (s := S512) ![o] S16.size h).emb x) * 512#32 := by
  rw [shapeCast_self]
  show IntOp.muli (shapeCast S16 _ h1 x) (512#32) = _
  rw [shapeCast_self]
  refine congrArg (fun w : BitVec 32 => w * 512#32) ?_
  show (View.whole cc0_scratch0).read (Elt F) ((View.whole cc0_scratch0).write (Elt F) fi pay Finset.univ)
      ((Rect.unit (s := S512) ![o] S16.size h).toLoadRect.idx x) = _
  rw [View.write_whole_univ]
  rfl

/-- A label is at most 99999: 512 times it does not wrap, and is an entry of the table. -/
theorem offW_toNat (hpre : PreOK m) (y : S512.Idx) :
    (offW m d L y).toNat = 512 * (labW m d L y).toNat ∧ (offW m d L y).toNat < 51200000 := by
  have hl : (labW m d L y).toNat ≤ 99999 := by
    have e : labW m d L y = m (labLoc d) ((labRowK L).view.emb y) := (View.read_apply _ _).trans (cast_eq _ _)
    rw [e]; exact hpre d _
  have e2 : (offW m d L y).toNat = (labW m d L y).toNat * 512 % 2 ^ 32 := by
    unfold offW; rw [BitVec.toNat_mul]; rfl
  rw [e2]
  omega

/-- Stores that are each a block of the offsets and together cover the buffer leave the offsets, whatever it held. -/
theorem off_read (Lst : List (View.Piece (Elt F) S512 .i32))
    (hG : ∀ p ∈ Lst, ∀ x : p.1.shape.Idx, p.2 x = offW m d L (p.1.emb x)) (hc : ∀ y : S512.Idx, ∃ p ∈ Lst, y ∈ p.1.set)
    (g : Buf (Elt F) ((V d (cV L) (jV L)).loc cc0_scratch1)) (y : S512.Idx) :
    (offS).view.read (Elt F) ((offS).view.writes (Elt F) g Lst) y = offW m d L y :=
  View.read_writes_apply_of_pieces (offS).view g (offW m d L) Lst hG y (hc y)

/-- So every word the gather reads is an entry of the table. -/
theorem off_inb (hpre : PreOK m) (Lst : List (View.Piece (Elt F) S512 .i32))
    (hG : ∀ p ∈ Lst, ∀ x : p.1.shape.Idx, p.2 x = offW m d L (p.1.emb x)) (hc : ∀ y : S512.Idx, ∃ p ∈ Lst, y ∈ p.1.set)
    (g : Buf (Elt F) ((V d (cV L) (jV L)).loc cc0_scratch1)) :
    ∀ x, ((offS).view.read (Elt F) ((offS).view.writes (Elt F) g Lst) x).toNat < 51200000 := fun x => by
  rw [off_read m d L Lst hG hc g x]; exact (offW_toNat m d L hpre x).2

/-- A rank-one index is the row-major place of its coordinate. -/
theorem rowMajor_symm_rank1 {n : Nat} (x : (⟨1, ![n]⟩ : Shape).Idx) (k : Fin (⟨1, ![n]⟩ : Shape).numel) (hk : k.val = (x 0).val) :
    (⟨1, ![n]⟩ : Shape).rowMajor.symm k = x := by
  rw [Equiv.symm_apply_eq]
  apply Fin.ext
  rw [hk]
  show (x 0).val = (x 0).val * 1 + 0
  omega

/-- A target whose label times 512 is an entry of the table is that entry. -/
theorem gathered_of_lt (t : FVec F S51200000 .f32) (lab : IVec S16384 32) (j : S16384.Idx) (h : (lab j * 512#32).toNat < 51200000) :
    KTerm.gathered t lab j = t (ValueIdx.ix1 ⟨(lab j * 512#32).toNat, h⟩) := dif_pos h

/-- What the gather leaves at place x of the third scratch buffer, the list holding the worker's offsets: the table's
    entry at 512 times the worker's label x, which is the target due at the worker's place x of the targets. -/
theorem gather_val (hpre : PreOK m) (offs : S512.Idx → Elt F .i32) (ho : ∀ y, offs y = offW m d L y)
    (hn : S512.numel = S512.size gathers_S51200000_S512.axis')
    (hin : ∀ x, (offs x).toNat < S51200000.size gathers_S51200000_S512.axis)
    (hsl : ∀ a, (Rect.unit (s := S51200000) ![0] S51200000.size inb_S51200000_S51200000_0).stride a = 1) (x : S512.Idx) :
    SparseCore.gatherPayload gathers_S51200000_S512
        (((tblV).slice (Rect.unit (s := S51200000) ![0] S51200000.size inb_S51200000_S51200000_0) hsl).view.read (Elt F) (tblC m d))
        (SparseCore.rows offs hn hin) x
      = yC m d ((labRowK L).view.emb x) := by
  have hlt : (labW m d L x * 512#32).toNat < 51200000 := (offW_toNat m d L hpre x).2
  refine Eq.trans ?_ (gathered_of_lt (KTerm.tbl (m (wLoc d))) (m (labLoc d)) ((labRowK L).view.emb x) hlt).symm
  refine (View.read_apply _ _).trans ((cast_eq _ _).trans (congrArg _ ?_))
  funext a
  match a with
  | ⟨0, _⟩ =>
    apply Fin.ext
    have hx : S512.rowMajor.symm ((x 0).cast hn.symm) = x := rowMajor_symm_rank1 x _ rfl
    show 0 + 1 * (offs (S512.rowMajor.symm ((x 0).cast hn.symm))).toNat = (labW m d L x * 512#32).toNat
    rw [hx, ho x]
    unfold offW
    omega

/-- A whole-buffer write read back is the payload. -/
theorem read_whole_piece {κ : Kind} {sp : Space} {s : Shape} {e : EltTy} (v : View sig κ sp s e) (f : v.ty.Contents (Elt F))
    (w : s.Idx → Elt F e) (x : s.Idx) : v.read (Elt F) (v.writes (Elt F) f [⟨Rect.whole s, w⟩]) x = w x := by
  have h := View.read_writes_cons_emb v f (Rect.whole s) w [] x
  rwa [Rect.emb_whole_apply] at h

/-- The worker's targets after the copy-out: at every entry of its part, the target due there. -/
theorem yRow_val (f : Buf (Elt F) (yLoc d)) (w : S512.Idx → Elt F .f32) (hw : ∀ x, w x = yC m d ((labRowK L).view.emb x)) :
    ∀ i ∈ (yRowK L).view.set, ((yRowK L).view.writes (Elt F) f [⟨Rect.whole S512, w⟩]) i = yC m d i := by
  intro i hi
  obtain ⟨x, -, rfl⟩ := Finset.mem_map.mp hi
  have h := read_whole_piece (F := F) (yRowK L).view f w x
  rw [View.read_apply, cast_eq] at h
  rw [h, hw x]
  rfl

set_option maxHeartbeats 4000000 in
/-- The task on vector subcore `(L 0, L 1)` of device `d`: it copies its 512 labels into its first scratch buffer and
    waits; stores 512 times each label, sixteen at a time, into its second; gathers the table's entries at those
    offsets into its third and waits; copies the third out to its 512 entries of the targets and waits. It ends
    holding what it was handed, its entries of the targets at the gathered values. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ workerPts m d (wL L) (m (yLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tblV (Memref.isWhole_whole _) labV (Memref.isWhole_whole _) yV (Memref.isWhole_whole _)
            idxS (Memref.isWhole_whole _) offS (Memref.isWhole_whole _) valS (Memref.isWhole_whole _) cc0_scratch3 cc0_scoped0 cc0_scoped1)
          fun _ => iprop(workerPts m d (wL L) (yC m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    sems_open, bufs_open]
  iintro ⟨#Hlv, -, ⟨Hlab, Htbl, Hy⟩, ⟨⟨⟨%fi, Hidx⟩, ⟨%fo, Hoff⟩, ⟨%fv, Hval⟩⟩, Hbufs⟩, ⟨⟨Hsg, Hsi, Hso⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hlab' := (Entails.of_eq (labPts_eq (F := F) d L _)) $$ Hlab
  ihave Hy' := (Entails.of_eq (yPts_eq (F := F) d L _)) $$ Hy
  ihave Htbl' := (Entails.of_eq (tblPts_eq (F := F) d L _ _)) $$ Htbl
  ihave Hidx' := (Entails.of_eq (idxPts_eq (F := F) d L _)) $$ Hidx
  ihave Hoff' := (Entails.of_eq (offPts_eq (F := F) d L _)) $$ Hoff
  ihave Hval' := (Entails.of_eq (valPts_eq (F := F) d L _)) $$ Hval
  sl_exec
  have hG : ∀ p ∈ tile_body.sl.Hoff'_32 m d L fi, ∀ x : p.1.shape.Idx, p.2 x = offW m d L (p.1.emb x) := by
    unfold tile_body.sl.Hoff'_32
    repeat' (first | (refine List.forall_mem_cons.mpr ⟨?_, ?_⟩) | (exact fun _ h => absurd h List.not_mem_nil))
    all_goals exact fun x => piece_val d L _ fi _ _ _ x
  have hc : ∀ y : S512.Idx, ∃ p ∈ tile_body.sl.Hoff'_32 m d L fi, y ∈ p.1.set :=
    View.cover_of_tiledL _ S16.size (by sl_kernel_rfl)
  have hin : ∀ x, ((offS).view.read (Elt F) ((offS).view.writes (Elt F) (offS).view.junk (tile_body.sl.Hoff'_32 m d L fi)) x).toNat < 51200000 :=
    off_inb m d L hpre _ hG hc _
  sl_exec
  sl_step
  -- the values: the third scratch buffer holds the gathered entries, the copy-out carries them to the worker's targets
  have hval : ∀ x, tile_body.sl.dma0_1 m d L fi fv hin x = yC m d ((labRowK L).view.emb x) := fun x => by
    show (valS).view.read (Elt F) ((valS).view.writes (Elt F) fv [⟨Rect.whole S512, tile_body.sl.gather0 m d L fi hin⟩]) x = _
    rw [read_whole_piece]
    exact gather_val m d L hpre _ (off_read m d L _ hG hc _) _ _ _ x
  ihave Hlab2 := (Entails.of_eq (labPts_eq (F := F) d L _).symm) $$ Hlab'
  ihave Hy2 := (Entails.of_eq ((pointsTo_congr (yRow_val m d L _ _ hval)).trans (yPts_eq (F := F) d L _).symm)) $$ Hy'
  isplitl [Hlab2 Htbl' Hy2]
  · isplitl [Hlab2]
    · iexact Hlab2
    isplitl [Htbl']
    · iexact Htbl'
    iexact Hy2
  isplitl [Hidx' Hoff' Hval' Hbufs]
  · isplitl [Hidx' Hoff' Hval']
    · isplitl [Hidx']
      · iexists _; iexact Hidx'
      isplitl [Hoff']
      · iexists _; iexact Hoff'
      iexists _; iexact Hval'
    iexact Hbufs
  isplitl [Hsg Hsi Hso Hsems]
  · isplitl [Hsg Hsi Hso]
    · isplitl [Hsg]
      · iexact Hsg
      isplitl [Hsi]
      · iexact Hsi
      iexact Hso
    iexact Hsems
  iexists _
  isplitr
  swap
  · iexact HO
  · ipureintro
    intro p hp
    rw [Finset.mem_insert, Finset.mem_insert, Finset.mem_insert] at hp
    rcases hp with rfl | rfl | rfl | hp
    · exact Or.inr rfl
    · exact Or.inr rfl
    · exact Or.inr rfl
    · exact Or.inl hp

end Tile

end Cert.Kernel.KL

end
-- ==== Proof.WObl.lean ====
/-
  The gather call's obligation: the task of every vector subcore of the call's grid is the body proved at that
  subcore's grid point.
-/
import proofs.«205095_g39934605918594_cont_8to1_b_428_16_alg».proof.Proof.WTile

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row for a vector subcore is the gather kernel at that subcore's grid point, on the whole arrays
    and the subcore's scratch. -/
theorem defs₀_vector (c : Fin τ.nSC) (s : Fin τ.nSub) :
    defs₀ (F := F) (.scVector c s) 0 ()
      = SparseCore.onTile hcore0 hsub0 (fun c s => cc0_gather_kernel (coordsV c s)
          tblV (Memref.isWhole_whole _) labV (Memref.isWhole_whole _) yV (Memref.isWhole_whole _)
          idxS (Memref.isWhole_whole _) offS (Memref.isWhole_whole _) valS (Memref.isWhole_whole _) cc0_scratch3 cc0_scoped0 cc0_scoped1) ⟨⟩ c s := rfl

omit [FloatOps F] in
/-- A task that recorded only waits of its own leaves recorded pairs the obligation admits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) facts hpre O W hO).trans (wp_mono frame _ _ fun _ => obl_post)

end Cert.Kernel.KL

end
-- ==== Proof.WSplit.lean ====
/-
  How the call's operands split among the 32 workers and join again: the labels and the targets row by row (the
  32 parts of 512 tile the 16384 entries), the flat table by its 32 read tokens; per SparseCore, its sixteen
  workers are those numbered `2 s + c`.
-/
import proofs.«205095_g39934605918594_cont_8to1_b_428_16_alg».proof.Proof.WPay

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The rows of a 16384-entry array -/

/-- Worker `w`'s entries of the labels, seen through the subcores' name for the array, are the `w`-th of the 32
    parts of 512 entries. -/
theorem labRowSet_eq (w : Fin 32) : labRowSet w = (row w).set := by
  show ((View.whole (main_arg1_scv : Ref sig .scVector)).slice (row w)).set = _
  rw [View.set_slice]; exact Finset.map_refl
/-- Likewise for the targets. -/
theorem yRowSet_eq (w : Fin 32) : yRowSet w = (row w).set := by
  show ((View.whole (main_v2_scv : Ref sig .scVector)).slice (row w)).set = _
  rw [View.set_slice]; exact Finset.map_refl

/-- Two workers' rows do not meet, -/
theorem labRows_disjoint : ∀ i ∈ (Finset.univ : Finset (Fin 32)), ∀ j ∈ (Finset.univ : Finset (Fin 32)), i ≠ j → Disjoint (labRowSet i) (labRowSet j) :=
  fun i _ j _ h => by rw [labRowSet_eq, labRowSet_eq]; exact Rect.part_disjoint rdiv h
theorem yRows_disjoint : ∀ i ∈ (Finset.univ : Finset (Fin 32)), ∀ j ∈ (Finset.univ : Finset (Fin 32)), i ≠ j → Disjoint (yRowSet i) (yRowSet j) :=
  fun i _ j _ h => by rw [yRowSet_eq, yRowSet_eq]; exact Rect.part_disjoint rdiv h
/-- and the 32 rows are the whole array. -/
theorem labRows_cover : (Finset.univ : Finset (Fin 32)).biUnion labRowSet = Finset.univ :=
  (Finset.biUnion_congr rfl fun i _ => labRowSet_eq i).trans (Rect.biUnion_part rdiv)
theorem yRows_cover : (Finset.univ : Finset (Fin 32)).biUnion yRowSet = Finset.univ :=
  (Finset.biUnion_congr rfl fun i _ => yRowSet_eq i).trans (Rect.biUnion_part rdiv)

/-- So an array held whole is its 32 rows held apart, at the same contents: an equation of assertions. -/
theorem labPts_rows (d : Dev nD) (f : Buf (Elt F) (labLoc d)) :
    (labLoc d ↦{fullShare} f : sProp 𝕄) = bigSep Finset.univ fun w : Fin 32 => labLoc d ↦[labRowSet w]{fullShare} f := by
  rw [← pointsTo_biUnion Finset.univ (ℓ := labLoc d) labRowSet labRows_disjoint, labRows_cover]; try rfl
theorem yPts_rows (d : Dev nD) (f : Buf (Elt F) (yLoc d)) :
    (yLoc d ↦{fullShare} f : sProp 𝕄) = bigSep Finset.univ fun w : Fin 32 => yLoc d ↦[yRowSet w]{fullShare} f := by
  rw [← pointsTo_biUnion Finset.univ (ℓ := yLoc d) yRowSet yRows_disjoint, yRows_cover]; try rfl

/-! ## The numbering of the workers -/

/-- `(c, s) ↦ 2 s + c` numbers the 2 × 16 subcores by `0 … 31`; `w ↦ (w mod 2, w div 2)` reads the number back. -/
def widEquiv : Fin 2 × Fin 16 ≃ Fin 32 where
  toFun p := wid p.1 p.2
  invFun w := (⟨w.val % 2, Nat.mod_lt _ (by omega)⟩, ⟨w.val / 2, by have := w.isLt; omega⟩)
  left_inv := fun ⟨c, s⟩ => by
    have hc := c.isLt; have hs := s.isLt
    refine Prod.ext (Fin.ext ?_) (Fin.ext ?_)
    · show (2 * s.val + c.val) % 2 = c.val; omega
    · show (2 * s.val + c.val) / 2 = s.val; omega
  right_inv := fun w => Fin.ext (by show 2 * (w.val / 2) + w.val % 2 = w.val; omega)

/-- The sixteen subcores of a SparseCore, re-indexed by the configuration's own count of them. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- The two SparseCores, likewise. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Something held once per subcore of each SparseCore is held once per worker. -/
theorem bigSep_workers (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_cores (F := F) (fun c => bigSep Finset.univ fun s : Fin 16 => Φ (wid c s)),
    ← bigSep_univ_prod (fun p : Fin 2 × Fin 16 => Φ (wid p.1 p.2)), bigSep_univ_equiv widEquiv Φ]
  rfl

/-! ## The split and the join -/

/-- The two SparseCores' holdings with the targets at `f` are the labels whole, the 32 read tokens and the targets
    whole at `f`: the workers' holdings taken apart component by component, and each array's rows put together. -/
theorem cores_eq_whole (d : Dev nD) (f : Buf (Elt F) (yLoc d)) :
    (bigSep Finset.univ fun c : Fin ((K (F := F)).nCore 0) => bigSep Finset.univ fun s : Fin 16 => workerPts m d (wid (Fin.cast nCore_zero c) s) f)
      = iprop((labLoc d ↦{fullShare} m (labLoc d)) ∗ (bigSep Finset.univ fun w : Fin 32 => tblShPts m d w) ∗ (yLoc d ↦{fullShare} f)) := by
  rw [bigSep_workers (F := F) (fun w => workerPts m d w f), labPts_rows, yPts_rows]
  show (bigSep Finset.univ fun w : Fin 32 => iprop(labRowPts m d w ∗ tblShPts m d w ∗ yRowPts d w f)) = _
  rw [bigSep_sep', bigSep_sep']

/-- One SparseCore's operands are its sixteen workers', and its results theirs. -/
theorem vecSplit : (K (F := F)).VecSplit' (P m) 0 := by
  intro d c
  show (bigSep Finset.univ fun s : Fin 16 => workerPts m d (wid (Fin.cast nCore_zero c) s) (m (yLoc d))) ⊢ |={Set.univ}=> iprop(
      (bigSep Finset.univ fun i : Fin ((K (F := F)).nSub 0) => workerPts m d (wid (Fin.cast nCore_zero c) (Fin.cast nSub_zero i)) (m (yLoc d)))
      ∗ ((bigSep Finset.univ fun i : Fin ((K (F := F)).nSub 0) => workerPts m d (wid (Fin.cast nCore_zero c) (Fin.cast nSub_zero i)) (yC m d))
          -∗ bigSep Finset.univ fun s : Fin 16 => workerPts m d (wid (Fin.cast nCore_zero c) s) (yC m d)))
  rw [bigSep_tasks (F := F) (fun s => workerPts m d (wid (Fin.cast nCore_zero c) s) (m (yLoc d))),
    bigSep_tasks (F := F) (fun s => workerPts m d (wid (Fin.cast nCore_zero c) s) (yC m d))]
  iintro H; imodintro
  isplitl [H]; · iexact H
  iintro H; iexact H

/-- The labels whole, the table's 32 read tokens and the targets whole are the two SparseCores' operands; -/
theorem st_of_whole (d : Dev nD) :
    iprop((labLoc d ↦{fullShare} m (labLoc d)) ∗ (bigSep Finset.univ fun w : Fin 32 => tblShPts m d w) ∗ (yLoc d ↦{fullShare} m (yLoc d)))
      ⊢ bigSep Finset.univ fun c : Fin ((K (F := F)).nCore 0) => (P m).st 0 d c := by
  rw [← cores_eq_whole m d (m (yLoc d))]
  exact BI.Entails.refl _

/-- and their results are the labels whole, the tokens, and the targets whole at the gathered values. -/
theorem whole_of_dn (d : Dev nD) :
    (bigSep Finset.univ fun c : Fin ((K (F := F)).nCore 0) => (P m).dn 0 d c)
      ⊢ iprop((labLoc d ↦{fullShare} m (labLoc d)) ∗ (bigSep Finset.univ fun w : Fin 32 => tblShPts m d w) ∗ (yLoc d ↦{fullShare} yC m d)) := by
  rw [← cores_eq_whole m d (yC m d)]
  exact BI.Entails.refl _

end Cert.Kernel.KL

end
-- ==== Proof.WRegionBody.lean ====
/-
  The dense kernel's body at one grid point: it loads its three input blocks whole, and stores one whole block, the
  term `KTerm.bodyOut` of the three; and the pipeline's proof data built on that.
-/
import proofs.«205095_g39934605918594_cont_8to1_b_428_16_alg».proof.Proof.WPay
import Idealize.ShloMosaic.Lib.Pipeline.FrameBody
import Idealize.ShloMosaic.Lib.Pipeline.Value

set_option maxRecDepth 16384

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body's triple -/

/-- The offsets of a whole-block access, as the printed text spells them, are zero on every axis. -/
theorem hz2 : (![0, 0] : Fin 2 → Nat) = fun _ => 0 := by funext a; fin_cases a <;> rfl
theorem hz3 : (![0, 0, 0] : Fin 3 → Nat) = fun _ => 0 := by funext a; fin_cases a <;> rfl

/-- The body's one store covers the output block. -/
theorem cover_out (p0 : Vec F S4096x512 .f32) (y : S4096x512.Idx) :
    ∃ pc ∈ ([⟨Rect.unit (s := S4096x512) ![0, 0] S4096x512.size inb_S4096x512_S4096x512_0_0, p0⟩] : List (View.Piece (Elt F) S4096x512 .f32)),
      y ∈ pc.1.set :=
  ⟨_, List.mem_singleton_self _, View.mem_set_unit_zero (S := S4096x512) hz2 inb_S4096x512_S4096x512_0_0 y⟩

set_option maxHeartbeats 1000000 in
/-- The kernel body on whole staging memrefs, the inputs' at read contents `x0 x1 x2` and the output's at anything,
    runs to the continuation holding the inputs' as they were and the output's at `KTerm.bodyOut x0 x1 x2`. -/
theorem sound_kernel (c : Dev nD) (E : Set ℕ) (i : grid1.Coords)
    (arg1 : Memref sig .tc .vmem S4096x128 .f32) (harg1 : arg1.IsWhole) (arg2 : Memref sig .tc .vmem S1x1x4096 .f32) (harg2 : arg2.IsWhole)
    (arg3 : Memref sig .tc .vmem S128x128 .f32) (harg3 : arg3.IsWhole) (arg4 : Memref sig .tc .vmem S4096x512 .f32) (harg4 : arg4.IsWhole)
    (x0 : Vec F S4096x128 .f32) (x1 : Vec F S1x1x4096 .f32) (x2 : Vec F S128x128 .f32) (Kc : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (KTerm.bodyOut x0 x1 x2)) -∗ Kc ⟨⟩))
      ⊢ wp frame (wpE (defs₀ (F := F)) Variants.none c none) E (cc1__dense_body i arg1 harg1 arg2 harg2 arg3 harg3 arg4 harg4) Kc := by
  simp only [cc1__dense_body_eq_skeleton]; unfold cc1__dense_body_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover_out _)).trans ?_
  refine (View.canon_unit_zero (S := S4096x512) hz2 _ _).trans ?_
  have e0 : View.readAt (Elt F) arg1.view (Rect.unit (s := S4096x128) ![0, 0] S4096x128.size inb_S4096x128_S4096x128_0_0).toLoadRect f0
      = arg1.view.read (Elt F) f0 := View.ld_unit_zero (S := S4096x128) hz2 _ _
  have e1 : View.readAt (Elt F) arg2.view (Rect.unit (s := S1x1x4096) ![0, 0, 0] S1x1x4096.size inb_S1x1x4096_S1x1x4096_0_0_0).toLoadRect f1
      = arg2.view.read (Elt F) f1 := View.ld_unit_zero (S := S1x1x4096) hz3 _ _
  have e2 : View.readAt (Elt F) arg3.view (Rect.unit (s := S128x128) ![0, 0] S128x128.size inb_S128x128_S128x128_0_0).toLoadRect f2
      = arg3.view.read (Elt F) f2 := View.ld_unit_zero (S := S128x128) hz2 _ _
  dsimp only
  rw [e0, e1, e2]
  rfl

/-! ## What @main's arrays hold when the region is entered -/

variable (m : (ℓ : Loc nD τ sig) → Buf (Elt F) ℓ)

/-- The dense kernel's pipeline has no prefetched table. -/
abbrev aAdm : (p : Fin 1) → (pcfgs (F := F) p).Adm := fun p => (cfgs p).toPCfg_adm

/-- The weights transposed; the targets' two views; the result. -/
abbrev wtC (d : Dev nD) : Buf (Elt F) (wtLoc d) :=
  (transpose S100000x1x512 [1, 2, 0] (m (wLoc d)) Facts₀.transposes_S512x100000x1_S100000x1x512_1_2_0 : FVec F S100000x1x512 .f32)
abbrev y3C (d : Dev nD) : Buf (Elt F) (y3Loc d) :=
  (KTerm.y3Of (KTerm.gathered (KTerm.tbl (m (wLoc d))) (m (labLoc d))) : FVec F S4x1x4096 .f32)
abbrev yfC (d : Dev nD) : Buf (Elt F) (yfLoc d) :=
  (KTerm.yfOf (KTerm.gathered (KTerm.tbl (m (wLoc d))) (m (labLoc d))) : FVec F S128x128 .f32)
abbrev outC (d : Dev nD) : Buf (Elt F) (outLoc d) :=
  (KTerm.out (m (xLoc d)) (m (labLoc d)) (m (wLoc d)) : FVec F S16384x512 .f32)

/-- Each window's array at the region's entry: the features and the result's array as launched, the targets' two
    views as @main's reshapes wrote them. -/
def entryA (c : Dev nD) (w : Fin cfg1.W) : Buf (Elt F) ((cfg1.win w).arr.view.loc (c : Thread nD τ)) :=
  match w with
  | ⟨0, _⟩ => m (xLoc c)
  | ⟨1, _⟩ => y3C m c
  | ⟨2, _⟩ => yfC m c
  | ⟨3, _⟩ => m (outLoc c)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (entryA m c w)

/-! ## The pipeline's proof data -/

/-- The proof data of the dense kernel's pipeline on core `c`: the arrays as the region finds them; after the body at
    point `t` each input's buffer at its block and the output's at `KTerm.bodyOut` of the three input blocks; the
    invariant the scoped buffers no window stages and the generator register, untouched; nothing owed; full shares;
    the core's recorded waits all at or below the level the one SparseCore call left them under. -/
def dat0 (c : Dev nD) : Dat τ (Elt F) (HIx 1) ℕ UU ℕ cfg1 c where
  A w := entryA m c w
  after w t := match w with
    | ⟨0, _⟩ => iblk m c 0 t
    | ⟨1, _⟩ => iblk m c 1 t
    | ⟨2, _⟩ => iblk m c 2 t
    | ⟨3, _⟩ => KTerm.bodyOut (iblk m c 0 t) (iblk m c 1 t) (iblk m c 2 t)
  Φ _ := iprop(Pipeline.scopedRest spec1 c ∗ ∃ r, prngReg c r)
  q _ := fullShare
  owed _ := 0
  recorded _ := {p | (K (F := F)).lev ((c : Thread nD τ), p.1) p.2 ≤ 8 * 1}

/-- The one pipeline's proof data, by pipeline. -/
def dats : (p : Fin 1) → (c : Dev nD) → Dat τ (Elt F) (HIx 1) ℕ UU ℕ (Pipeline.pin (pcfgs (F := F)) aAdm p) c
  | 0 => dat0 m

theorem A_eq (c : Dev nD) (w : Fin cfg1.W) : (dat0 m c).A w = entryA m c w := by dsimp only [dat0]

/-- What the body leaves, window by window. -/
theorem after_0 (c : Dev nD) (t : Fin cfg1.N) : (dat0 m c).after 0 t = iblk m c 0 t := by dsimp only [dat0]
theorem after_1 (c : Dev nD) (t : Fin cfg1.N) : (dat0 m c).after 1 t = iblk m c 1 t := by dsimp only [dat0]
theorem after_2 (c : Dev nD) (t : Fin cfg1.N) : (dat0 m c).after 2 t = iblk m c 2 t := by dsimp only [dat0]
theorem after_3 (c : Dev nD) (t : Fin cfg1.N) :
    (dat0 m c).after 3 t = KTerm.bodyOut (iblk m c 0 t) (iblk m c 1 t) (iblk m c 2 t) := by dsimp only [dat0]

/-- Each input's current staging buffer holds its block at every point, fetched there or not: an input the pipeline
    does not fetch at a point has not moved its block index since the point before, and the body left the block. -/
theorem before_0 (c : Dev nD) (t : Fin cfg1.N) (d) : (dat0 m c).before 0 t d = iblk m c 0 t :=
  ((dat0 m c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat0 m c).before 1 t d = iblk m c 1 t :=
  ((dat0 m c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat0 m c).before 2 t d = iblk m c 2 t :=
  ((dat0 m c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat0 m c).Φ t.castSucc ∗ (dat0 m c).owesAt none t.castSucc
    ∗ (∃ d, owns (c : Thread nD τ) (st1_0 t) fullShare ((dat0 m c).before 0 t d))
    ∗ (∃ d, owns (c : Thread nD τ) (st1_1 t) fullShare ((dat0 m c).before 1 t d))
    ∗ (∃ d, owns (c : Thread nD τ) (st1_2 t) fullShare ((dat0 m c).before 2 t d))
    ∗ (∃ d, owns (c : Thread nD τ) (st1_3 t) fullShare ((dat0 m c).before 3 t d)))

/-- and what it returns. -/
def bodyPost (c : Dev nD) (t : Fin cfg1.N) : sProp 𝕄 :=
  iprop((dat0 m c).Φ t.succ ∗ (dat0 m c).owesAt none t.succ
    ∗ owns (c : Thread nD τ) (st1_0 t) fullShare ((dat0 m c).after 0 t)
    ∗ owns (c : Thread nD τ) (st1_1 t) fullShare ((dat0 m c).after 1 t)
    ∗ owns (c : Thread nD τ) (st1_2 t) fullShare ((dat0 m c).after 2 t)
    ∗ owns (c : Thread nD τ) (st1_3 t) fullShare ((dat0 m c).after 3 t))

/-- The body at any point: the inputs' memrefs hold their blocks, so `sound_kernel` applies; the invariant and the
    core's `owes` pass through unread. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before_0, before_1, before_2]
  rw [show (dat0 m c).Φ t.succ = (dat0 m c).Φ t.castSucc from rfl,
    show (dat0 m c).owesAt none t.succ = (dat0 m c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point; the body waits on nothing, so the index of its waits is immaterial. -/
theorem body_obligation (c : Dev nD) : BodyObligation (dat0 (F := F) m c) (defs₀ (F := F)) Variants.none (none : HIx 1) Set.univ := fun t => by
  rw [bigSep_W1, bigSep_W1]
  exact sound_body m c t

end Cert.Kernel.KL

end
-- ==== Proof.WRegionValue.lean ====
/-
  The dense kernel's result array after all four grid points: block `t` of the result is what point `t` stored, the
  term `KTerm.bodyOut` of the three blocks point `t` loaded; the four blocks tile the array; so the array ends holding
  `KTerm.dense` of the features and the targets' two views, which is `KTerm.out` of the launch memory.
-/
import proofs.«205095_g39934605918594_cont_8to1_b_428_16_alg».proof.Proof.WRegionBody

set_option maxRecDepth 16384

noncomputable section

namespace Cert.Kernel.KL

open Cert.Kernel Cert.Kernel.Gen

open Idealize.ShloMosaic Idealize.ShloMosaic.TcCoe Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.ShloMosaic.Pipeline (Dat Cfg Window)

variable {F : FTy → Type} [FloatOps F]

local notation "𝕄" => MT nD τ sig (HIx 1) (Elt F) ℕ UU ℕ

variable (m : (ℓ : Loc nD τ sig) → Buf (Elt F) ℓ)

/-! ## The grid's points and the windows' block indices -/

/-- Grid point `t` as a block number. -/
def tBlk (t : Fin cfg1.N) : Fin 4 := ⟨t.val, lt_of_lt_of_eq t.isLt N_1⟩

/-- The features' and the result's block index at point `t` is `(t, 0)`, the slabs' `(t, 0, 0)`, the square's `(0, 0)`. -/
theorem index_0 (t : Fin cfg1.N) : win1_0.index t 0 = t.val ∧ win1_0.index t 1 = 0 := by
  rcases fin_N1 t with rfl | rfl | rfl | rfl <;> decide
theorem index_1 (t : Fin cfg1.N) : win1_1.index t 0 = t.val ∧ win1_1.index t 1 = 0 ∧ win1_1.index t 2 = 0 := by
  rcases fin_N1 t with rfl | rfl | rfl | rfl <;> decide
theorem index_2 (t : Fin cfg1.N) : win1_2.index t 0 = 0 ∧ win1_2.index t 1 = 0 := by
  rcases fin_N1 t with rfl | rfl | rfl | rfl <;> decide
theorem index_3 (t : Fin cfg1.N) : win1_3.index t 0 = t.val ∧ win1_3.index t 1 = 0 := by
  rcases fin_N1 t with rfl | rfl | rfl | rfl <;> decide

/-! ## The input blocks, read where the rectangles say

A block's element sits in the array, on each axis, at the block index times the block's size plus its own coordinate. -/

/-- Point `t`'s block of the features: rows `4096 t …`. -/
theorem iblk0_eq (c : Dev nD) (t : Fin cfg1.N) :
    (iblk m c 0 t : Vec F S4096x128 .f32) = KTerm.xBlk (m (xLoc c)) (tBlk t) := by
  obtain ⟨h0, h1⟩ := index_0 t
  funext x
  unfold iblk
  rw [View.read_apply]
  show (m (xLoc c) : S16384x128.Idx → Elt F .f32) _ = (m (xLoc c) : S16384x128.Idx → Elt F .f32) (ix2 (KTerm.blkRow (tBlk t) (x 0)) (x 1))
  congr 1
  funext a
  apply Fin.ext
  match a with
  | ⟨0, _⟩ => show win1_0.index t 0 * 4096 + 1 * (x 0).val = 4096 * t.val + (x 0).val; rw [h0]; omega
  | ⟨1, _⟩ => show win1_0.index t 1 * 128 + 1 * (x 1).val = (x 1).val; rw [h1]; omega

/-- Point `t`'s slab of the targets' `[4, 1, 4096]` view. -/
theorem iblk1_eq (c : Dev nD) (t : Fin cfg1.N) :
    (iblk m c 1 t : Vec F S1x1x4096 .f32) = KTerm.y3Blk (y3C m c) (tBlk t) := by
  obtain ⟨h0, h1, h2⟩ := index_1 t
  funext x
  unfold iblk
  rw [View.read_apply]
  show (y3C m c : S4x1x4096.Idx → Elt F .f32) _ = (y3C m c : S4x1x4096.Idx → Elt F .f32) (ix3 (tBlk t) (x 1) (x 2))
  congr 1
  funext a
  apply Fin.ext
  have hx0 : (x 0).val < 1 := (x 0).isLt
  match a with
  | ⟨0, _⟩ => show win1_1.index t 0 * 1 + 1 * (x 0).val = t.val; rw [h0]; omega
  | ⟨1, _⟩ => show win1_1.index t 1 * 1 + 1 * (x 1).val = (x 1).val; rw [h1]; omega
  | ⟨2, _⟩ => show win1_1.index t 2 * 4096 + 1 * (x 2).val = (x 2).val; rw [h2]; omega

/-- The targets' `[128, 128]` view, whole at every point. -/
theorem iblk2_eq (c : Dev nD) (t : Fin cfg1.N) :
    (iblk m c 2 t : Vec F S128x128 .f32) = (yfC m c : S128x128.Idx → Elt F .f32) := by
  obtain ⟨h0, h1⟩ := index_2 t
  funext x
  unfold iblk
  rw [View.read_apply]
  show (yfC m c : S128x128.Idx → Elt F .f32) _ = (yfC m c : S128x128.Idx → Elt F .f32) x
  congr 1
  funext a
  apply Fin.ext
  match a with
  | ⟨0, _⟩ => show win1_2.index t 0 * 128 + 1 * (x 0).val = (x 0).val; rw [h0]; omega
  | ⟨1, _⟩ => show win1_2.index t 1 * 128 + 1 * (x 1).val = (x 1).val; rw [h1]; omega

/-! ## From the blocks to the array -/

/-- The result's term at an entry of block `tb`: the store of the point whose block holds the row. -/
theorem dense_at (X : FVec F S16384x128 .f32) (y3 : FVec F S4x1x4096 .f32) (yf : FVec F S128x128 .f32)
    (tb : Fin 4) (x : S4096x512.Idx) (j : S16384x512.Idx)
    (h0 : (j 0).val = 4096 * tb.val + (x 0).val) (h1 : (j 1).val = (x 1).val) :
    KTerm.dense X y3 yf j = KTerm.bodyOut (KTerm.xBlk X tb) (KTerm.y3Blk y3 tb) yf x := by
  have hx0 : (x 0).val < 4096 := (x 0).isLt
  have hb : KTerm.rowBlk (j 0) = tb := Fin.ext (by show (j 0).val / 4096 = tb.val; rw [h0]; omega)
  have hi : KTerm.rowIn (j 0) = x 0 := Fin.ext (by show (j 0).val % 4096 = (x 0).val; rw [h0]; omega)
  have hj : (j 1 : Fin 512) = x 1 := Fin.ext h1
  unfold KTerm.dense
  rw [hb, hi, hj]
  exact congrArg (KTerm.bodyOut (KTerm.xBlk X tb) (KTerm.y3Blk y3 tb) yf) (eq_ix2 (n0 := 4096) (n1 := 512) x).symm

/-- The result's array as the region leaves it. -/
abbrev denseC (c : Dev nD) : Buf (Elt F) (outLoc c) :=
  (KTerm.dense (m (xLoc c)) (y3C m c) (yfC m c) : FVec F S16384x512 .f32)

theorem outC_eq (c : Dev nD) : outC m c = denseC m c := rfl

/-- What point `t` writes back is block `t` of the result's term. -/
theorem flushed_eq (c : Dev nD) (t : Fin cfg1.N) (hf : (cfg1.win 3).flush t = true) :
    (dat0 m c).flushed 3 t = ((cfg1.win 3).blk t).view.read (Elt F) (denseC m c) := by
  obtain ⟨h0, h1⟩ := index_3 t
  show (dat0 m c).after 3 t = _
  rw [after_3, iblk0_eq, iblk1_eq, iblk2_eq]
  funext x
  rw [View.read_apply]
  show KTerm.bodyOut (KTerm.xBlk (m (xLoc c)) (tBlk t)) (KTerm.y3Blk (y3C m c) (tBlk t)) (yfC m c) x
    = KTerm.dense (m (xLoc c)) (y3C m c) (yfC m c) _
  refine (dense_at (m (xLoc c)) (y3C m c) (yfC m c) (tBlk t) x _ ?_ ?_).symm
  · show win1_3.index t 0 * 4096 + 1 * (x 0).val = 4096 * t.val + (x 0).val; rw [h0]; omega
  · show win1_3.index t 1 * 512 + 1 * (x 1).val = (x 1).val; rw [h1]; omega

/-- Row `r` of the result lies in the block of point `r / 4096`. -/
theorem cover (c : Dev nD) (i : ((cfg1.win 3).arr.view.loc (c : Thread nD τ)).2.ty.Idx) :
    ∃ t : Fin cfg1.N, (cfg1.win 3).flush t = true ∧ i ∈ ((cfg1.win 3).blk t).view.set := by
  have hi0 : (i 0).val < 16384 := (i 0).isLt
  have hi1 : (i 1).val < 512 := (i 1).isLt
  let t : Fin cfg1.N := ⟨(i 0).val / 4096, by rw [show cfg1.N = 4 from N_1]; omega⟩
  obtain ⟨h0, h1⟩ := index_3 t
  refine ⟨t, flush1_3 t, ?_⟩
  show i ∈ ((View.whole main_v5).slice (win1_3.rect t)).set
  rw [View.set_slice_whole, Rect.mem_set_unit]
  intro a
  match a with
  | ⟨0, _⟩ =>
    show win1_3.index t 0 * 4096 ≤ (i 0 : Nat) ∧ (i 0 : Nat) < win1_3.index t 0 * 4096 + 4096
    rw [h0]; show (i 0).val / 4096 * 4096 ≤ (i 0 : Nat) ∧ (i 0 : Nat) < (i 0).val / 4096 * 4096 + 4096; omega
  | ⟨1, _⟩ =>
    show win1_3.index t 1 * 512 ≤ (i 1 : Nat) ∧ (i 1 : Nat) < win1_3.index t 1 * 512 + 512
    rw [h1]; omega

/-- THE VALUE: after the four write-backs the result's array holds the kernel's term. -/
theorem final_out (c : Dev nD) : (dat0 m c).arrAt 3 cfg1.N = outC m c :=
  (dat0 m c).arrAt_eq_of_cover 3 (denseC m c) (flushed_eq m c) (cover c)

/-- The three input arrays reach the region's exit as it found them. -/
theorem final_x (c : Dev nD) : (dat0 m c).arrAt 0 cfg1.N = m (xLoc c) := ((dat0 m c).arrAt_in 0 rfl _).trans (A_eq m c 0)
theorem final_y3 (c : Dev nD) : (dat0 m c).arrAt 1 cfg1.N = y3C m c := ((dat0 m c).arrAt_in 1 rfl _).trans (A_eq m c 1)
theorem final_yf (c : Dev nD) : (dat0 m c).arrAt 2 cfg1.N = yfC m c := ((dat0 m c).arrAt_in 2 rfl _).trans (A_eq m c 2)

end Cert.Kernel.KL

end
-- ==== Proof.WRegion.lean ====
/-
  The dense kernel's region inside @main, as one step of the TensorCore's program: from the ten arrays of @main at
  what they hold when the region is entered — the result's array at its launch contents — to the same with the result
  at the kernel's term.
-/
import proofs.«205095_g39934605918594_cont_8to1_b_428_16_alg».proof.Proof.WRegionValue

set_option maxRecDepth 16384

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The TensorCore's holdings around the region -/

/-- The four arrays the dense kernel's windows name — features, the targets' two views, the result at `f` —, -/
abbrev regArrs (d : Dev nD) (f : Buf (Elt F) (outLoc d)) : sProp 𝕄 :=
  iprop((xLoc d ↦{fullShare} m (xLoc d)) ∗ (y3Loc d ↦{fullShare} y3C m d) ∗ (yfLoc d ↦{fullShare} yfC m d) ∗ (outLoc d ↦{fullShare} f))
/-- the six that no window names: labels, weights, the flag, the transposed weights, the flat table, the targets, -/
abbrev regRest (d : Dev nD) : sProp 𝕄 :=
  iprop((labLoc d ↦{fullShare} m (labLoc d)) ∗ (wLoc d ↦{fullShare} m (wLoc d)) ∗ (flagLoc d ↦{fullShare} m (flagLoc d))
    ∗ (wtLoc d ↦{fullShare} wtC m d) ∗ (tblLoc d ↦{fullShare} tblC m d) ∗ (yLoc d ↦{fullShare} yC m d))
/-- and what the TensorCore owes once the one SparseCore call is behind it. -/
abbrev tcOw (d : Dev nD) : sProp 𝕄 :=
  iprop(∃ W, ⌜(K (F := F)).WBelow (T d) W (8 * 1)⌝ ∗ owes (T d) ((K (F := F)).Otc d 1) W)

/-- The TensorCore's holdings as the region is entered, and as it is left. -/
abbrev regPre (d : Dev nD) : sProp 𝕄 := iprop(regArrs m d (m (outLoc d)) ∗ regRest m d ∗ tcOw (F := F) d ∗ ∃ r, prngReg d r)
abbrev regPost (d : Dev nD) : sProp 𝕄 := iprop(regArrs m d (outC m d) ∗ regRest m d ∗ tcOw (F := F) d ∗ ∃ r, prngReg d r)

/-! ## The region's record -/

/-- After its one SparseCore call the TensorCore owes nothing. -/
theorem Otc_one (d : Dev nD) : (K (F := F)).Otc d 1 = 0 := (K (F := F)).Otc_end d (le_refl 1)

/-- The pipeline's arrays at contents `Fa`, window by window. -/
theorem arrays_open (c : Dev nD) (Fa) :
    ((dats m 0 c).arrays Fa : sProp 𝕄)
      = iprop((xLoc c ↦{fullShare} Fa 0) ∗ (y3Loc c ↦{fullShare} Fa 1) ∗ (yfLoc c ↦{fullShare} Fa 2) ∗ (outLoc c ↦{fullShare} Fa 3)) := by
  rw [Pipeline.arrays_eq (Pipeline.pin (pcfgs (F := F)) aAdm) (dats m) 0 c arr_whole1 ((dats m 0 c).share_full fun _ => rfl) Fa, bigSep_W1]

/-- As the region finds them, -/
theorem arrays_entry (c : Dev nD) :
    ((dats m 0 c).arrays ((dats m 0 c).arrAt · 0) : sProp 𝕄) = regArrs m c (m (outLoc c)) := by
  rw [arrays_open]; rfl

/-- and as it leaves them: the inputs untouched, the result at the kernel's term. -/
theorem arrays_exit (c : Dev nD) :
    ((dats m 0 c).arrays ((dats m 0 c).arrAt · (Pipeline.pin (pcfgs (F := F)) aAdm 0).N) : sProp 𝕄) = regArrs m c (outC m c) := by
  rw [arrays_open]
  show iprop((xLoc c ↦{fullShare} (dat0 m c).arrAt 0 cfg1.N) ∗ (y3Loc c ↦{fullShare} (dat0 m c).arrAt 1 cfg1.N)
    ∗ (yfLoc c ↦{fullShare} (dat0 m c).arrAt 2 cfg1.N) ∗ (outLoc c ↦{fullShare} (dat0 m c).arrAt 3 cfg1.N)) = _
  rw [final_x, final_y3, final_yf, final_out]

/-- The pipeline has no prefetched table to hold. -/
theorem prefHeld_emp (c : Dev nD) :
    (Pipeline.prefHeld (pcfgs (F := F) 0).pre c (fun _ => fullShare) (aAdm (F := F) 0).1 : sProp 𝕄) = BI.emp := by
  unfold Pipeline.prefHeld; rw [show (Finset.univ : Finset (Fin 0)) = ∅ from rfl, BI.bigSep_empty]

/-- The region's invariant, spelt. -/
theorem Φ_eq (c : Dev nD) (t) :
    (dats m 0 c).Φ t = iprop(Pipeline.scopedRest (Ix := HIx 1) (Name := ℕ) (U := UU) (Lvl := ℕ) (Val := Elt F) spec1 c ∗ ∃ r, prngReg c r) := rfl

/-- THE REGION's record: pipeline 0's layout, no semaphore of the kernel's own, the body obligation, and the
    TensorCore's holdings sorted into the pipeline's arrays, the generator register (which enters the invariant) and
    the six arrays that bypass the region. -/
def reg : Pipeline.RegionSeg (pcfgs (F := F)) aAdm (dats m) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation m c).loose
  hwaits c := Pipeline.hwaits_of_owed_zero (pcfgs (F := F)) aAdm (dats m) (none : HIx 1) (K (F := F)).L (K (F := F)).lev 0 (fun _ _ => rfl) c
  pre := regPre m
  post := regPost m
  X c := iprop(∃ r, prngReg c r)
  Y c := iprop(∃ r, prngReg c r)
  Z c := regRest m c
  hentry c := by
    rw [Pipeline.ownSems0_none, arrays_entry, prefHeld_emp]
    unfold regPre tcOw
    rw [Otc_one]
    iintro ⟨⟨Ha, Hrest, ⟨%W, %hW, HO⟩, Hr⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitl [Hr]; · iexact Hr
    iexact Hrest
  hin c := by
    rw [Φ_eq, scopedRest1_eq]
    iintro ⟨HX, -, -⟩
    isplitr; · iempintro
    iexact HX
  hout c := by
    rw [Φ_eq, Pipeline.ownSems0_none, scopedRest1_eq]
    iintro ⟨-, HX⟩
    isplitl [HX]; · iexact HX
    isplitr <;> iempintro
  hexit c := by
    rw [arrays_exit]
    unfold regPost tcOw
    rw [Otc_one]
    iintro ⟨Ha, HO, Hr, Hrest⟩
    imodintro
    isplitl [Ha]; · iexact Ha
    isplitl [Hrest]; · iexact Hrest
    isplitl [HO]
    · unfold Pipeline.Dat.owesAt Pipeline.owesWithin
      icases HO with ⟨%W, %hW, HO⟩
      iexists W; isplitr
      · ipureintro
        intro p hp
        rcases hW hp with h | ⟨w, s, rfl⟩
        · exact h
        · exact Nat.zero_le _
      iexact HO
    iexact Hr

set_option backward.isDefEq.respectTransparency.types false in
/-- THE REGION as one step: from the region boundary, the holdings `regPre`, the level facts and the pipeline's cells'
    ghost state and duty tokens, the custom call of the dense kernel's pipeline runs to the boundary and `regPost`. -/
theorem region_step [∀ e, Nonempty (Elt F e)] (d : Dev nD) {α : Type}
    (k : PUnit → Prog (TpuEff nD τ sig (Elt F) (ΛP (F := F)) .tc) α) (Q : α → sProp 𝕄) :
    iprop((iprop(boundary (T d) ∗ regPost m d) -∗ wp frame (wpE (D (F := F)) 𝒱 (T d) none) Set.univ (k ⟨⟩) Q)
        ∗ boundary (T d) ∗ regPre m d ∗ levAts (K (F := F)).L (K (F := F)).lev
        ∗ Pipeline.cellsGhost (Pipeline.pin (pcfgs (F := F)) aAdm) EP 0 d ∗ Pipeline.toksInit (Pipeline.pin (pcfgs (F := F)) aAdm) EP 0 d)
      ⊢ wp frame (wpE (D (F := F)) 𝒱 (T d) none) Set.univ (.op (.customCall (Pipeline.entry 0) ()) k) Q :=
  Pipeline.RegionSeg.wp (pcfgs (F := F)) aAdm (dats m) (none : HIx 1) cellOf_inj EP defs₀ 𝒱₀ (K (F := F)).L (K (F := F)).lev
    (reg m) d none (fun u hu => by cases hu) k Q

end Cert.Kernel.KL

end
-- ==== Proof.WElem.lean ====
/-
  The launch element of the proof's ghost state: the handshakes' rounds, the dense kernel's staging cells' rounds
  (funded here, their invariants allocated when the region is entered), and the counters' unit.
-/
import proofs.«205095_g39934605918594_cont_8to1_b_428_16_alg».proof.Proof.WRegion

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The dense kernel's pipeline, its tables pinned (it has none). -/
abbrev pcs1 : Fin 1 → Pipeline.Cfg sig Λ₀ := Pipeline.pin (pcfgs (F := F)) aAdm

theorem cellOf_inj1 : Function.Injective (Pipeline.cellOf (nD := nD) (τ := τ) (pcs1 (F := F))) := cellOf_inj

/-- What the launch deals the TensorCore for the dense kernel's region: its staging cells' ghost state and the duty
    tokens of its transfers. -/
abbrev Gd (d : Dev nD) : sProp 𝕄 :=
  iprop(Pipeline.cellsGhost (pcs1 (F := F)) EP 0 d ∗ Pipeline.toksInit (pcs1 (F := F)) EP 0 d)

def u₀ : UU :=
  (initOf (K (F := F)).hsCells (K (F := F)).hsToks,
    (initOf (Pipeline.cells (pcs1 (F := F)) cellOf_inj1) (Pipeline.launchToks (pcs1 (F := F)) cellOf_inj1), 1))

omit [FloatOps F] in
theorem bigSep_emp' {I : Type} (s : Finset I) : (bigSep s fun _ => iprop(emp)) = (iprop(emp) : sProp 𝕄) := bigSep_emp_const s

/-- The element splits three ways; the staging cells' part funds, per device, the one pipeline's cells' ghost state and
    duty tokens; no vector subcore's proof is dealt anything. -/
theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pcs1 (F := F)) cellOf_inj1) (Pipeline.launchToks (pcs1 (F := F)) cellOf_inj1), (1 : Counters)) : UP × Counters)) $$ Hu
  icases H with ⟨HH, HR⟩
  ihave H2 := (own_pair_emb (ER (F := F)) (initOf (Pipeline.cells (pcs1 (F := F)) cellOf_inj1) (Pipeline.launchToks (pcs1 (F := F)) cellOf_inj1)) (1 : Counters)) $$ HR
  icases H2 with ⟨HP, -⟩
  imod (Pipeline.fund_ghost (pcs1 (F := F)) (EP (F := F)) cellOf_inj1) $$ HP with ⟨Hg, Ht⟩
  imodintro
  isplitl [HH]; · iexact HH
  isplitl [Hg Ht]
  · rw [bigSep_sep']
    isplitl [Hg]
    · rw [show (bigSep Finset.univ fun d : Dev nD => (Pipeline.cellsGhost (pcs1 (F := F)) EP 0 d : sProp 𝕄))
          = bigSep Finset.univ fun d : Dev nD => bigSep Finset.univ fun p : Fin 1 => Pipeline.cellsGhost (pcs1 (F := F)) EP p d from
        bigSep_congr fun d _ => (bigSep_univ_of_subsingleton (0 : Fin 1) (Φ := fun p : Fin 1 => (Pipeline.cellsGhost (pcs1 (F := F)) EP p d : sProp 𝕄))).symm]
      iexact Hg
    · rw [show (bigSep Finset.univ fun d : Dev nD => (Pipeline.toksInit (pcs1 (F := F)) EP 0 d : sProp 𝕄))
          = bigSep Finset.univ fun d : Dev nD => bigSep Finset.univ fun p : Fin 1 => Pipeline.toksInit (pcs1 (F := F)) EP p d from
        bigSep_congr fun d _ => (bigSep_univ_of_subsingleton (0 : Fin 1) (Φ := fun p : Fin 1 => (Pipeline.toksInit (pcs1 (F := F)) EP p d : sProp 𝕄))).symm]
      iexact Ht
  · rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), bigSep_emp']
    iempintro

end Cert.Kernel.KL

end
-- ==== Proof.WFin.lean ====
/-
  Reading the claim off the final memory: an array held whole at the full share beside the state interpretation
  is what the memory holds there.
-/
import proofs.«205095_g39934605918594_cont_8to1_b_428_16_alg».proof.Proof.WRegion

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the TensorCore ends holding: its ten arrays, the result at the kernel's term. -/
abbrev FIN (d : Dev nD) : sProp 𝕄 := iprop(regArrs m d (outC m d) ∗ regRest m d)

def fq (d : Dev nD) (s' : Phys nD τ sig (Elt F)) : Prop :=
  s'.mem.mem (outLoc d) = outC m d ∧ s'.mem.mem (xLoc d) = m (xLoc d) ∧ s'.mem.mem (labLoc d) = m (labLoc d)
    ∧ s'.mem.mem (wLoc d) = m (wLoc d) ∧ s'.mem.mem (flagLoc d) = m (flagLoc d)

set_option maxRecDepth 16384 in
theorem hfin (d : Dev nD) (s' : Phys nD τ sig (Elt F)) : iprop(FIN m d ∗ SI s') ⊢ (⌜fq m d s'⌝ : sProp 𝕄) := by
  iintro ⟨⟨⟨Hx, -, -, Ho⟩, ⟨Hl, Hw, Hf, -, -, -⟩⟩, HSI⟩
  ihave H := (persistent_entails_right (SI_pointsTo_agree (st := s') (ℓ := outLoc d) (I := Finset.univ) (q := fullShare) (f := outC m d))) $$ [HSI Ho]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := labLoc d) (I := Finset.univ) (q := fullShare) (f := m (labLoc d)))) $$ [HSI Hl]
  · isplitl [HSI] <;> iassumption
  icases H with ⟨%h3, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h4, HSI, -⟩
  ihave H := (SI_pointsTo_agree (st := s') (ℓ := flagLoc d) (I := Finset.univ) (q := fullShare) (f := m (flagLoc d))) $$ [HSI Hf]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

end Cert.Kernel.KL

end
-- ==== Proof.WMain.lean ====
/-
  @main on the TensorCore: two host lines lay the weights out as the flat table; the gather call is started and
  waited for, its operands handed over and its results taken back; two host lines view the gathered targets as
  `[4, 1, 4096]` and `[128, 128]`; the dense kernel's region runs.
-/
import proofs.«205095_g39934605918594_cont_8to1_b_428_16_alg».proof.Proof.WSplit
import proofs.«205095_g39934605918594_cont_8to1_b_428_16_alg».proof.Proof.WElem
import proofs.«205095_g39934605918594_cont_8to1_b_428_16_alg».proof.Proof.WFin

set_option maxRecDepth 16384

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's ten arrays -/

omit [FloatOps F] in
/-- The launch deals @main's ten arrays, none of them scoped, each whole at its launch contents. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (labLoc d ↦{fullShare} W main_arg1) ∗ (wLoc d ↦{fullShare} W main_arg2)
          ∗ (flagLoc d ↦{fullShare} W main_arg3) ∗ (wtLoc d ↦{fullShare} W main_v0) ∗ (tblLoc d ↦{fullShare} W main_v1)
          ∗ (yLoc d ↦{fullShare} W main_v2) ∗ (y3Loc d ↦{fullShare} W main_v3) ∗ (yfLoc d ↦{fullShare} W main_v4)
          ∗ (outLoc d ↦{fullShare} W main_v5)) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-! ## A host line over two arrays -/

/-- A host operation that reads the array `x` and writes the array `y`, both held whole: `x` keeps its contents and
    `y` takes the operation's value at them. -/
theorem wp_hostLine (d : Dev nD) {hp : (SparseCore.T (nD := nD) (τ := τ) d).2.kind.runsHlo = true} {op : HloOp τ sig (Elt F)} {x y : Ref sig .tc} (hxy : x ≠ y)
    (hbufs : op.bufs = {Proc.devRef .tc x, Proc.devRef .tc y}) (hf : op.fresh = ∅)
    (g : x.ty.Contents (Elt F) → y.ty.Contents (Elt F))
    (hx : ∀ V : Valuation τ sig (Elt F), op.result V (Proc.devRef .tc x) = V (Proc.devRef .tc x))
    (hy : ∀ V : Valuation τ sig (Elt F), op.result V (Proc.devRef .tc y) = g (V (Proc.devRef .tc x)))
    (V₀ : Valuation τ sig (Elt F))
    (vx : Buf (Elt F) ((SparseCore.T d).loc x)) (vy : Buf (Elt F) ((SparseCore.T d).loc y)) {Q : PUnit → sProp 𝕄} :
    iprop(boundary (SparseCore.T d) ∗ ((SparseCore.T d).loc x ↦{fullShare} vx) ∗ ((SparseCore.T d).loc y ↦{fullShare} vy)
        ∗ ((boundary (SparseCore.T d) ∗ ((SparseCore.T d).loc x ↦{fullShare} vx) ∗ ((SparseCore.T d).loc y ↦{fullShare} g vx)) -∗ Q ⟨⟩))
      ⊢ wp frame (wpE ((K (F := F)).defs (D (F := F))) 𝒱 (SparseCore.T d) none) Set.univ (hlo hp op fun _ => .ret ⟨⟩) Q := by
  classical
  have hne : (Proc.devRef .tc x : DevRef τ sig) ≠ Proc.devRef .tc y := StableHlo.devRef_ne_of_ne hxy
  let V : Valuation τ sig (Elt F) :=
    Function.update (Function.update V₀ (Proc.devRef .tc x) vx) (Proc.devRef .tc y) vy
  have Vx : V (Proc.devRef .tc x) = vx := by
    show Function.update (Function.update V₀ (Proc.devRef .tc x) vx) (Proc.devRef .tc y) vy (Proc.devRef .tc x) = vx
    rw [Function.update_of_ne hne, Function.update_self]
  have Vy : V (Proc.devRef .tc y) = vy := Function.update_self _ _ _
  have e0 : (held (SparseCore.T d) op.bufs V : sProp 𝕄)
      = iprop(((SparseCore.T d).loc x ↦{fullShare} vx) ∗ ((SparseCore.T d).loc y ↦{fullShare} vy)) := by
    unfold held
    rw [hbufs, SparseCore.bigSep_insert' (by simpa using hne), bigSep_singleton, Vx, Vy]
  have e1 : (held (SparseCore.T d) op.bufs (op.result V) : sProp 𝕄)
      = iprop(((SparseCore.T d).loc x ↦{fullShare} vx) ∗ ((SparseCore.T d).loc y ↦{fullShare} g vx)) := by
    unfold held
    rw [hbufs, SparseCore.bigSep_insert' (by simpa using hne), bigSep_singleton, hx, hy, Vx]
  iintro ⟨Hb, Hx, Hy, Hk⟩
  iapply (wp_hlo_within 𝒱 (SparseCore.T d) none Set.univ (op := op) (S := op.bufs) subset_rfl (V := V) hf) $$ [Hb Hx Hy]
  · isplitl [Hb]; · iexact Hb
    rw [e0]
    isplitl [Hx]; · iexact Hx
    iexact Hy
  rw [e1, wp_ret]
  iintro ⟨Hb, Hx, Hy⟩
  imodintro
  iapply Hk
  isplitl [Hb]; · iexact Hb
  isplitl [Hx]; · iexact Hx
  iexact Hy

/-- @main on device `d`'s TensorCore. The weights are transposed and flattened into the table; the table's full
    share is split into the 32 workers' read tokens and a remainder kept aside, and with the labels and the targets
    whole they are the call's operands; they come back with the targets gathered, and the tokens join the remainder
    again; the targets are viewed as four slabs and as a square; the dense kernel's region then takes the ten arrays,
    what the TensorCore still owes (the first conjunct of its state after the call) and some generator register,
    and leaves the result at the kernel's term. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hlab, Hw, Hflag, Hwt, Htbl, Hy, Hy3, Hyf, Hout⟩, -, Hprng⟩, HG⟩
  -- the weights transposed
  iapply (wp_hostLine d (x := main_arg2) (y := main_v0) (by decide) rfl rfl
      (fun v => transpose S100000x1x512 [1, 2, 0] v Facts₀.transposes_S512x100000x1_S100000x1x512_1_2_0)
      (fun V => StableHlo.unary_result_ne _ _ _ _ _ V (by decide)) (fun V => StableHlo.unary_result _ _ _ _ _ V)
      (fun r => m (d, r)) (m (wLoc d)) (m (wtLoc d)))
  isplitl [Hb]; · iexact Hb
  isplitl [Hw]; · iexact Hw
  isplitl [Hwt]; · iexact Hwt
  iintro ⟨Hb, Hw, Hwt⟩
  -- and read row-major: the flat table
  iapply (wp_hostLine d (x := main_v0) (y := main_v1) (by decide) rfl rfl
      (fun v => shapeCast S51200000 v Facts₀.shapeCasts_S100000x1x512_S51200000)
      (fun V => StableHlo.reshape_result_ne _ _ _ _ _ _ V (by decide)) (fun V => StableHlo.reshape_result _ _ _ _ _ _ V)
      (fun r => m (d, r)) (wtC m d) (m (tblLoc d)))
  isplitl [Hb]; · iexact Hb
  isplitl [Hwt]; · iexact Hwt
  isplitl [Htbl]; · iexact Htbl
  iintro ⟨Hb, Hwt, Htbl⟩
  -- the call: the labels, the table's 32 read tokens and the targets go out, and come back with the targets gathered
  ihave Ht := (Transfers.pointsTo_toks_split fullShare 32) $$ Htbl
  icases Ht with ⟨Htr, Htoks⟩
  iapply ((K (F := F)).wp_run (D (F := F)) 𝒱 (EH := EH) (P := P m) κ d 0)
  isplitr; · iexact Hctx
  isplitl [Hst]; · iexact Hst
  isplitl [Hlab Htoks Hy]
  · iapply (st_of_whole m d)
    isplitl [Hlab]; · iexact Hlab
    isplitl [Htoks]; · iexact Htoks
    iexact Hy
  iintro ⟨Hst, Hdn⟩
  ihave Hdn' := (whole_of_dn m d) $$ Hdn
  icases Hdn' with ⟨Hlab, Htoks, Hy⟩
  ihave Htbl := (Transfers.pointsTo_toks_join fullShare 32) $$ [Htr Htoks]
  · isplitl [Htr]; · iexact Htr
    iexact Htoks
  -- the gathered targets viewed as four slabs of 4096
  iapply (wp_hostLine d (x := main_v2) (y := main_v3) (by decide) rfl rfl
      (fun v => shapeCast S4x1x4096 v Facts₀.shapeCasts_S16384_S4x1x4096)
      (fun V => StableHlo.reshape_result_ne _ _ _ _ _ _ V (by decide)) (fun V => StableHlo.reshape_result _ _ _ _ _ _ V)
      (fun r => m (d, r)) (yC m d) (m (y3Loc d)))
  isplitl [Hb]; · iexact Hb
  isplitl [Hy]; · iexact Hy
  isplitl [Hy3]; · iexact Hy3
  iintro ⟨Hb, Hy, Hy3⟩
  -- and as a square
  iapply (wp_hostLine d (x := main_v2) (y := main_v4) (by decide) rfl rfl
      (fun v => shapeCast S128x128 v Facts₀.shapeCasts_S16384_S128x128)
      (fun V => StableHlo.reshape_result_ne _ _ _ _ _ _ V (by decide)) (fun V => StableHlo.reshape_result _ _ _ _ _ _ V)
      (fun r => m (d, r)) (yC m d) (m (yfLoc d)))
  isplitl [Hb]; · iexact Hb
  isplitl [Hy]; · iexact Hy
  isplitl [Hyf]; · iexact Hyf
  iintro ⟨Hb, Hy, Hyf⟩
  -- the dense kernel's region
  rw [show (Prog.lift (TpuEff.customCall (SparseCore.inner (Pipeline.entry 0)) ())
        : Prog (TpuEff nD τ sig (Elt F) (SparseCore.Sig (ΛP (F := F)) 1) (SparseCore.T (nD := nD) (τ := τ) d).2) PUnit)
      = SparseCore.liftProg (.op (.customCall (Pipeline.entry 0) ()) fun x => .ret x) from rfl]
  iapply ((K (F := F)).wp_liftProg (D (F := F)) 𝒱 (SparseCore.T d) Set.univ none _ _)
  iapply (region_step m d (fun x => .ret x) _)
  obtain ⟨R, hR⟩ : ∃ R : sProp 𝕄, (K (F := F)).tcSt EH d 1 = iprop(tcOw (F := F) d ∗ R) := ⟨_, rfl⟩
  rw [hR]
  have hR' : (K (F := F)).tcSt EH d ((0 : Fin 1).val + 1) = iprop(tcOw (F := F) d ∗ R) := hR
  ihave Hst' := (Entails.of_eq hR') $$ Hst
  icases Hst' with ⟨Hown, Hrest⟩
  ihave Hlev := (SparseCore.Cfg.ctx_levAts κ) $$ Hctx
  icases HG with ⟨HG1, HG2⟩
  isplitl [Hrest]
  · -- after the region: the result at the kernel's term; the generator register is dropped
    iintro ⟨Hb, Harrs, Hrst, Hown, -⟩
    rw [wp_ret]; imodintro; imodintro
    isplitl [Hown Hrest]
    · isplitl [Hown]; · iexact Hown
      iexact Hrest
    isplitl [Harrs]; · iexact Harrs
    iexact Hrst
  isplitl [Hb]; · iexact Hb
  isplitl [Hx Hy3 Hyf Hout Hlab Hw Hflag Hwt Htbl Hy Hown Hprng]
  · isplitl [Hx Hy3 Hyf Hout]
    · isplitl [Hx]; · iexact Hx
      isplitl [Hy3]; · iexact Hy3
      isplitl [Hyf]; · iexact Hyf
      iexact Hout
    isplitl [Hlab Hw Hflag Hwt Htbl Hy]
    · isplitl [Hlab]; · iexact Hlab
      isplitl [Hw]; · iexact Hw
      isplitl [Hflag]; · iexact Hflag
      isplitl [Hwt]; · iexact Hwt
      isplitl [Htbl]; · iexact Htbl
      iexact Hy
    isplitl [Hown]; · iexact Hown
    iexists _; iexact Hprng
  isplitl [Hlev]; · iexact Hlev
  isplitl [HG1]; · iexact HG1
  iexact HG2

end Cert.Kernel.KL

end
-- ==== Proof.WLaunch.lean ====
/-
  The kernel's program, run: the SparseCore launch theorem applied to the one gather call and to @main on the
  TensorCore.
-/
import proofs.«205095_g39934605918594_cont_8to1_b_428_16_alg».proof.Proof.WObl
import proofs.«205095_g39934605918594_cont_8to1_b_428_16_alg».proof.Proof.WMain

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- Every weakly fair execution ends with the result at the kernel's term and the four arguments unchanged. -/
def QC : PUnit × MemSt nD τ sig (Elt F) → Prop := fun r => ∀ c : Dev nD,
  r.2.mem (outLoc c) = outC m c ∧ r.2.mem (xLoc c) = m (xLoc c) ∧ r.2.mem (labLoc c) = m (labLoc c)
    ∧ r.2.mem (wLoc c) = m (wLoc c) ∧ r.2.mem (flagLoc c) = m (flagLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.Kernel.KL

end
-- ==== Proof.ClaimsWord.lean ====
/-
  The word-level kernel's frame: its run, read at the word-level instance, with the result's conjunct dropped. The
  run asks only that every label be at most 99999, which the precondition's integer conjunct gives at any float
  instance.
-/
import proofs.«205095_g39934605918594_cont_8to1_b_428_16_alg».proof.Defs
import proofs.«205095_g39934605918594_cont_8to1_b_428_16_alg».proof.Proof.WLaunch
import proofs.«205095_g39934605918594_cont_8to1_b_428_16_alg».proof.Proof.PreFacts
import proofs.«205095_g39934605918594_cont_8to1_b_428_16_alg».proof.Proof.Gen.Kernel
import proofs.«205095_g39934605918594_cont_8to1_b_428_16_alg».proof.Proof.Gen.Pre_input_domain

noncomputable section

namespace Cert.Proof.ClaimsWord

open Idealize.ShloMosaic Idealize.SL.Sem

/-- The precondition bounds the labels of the word-level program's launch memory. -/
theorem preOK (m : (ℓ : Loc Cert.Kernel.nD Cert.Kernel.τ Cert.Kernel.sig) → Buf (Elt Bits) ℓ)
    (h : Cert.Pre_Kernel (hPre_input_domain := Cert.Pre_input_domain.Gen.facts) m) : Cert.Kernel.KL.PreOK (F := Bits) m :=
  fun d j => Cert.PreFacts.range_of_pre (F := Bits) _ _ _ _ (h d) j

theorem frame_k : Cert.frame_Kernel (hKernel := Cert.Kernel.Gen.facts) (hPre_input_domain := Cert.Pre_input_domain.Gen.facts) :=
  fun m ρ hpre =>
    (θ_run (Cert.Kernel.defs (F := Bits)) _ _).mono (fun _ h c => ⟨(h c).2.1, (h c).2.2.1, (h c).2.2.2.1, (h c).2.2.2.2⟩)
      (Cert.Kernel.KL.run_main (F := Bits) m ρ (preOK m hpre))

end Cert.Proof.ClaimsWord

end
-- ==== Proof.lean ====
/-
  The proof of `Cert.Claim`: a SparseCore gather followed by a dense per-sample regression kernel, against the plain
  reference.

  The kernel gathers, for each of 16384 samples, row 0 of a weight table at the sample's label (32 vector subcores,
  512 samples each, through a flat layout of the table in which entry 512 · label is that weight), and a dense kernel
  then fits, per sample, the line through the sample's 128 features and its target and evaluates it on the features'
  sum, writing the prediction into all 512 columns of the sample's row. The reference takes the same row with a
  masked gather, computes the same prediction with the cross term spelt as a sum of products where the kernel
  multiplies once, and scatters it into every row of the transposed result. Both programs run to the end and leave
  their arguments unchanged (the three frames); the idealized kernel is the kernel's own text (nothing was rewritten);
  and at the extended reals the two results agree entry by entry: the gathered entry is the taken one for a label in
  range, and the two cross terms agree because the features and the weights are real numbers.
-/
import proofs.«205095_g39934605918594_cont_8to1_b_428_16_alg».proof.Defs
import proofs.«205095_g39934605918594_cont_8to1_b_428_16_alg».proof.Proof.ClaimsIdeal
import proofs.«205095_g39934605918594_cont_8to1_b_428_16_alg».proof.Proof.ClaimsWord
import proofs.«205095_g39934605918594_cont_8to1_b_428_16_alg».proof.Proof.Gen.Kernel
import proofs.«205095_g39934605918594_cont_8to1_b_428_16_alg».proof.Proof.Gen.KernelIdeal
import proofs.«205095_g39934605918594_cont_8to1_b_428_16_alg».proof.Proof.Gen.ReferenceIdeal
import proofs.«205095_g39934605918594_cont_8to1_b_428_16_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    ClaimsWord.frame_k, ClaimsIdeal.frame_ki, ClaimsIdeal.frame_ri, ClaimsIdeal.preserves, ClaimsIdeal.algebraic⟩

end Cert.Proof

end
